-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x3200000 : Shape := ⟨2, ![2, 3200000]⟩
abbrev S100000 : Shape := ⟨1, ![100000]⟩
abbrev S8x16 : Shape := ⟨2, ![8, 16]⟩
abbrev S16 : Shape := ⟨1, ![16]⟩
abbrev S16x20 : Shape := ⟨2, ![16, 20]⟩
abbrev S20 : Shape := ⟨1, ![20]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x20 : S_.BroadcastsInDim S16x20 (![] : Fin 0 → Fin S16x20.rank)
  reducesTo_S16x20_S_d0_1 : S16x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg6 : FVec F S16x20 .f32) (main_arg7 : FVec F S20 .f32) (main_arg8 : FVec F S16x20 .f32) (main_v13 : IVec S_ 1) (main_v16 : IVec S8x16 1) : IVec S_ 1 :=
  let main_c_5 : IVec S_ 1 := constantI S_ 1 1#1
  let main_v17 : IVec S_ 1 := (fun x v => Host.reduce IntOp.andi x v reducesTo_S8x16_S_d0_1 h_S_) main_v16 main_c_5
  let main_v18 : IVec S_ 1 := andi main_v13 main_v17
  let main_v19 : FVec F S16x20 .f32 := Host.absf main_arg6
  let main_cst_6 : FVec F S_ .f32 := constant S_ .f32 0x7F800000#32
  let main_v20 : FVec F S16x20 .f32 := broadcastInDim S16x20 ![] bcast_S_S16x20 main_cst_6
  let main_v21 : IVec S16x20 1 := cmpf .olt main_v19 main_v20
  let main_c_7 : IVec S_ 1 := constantI S_ 1 1#1
  let main_v22 : IVec S_ 1 := (fun x v => Host.reduce IntOp.andi x v reducesTo_S16x20_S_d0_1 h_S_) main_v21 main_c_7
  let main_v23 : IVec S_ 1 := andi main_v18 main_v22
  let main_v24 : FVec F S20 .f32 := Host.absf main_arg7
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S16x20 .f32 := Host.absf main_arg8
  let main_cst_10 : FVec F S_ .f32 := constant S_ .f32 0x7F800000#32
  let main_v30 : FVec F S16x20 .f32 := broadcastInDim S16x20 ![] bcast_S_S16x20 main_cst_10
  let main_v31 : IVec S16x20 1 := cmpf .olt main_v29 main_v30
  let main_c_11 : IVec S_ 1 := constantI S_ 1 1#1
  let main_v32 : IVec S_ 1 := (fun x v => Host.reduce IntOp.andi x v reducesTo_S16x20_S_d0_1 h_S_) main_v31 main_c_11
  let main_v33 : IVec S_ 1 := andi main_v28 main_v32
  main_v33

def fn {F : FTy → Type} [FloatOps F] (main_arg0 : FVec F S100000x8 .f32) (main_arg1 : IVec S2x3200000 32) (main_arg2 : IVec S100000 32) (main_arg3 : FVec F S8x16 .f32) (main_arg4 : FVec F S16 .f32) (main_arg5 : FVec F S8x16 .f32) (main_arg6 : FVec F S16x20 .f32) (main_arg7 : FVec F S20 .f32) (main_arg8 : FVec F S16x20 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S8x16 .f32 := Host.absf main_arg3
  let main_cst_0 : FVec F S_ .f32 := constant S_ .f32 0x7F800000#32
  let main_v5 : FVec F S8x16 .f32 := broadcastInDim S8x16 ![] bcast_S_S8x16 main_cst_0
  let main_v6 : IVec S8x16 1 := cmpf .olt main_v4 main_v5
  let main_c_1 : IVec S_ 1 := constantI S_ 1 1#1
  let main_v7 : IVec S_ 1 := (fun x v => Host.reduce IntOp.andi x v reducesTo_S8x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S8x16 .f32 := Host.absf main_arg5
  let main_cst_4 : FVec F S_ .f32 := constant S_ .f32 0x7F800000#32
  let main_v15 : FVec F S8x16 .f32 := broadcastInDim S8x16 ![] bcast_S_S8x16 main_cst_4
  let main_v16 : IVec S8x16 1 := cmpf .olt main_v14 main_v15
  fn_part1 (F := F) main_arg6 main_arg7 main_arg8 main_v13 main_v16
-- ==== Kernel.lean ====
abbrev S100000x8 : Shape := ⟨2, ![100000, 8]⟩
abbrev S2x3200000 : Shape := ⟨2, ![2, 3200000]⟩
abbrev S100000 : Shape := ⟨1, ![100000]⟩
abbrev S8x16 : Shape := ⟨2, ![8, 16]⟩
abbrev S16 : Shape := ⟨1, ![16]⟩
abbrev S16x20 : Shape := ⟨2, ![16, 20]⟩
abbrev S20 : Shape := ⟨1, ![20]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x8 : Shape := ⟨2, ![3200000, 8]⟩
abbrev S100000x1 : Shape := ⟨2, ![100000, 1]⟩
abbrev S1x16 : Shape := ⟨2, ![1, 16]⟩
abbrev S100000x16 : Shape := ⟨2, ![100000, 16]⟩
abbrev S10000x8 : Shape := ⟨2, ![10000, 8]⟩
abbrev S10000x16 : Shape := ⟨2, ![10000, 16]⟩
abbrev S3200000x16 : Shape := ⟨2, ![3200000, 16]⟩
abbrev S1x20 : Shape := ⟨2, ![1, 20]⟩
abbrev S100000x20 : Shape := ⟨2, ![100000, 20]⟩
abbrev S10000x20 : Shape := ⟨2, ![10000, 20]⟩
abbrev S256x20 : Shape := ⟨2, ![256, 20]⟩
abbrev S2000x1 : Shape := ⟨2, ![2000, 1]⟩
abbrev S2000x20 : Shape := ⟨2, ![2000, 20]⟩
abbrev S256x1 : Shape := ⟨2, ![256, 1]⟩
abbrev S2000x256 : Shape := ⟨2, ![2000, 256]⟩

abbrev nBuf : Space → Nat
  | .hbm => 69
  | .vmem => 25
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S100000, .i32⟩
  | .hbm, ⟨3, _⟩ => ⟨S8x16, .f32⟩
  | .hbm, ⟨4, _⟩ => ⟨S16, .f32⟩
  | .hbm, ⟨5, _⟩ => ⟨S8x16, .f32⟩
  | .hbm, ⟨6, _⟩ => ⟨S16x20, .f32⟩
  | .hbm, ⟨7, _⟩ => ⟨S20, .f32⟩
  | .hbm, ⟨8, _⟩ => ⟨S16x20, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x8, .f32⟩
  | .hbm, ⟨22, _⟩ => ⟨S_, .f32⟩
  | .hbm, ⟨23, _⟩ => ⟨S100000x8, .f32⟩
  | .hbm, ⟨24, _⟩ => ⟨S3200000x1, .i32⟩
  | .hbm, ⟨25, _⟩ => ⟨S100000x8, .f32⟩
  | .hbm, ⟨26, _⟩ => ⟨S_, .f32⟩
  | .hbm, ⟨27, _⟩ => ⟨S3200000, .f32⟩
  | .hbm, ⟨28, _⟩ => ⟨S_, .f32⟩
  | .hbm, ⟨29, _⟩ => ⟨S100000, .f32⟩
  | .hbm, ⟨30, _⟩ => ⟨S3200000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x8, .f32⟩
  | .hbm, ⟨37, _⟩ => ⟨S100000x8, .f32⟩
  | .hbm, ⟨38, _⟩ => ⟨S1x16, .f32⟩
  | .hbm, ⟨39, _⟩ => ⟨S100000x16, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x16, .f32⟩
  | .hbm, ⟨49, _⟩ => ⟨S_, .f32⟩
  | .hbm, ⟨50, _⟩ => ⟨S100000x16, .f32⟩
  | .hbm, ⟨51, _⟩ => ⟨S3200000x1, .i32⟩
  | .hbm, ⟨52, _⟩ => ⟨S100000x16, .f32⟩
  | .hbm, ⟨53, _⟩ => ⟨S_, .f32⟩
  | .hbm, ⟨54, _⟩ => ⟨S3200000, .f32⟩
  | .hbm, ⟨55, _⟩ => ⟨S_, .f32⟩
  | .hbm, ⟨56, _⟩ => ⟨S100000, .f32⟩
  | .hbm, ⟨57, _⟩ => ⟨S3200000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x16, .f32⟩
  | .hbm, ⟨64, _⟩ => ⟨S100000x16, .f32⟩
  | .hbm, ⟨65, _⟩ => ⟨S1x20, .f32⟩
  | .hbm, ⟨66, _⟩ => ⟨S100000x20, .f32⟩
  | .hbm, ⟨67, _⟩ => ⟨S100000x1, .i32⟩
  | .hbm, ⟨68, _⟩ => ⟨S256x20, .f32⟩
  | .local _ .vmem, ⟨0, _⟩ => ⟨S10000x8, .f32⟩
  | .local _ .vmem, ⟨1, _⟩ => ⟨S10000x8, .f32⟩
  | .local _ .vmem, ⟨2, _⟩ => ⟨S10000x8, .f32⟩
  | .local _ .vmem, ⟨3, _⟩ => ⟨S10000x8, .f32⟩
  | .local _ .vmem, ⟨4, _⟩ => ⟨S8x16, .f32⟩
  | .local _ .vmem, ⟨5, _⟩ => ⟨S8x16, .f32⟩
  | .local _ .vmem, ⟨6, _⟩ => ⟨S1x16, .f32⟩
  | .local _ .vmem, ⟨7, _⟩ => ⟨S10000x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S16x20, .f32⟩
  | .local _ .vmem, ⟨14, _⟩ => ⟨S16x20, .f32⟩
  | .local _ .vmem, ⟨15, _⟩ => ⟨S1x20, .f32⟩
  | .local _ .vmem, ⟨16, _⟩ => ⟨S10000x20, .f32⟩
  | .local _ .vmem, ⟨17, _⟩ => ⟨S10000x20, .f32⟩
  | .local _ .vmem, ⟨18, _⟩ => ⟨S2000x1, .i32⟩
  | .local _ .vmem, ⟨19, _⟩ => ⟨S2000x1, .i32⟩
  | .local _ .vmem, ⟨20, _⟩ => ⟨S2000x20, .f32⟩
  | .local _ .vmem, ⟨21, _⟩ => ⟨S2000x20, .f32⟩
  | .local _ .vmem, ⟨22, _⟩ => ⟨S256x20, .f32⟩
  | .local _ .vmem, ⟨23, _⟩ => ⟨S256x20, .f32⟩
  | .local _ .vmem, ⟨24, _⟩ => ⟨S256x1, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_scratch0 : Ref sig .tc := ⟨.vmem, 23, rfl⟩
abbrev cc2_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x20 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x20 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x20 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x20 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v27 : BitVec 1 := Scalar.cmpi .eq arg0 c49_i32
  let v28 : BitVec 32 := Scalar.extui v27
  let c0_i32_14 : BitVec 32 := 0#32
  let v29 : BitVec 1 := Scalar.cmpi .ne v28 c0_i32_14
  v29

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x20 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x20 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  shapeCasts_S16_S1x16 : S16.ShapeCasts S1x16
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  bitsLt_bf16_f32 : FTy.bits .bf16 < FTy.bits .f32
  inb_S8x16_S8x16_0_0 : ∀ a, (![0, 0] : Fin 2 → Nat) a + S8x16.size a ≤ S8x16.size a
  h_S8x16 : 0 < S8x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S20_S1x20 : S20.ShapeCasts S1x20
  shapeCasts_S10000x16_S10000x16 : S10000x16.ShapeCasts S10000x16
  inb_S16x20_S16x20_0_0 : ∀ a, (![0, 0] : Fin 2 → Nat) a + S16x20.size a ≤ S16x20.size a
  h_S16x20 : 0 < S16x20.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S10000x20 : S1x20.Broadcasts S10000x20
  inb_S10000x20_S10000x20_0_0 : ∀ a, (![0, 0] : Fin 2 → Nat) a + S10000x20.size a ≤ S10000x20.size a
  h_S10000x20 : 0 < S10000x20.numel
  shapeCasts_S100000_S100000x1 : S100000.ShapeCasts S100000x1
  inb_S256x20_S256x20_0_0 : ∀ a, (![0, 0] : Fin 2 → Nat) a + S256x20.size a ≤ S256x20.size a
  h_S256x20 : 0 < S256x20.numel
  shapeCasts_S256x20_S256x20 : S256x20.ShapeCasts S256x20
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x256_d1_w32 : S2000x256.Iotas .tc 32 [1]
  broadcasts_S2000x1_S2000x256 : S2000x1.Broadcasts S2000x256
  natLt_1_32 : 1 < 32
  inb_S2000x20_S2000x20_0_0 : ∀ a, (![0, 0] : Fin 2 → Nat) a + S2000x20.size a ≤ S2000x20.size a
  h_S2000x20 : 0 < S2000x20.numel
  shapeCasts_S2000x20_S2000x20 : S2000x20.ShapeCasts S2000x20
  broadcasts_S256x1_S256x20 : S256x1.Broadcasts S256x20
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  scatter_S100000_S3200000x1_S3200000_n_0_0_1_wf : ScatterDims.WF S100000 S3200000x1 S3200000 [] [0] [0] 1
  dot_S10000x8_S8x16_S10000x16_1_0_0_1_n_n_wf : DotDims.WF S10000x8 S8x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x20_S10000x20_1_0_0_1_n_n_wf : DotDims.WF S10000x16 S16x20 S10000x20 [1] [0] [0] [1] [] []
  dot_S2000x256_S2000x20_S256x20_0_0_1_1_n_n_wf : DotDims.WF S2000x256 S2000x20 S256x20 [0] [0] [1] [1] [] []
  dot_S2000x256_S2000x1_S256x1_0_0_1_1_n_n_wf : DotDims.WF S2000x256 S2000x1 S256x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x8.size a ≤ S100000x8.size a
  hwx0_0 : ∀ i : grid0.Coords, EltTy.bits .f32 = 32 ∨ (Rect.block (s := S100000x8) S10000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x8.size a ≤ S100000x8.size a
  hwx0_1 : ∀ i : grid0.Coords, EltTy.bits .f32 = 32 ∨ (Rect.block (s := S100000x8) S10000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x16.size a ≤ S8x16.size a
  hwx0_2 : ∀ i : grid0.Coords, EltTy.bits .f32 = 32 ∨ (Rect.block (s := S8x16) S8x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x16.size a ≤ S8x16.size a
  hwx0_3 : ∀ i : grid0.Coords, EltTy.bits .f32 = 32 ∨ (Rect.block (s := S8x16) S8x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x16.size a ≤ S100000x16.size a
  hwx0_5 : ∀ i : grid0.Coords, EltTy.bits .f32 = 32 ∨ (Rect.block (s := S100000x16) S10000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x20.size a ≤ S16x20.size a
  hwx1_2 : ∀ i : grid1.Coords, EltTy.bits .f32 = 32 ∨ (Rect.block (s := S16x20) S16x20.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x20.size a ≤ S16x20.size a
  hwx1_3 : ∀ i : grid1.Coords, EltTy.bits .f32 = 32 ∨ (Rect.block (s := S16x20) S16x20.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x20.size a ≤ S1x20.size a
  hwx1_4 : ∀ i : grid1.Coords, EltTy.bits .f32 = 32 ∨ (Rect.block (s := S1x20) S1x20.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x20.size a ≤ S100000x20.size a
  hwx1_5 : ∀ i : grid1.Coords, EltTy.bits .f32 = 32 ∨ (Rect.block (s := S100000x20) S10000x20.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S100000x1.size a
  hwx2_0 : ∀ i : grid2.Coords, EltTy.bits .i32 = 32 ∨ (Rect.block (s := S100000x1) S2000x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x20.size a ≤ S100000x20.size a
  hwx2_1 : ∀ i : grid2.Coords, EltTy.bits .f32 = 32 ∨ (Rect.block (s := S100000x20) S2000x20.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x20.size a ≤ S256x20.size a
  hwx2_2 : ∀ i : grid2.Coords, EltTy.bits .f32 = 32 ∨ (Rect.block (s := S256x20) S256x20.size (cc2_transform_2 i) (hinb2_2 i)).WholeWords (EltTy.packing .f32)

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x8_S8x16_S10000x16_1_0_0_1_n_n : DotDims S10000x8 S8x16 S10000x16 where
  lhsContracting := [1]
  rhsContracting := [0]
  lhsNonContracting := [0]
  rhsNonContracting := [1]
  lhsBatch := []
  rhsBatch := []
  wf := dot_S10000x8_S8x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x20_S10000x20_1_0_0_1_n_n : DotDims S10000x16 S16x20 S10000x20 where
  lhsContracting := [1]
  rhsContracting := [0]
  lhsNonContracting := [0]
  rhsNonContracting := [1]
  lhsBatch := []
  rhsBatch := []
  wf := dot_S10000x16_S16x20_S10000x20_1_0_0_1_n_n_wf
def dot_S2000x256_S2000x20_S256x20_0_0_1_1_n_n : DotDims S2000x256 S2000x20 S256x20 where
  lhsContracting := [0]
  rhsContracting := [0]
  lhsNonContracting := [1]
  rhsNonContracting := [1]
  lhsBatch := []
  rhsBatch := []
  wf := dot_S2000x256_S2000x20_S256x20_0_0_1_1_n_n_wf
def dot_S2000x256_S2000x1_S256x1_0_0_1_1_n_n : DotDims S2000x256 S2000x1 S256x1 where
  lhsContracting := [0]
  rhsContracting := [0]
  lhsNonContracting := [1]
  rhsNonContracting := [1]
  lhsBatch := []
  rhsBatch := []
  wf := dot_S2000x256_S2000x1_S256x1_0_0_1_1_n_n_wf

abbrev win0_0 : Pipeline.Window sig grid0 :=
  Pipeline.Window.ofSpec (Memref.whole main_v22) S10000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S8x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S10000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x20.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S16x20.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x20.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S10000x20.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S2000x20.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S256x20.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S100000x8 : Shape := ⟨2, ![100000, 8]⟩
abbrev S2x3200000 : Shape := ⟨2, ![2, 3200000]⟩
abbrev S100000 : Shape := ⟨1, ![100000]⟩
abbrev S8x16 : Shape := ⟨2, ![8, 16]⟩
abbrev S16 : Shape := ⟨1, ![16]⟩
abbrev S16x20 : Shape := ⟨2, ![16, 20]⟩
abbrev S20 : Shape := ⟨1, ![20]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x8 : Shape := ⟨2, ![3200000, 8]⟩
abbrev S100000x1 : Shape := ⟨2, ![100000, 1]⟩
abbrev S100000x16 : Shape := ⟨2, ![100000, 16]⟩
abbrev S1x16 : Shape := ⟨2, ![1, 16]⟩
abbrev S3200000x16 : Shape := ⟨2, ![3200000, 16]⟩
abbrev S100000x20 : Shape := ⟨2, ![100000, 20]⟩
abbrev S1x20 : Shape := ⟨2, ![1, 20]⟩
abbrev S256x20 : Shape := ⟨2, ![256, 20]⟩
abbrev S256 : Shape := ⟨1, ![256]⟩
abbrev S256x1 : Shape := ⟨2, ![256, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x3200000, .i32⟩
  | .hbm, ⟨2, _⟩ => ⟨S100000, .i32⟩
  | .hbm, ⟨3, _⟩ => ⟨S8x16, .f32⟩
  | .hbm, ⟨4, _⟩ => ⟨S16, .f32⟩
  | .hbm, ⟨5, _⟩ => ⟨S8x16, .f32⟩
  | .hbm, ⟨6, _⟩ => ⟨S16x20, .f32⟩
  | .hbm, ⟨7, _⟩ => ⟨S20, .f32⟩
  | .hbm, ⟨8, _⟩ => ⟨S16x20, .f32⟩
  | .hbm, ⟨9, _⟩ => ⟨S1x3200000, .i32⟩
  | .hbm, ⟨10, _⟩ => ⟨S3200000, .i32⟩
  | .hbm, ⟨11, _⟩ => ⟨S1x3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x8, .f32⟩
  | .hbm, ⟨22, _⟩ => ⟨S_, .f32⟩
  | .hbm, ⟨23, _⟩ => ⟨S100000x8, .f32⟩
  | .hbm, ⟨24, _⟩ => ⟨S3200000x1, .i32⟩
  | .hbm, ⟨25, _⟩ => ⟨S100000x8, .f32⟩
  | .hbm, ⟨26, _⟩ => ⟨S_, .f32⟩
  | .hbm, ⟨27, _⟩ => ⟨S3200000, .f32⟩
  | .hbm, ⟨28, _⟩ => ⟨S_, .f32⟩
  | .hbm, ⟨29, _⟩ => ⟨S100000, .f32⟩
  | .hbm, ⟨30, _⟩ => ⟨S3200000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x8, .f32⟩
  | .hbm, ⟨37, _⟩ => ⟨S100000x8, .f32⟩
  | .hbm, ⟨38, _⟩ => ⟨S100000x16, .f32⟩
  | .hbm, ⟨39, _⟩ => ⟨S1x16, .f32⟩
  | .hbm, ⟨40, _⟩ => ⟨S100000x16, .f32⟩
  | .hbm, ⟨41, _⟩ => ⟨S100000x16, .f32⟩
  | .hbm, ⟨42, _⟩ => ⟨S100000x16, .f32⟩
  | .hbm, ⟨43, _⟩ => ⟨S100000x16, .f32⟩
  | .hbm, ⟨44, _⟩ => ⟨S_, .f32⟩
  | .hbm, ⟨45, _⟩ => ⟨S100000x16, .f32⟩
  | .hbm, ⟨46, _⟩ => ⟨S100000x16, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x16, .f32⟩
  | .hbm, ⟨56, _⟩ => ⟨S_, .f32⟩
  | .hbm, ⟨57, _⟩ => ⟨S100000x16, .f32⟩
  | .hbm, ⟨58, _⟩ => ⟨S3200000x1, .i32⟩
  | .hbm, ⟨59, _⟩ => ⟨S100000x16, .f32⟩
  | .hbm, ⟨60, _⟩ => ⟨S_, .f32⟩
  | .hbm, ⟨61, _⟩ => ⟨S3200000, .f32⟩
  | .hbm, ⟨62, _⟩ => ⟨S_, .f32⟩
  | .hbm, ⟨63, _⟩ => ⟨S100000, .f32⟩
  | .hbm, ⟨64, _⟩ => ⟨S3200000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x16, .f32⟩
  | .hbm, ⟨71, _⟩ => ⟨S100000x16, .f32⟩
  | .hbm, ⟨72, _⟩ => ⟨S100000x20, .f32⟩
  | .hbm, ⟨73, _⟩ => ⟨S1x20, .f32⟩
  | .hbm, ⟨74, _⟩ => ⟨S100000x20, .f32⟩
  | .hbm, ⟨75, _⟩ => ⟨S100000x20, .f32⟩
  | .hbm, ⟨76, _⟩ => ⟨S100000x20, .f32⟩
  | .hbm, ⟨77, _⟩ => ⟨S100000x20, .f32⟩
  | .hbm, ⟨78, _⟩ => ⟨S_, .f32⟩
  | .hbm, ⟨79, _⟩ => ⟨S100000x20, .f32⟩
  | .hbm, ⟨80, _⟩ => ⟨S100000x20, .i1⟩
  | .hbm, ⟨81, _⟩ => ⟨S_, .f32⟩
  | .hbm, ⟨82, _⟩ => ⟨S100000x20, .f32⟩
  | .hbm, ⟨83, _⟩ => ⟨S100000x20, .f32⟩
  | .hbm, ⟨84, _⟩ => ⟨S100000x20, .f32⟩
  | .hbm, ⟨85, _⟩ => ⟨S_, .f32⟩
  | .hbm, ⟨86, _⟩ => ⟨S256x20, .f32⟩
  | .hbm, ⟨87, _⟩ => ⟨S100000x1, .i32⟩
  | .hbm, ⟨88, _⟩ => ⟨S256x20, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S256, .f32⟩
  | .hbm, ⟨93, _⟩ => ⟨S100000x1, .i32⟩
  | .hbm, ⟨94, _⟩ => ⟨S256, .f32⟩
  | .hbm, ⟨95, _⟩ => ⟨S_, .f32⟩
  | .hbm, ⟨96, _⟩ => ⟨S256, .f32⟩
  | .hbm, ⟨97, _⟩ => ⟨S256, .f32⟩
  | .hbm, ⟨98, _⟩ => ⟨S256x1, .f32⟩
  | .hbm, ⟨99, _⟩ => ⟨S256x20, .f32⟩
  | .hbm, ⟨100, _⟩ => ⟨S256x20, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x8 : S_.BroadcastsInDim S100000x8 (![] : Fin 0 → Fin S100000x8.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  bcast_S_S100000x20 : S_.BroadcastsInDim S100000x20 (![] : Fin 0 → Fin S100000x20.rank)
  bcast_S_S256x20 : S_.BroadcastsInDim S256x20 (![] : Fin 0 → Fin S256x20.rank)
  bcast_S_S256 : S_.BroadcastsInDim S256 (![] : Fin 0 → Fin S256.rank)
  bcast_S256_S256x1_0 : S256.BroadcastsInDim S256x1 (![0] : Fin 1 → Fin S256x1.rank)
  bcast_S256x1_S256x20_0_1 : S256x1.BroadcastsInDim S256x20 (![0, 1] : Fin 2 → Fin S256x20.rank)
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  scatter_S100000_S3200000x1_S3200000_n_0_0_1_wf : ScatterDims.WF S100000 S3200000x1 S3200000 [] [0] [0] 1
  dot_S100000x8_S8x16_S100000x16_1_0_0_1_n_n_wf : DotDims.WF S100000x8 S8x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x20_S100000x20_1_0_0_1_n_n_wf : DotDims.WF S100000x16 S16x20 S100000x20 [1] [0] [0] [1] [] []
  scatter_S256x20_S100000x1_S100000x20_1_0_0_1_wf : ScatterDims.WF S256x20 S100000x1 S100000x20 [1] [0] [0] 1
  scatter_S256_S100000x1_S100000_n_0_0_1_wf : ScatterDims.WF S256 S100000x1 S100000 [] [0] [0] 1

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x8_S8x16_S100000x16_1_0_0_1_n_n : DotDims S100000x8 S8x16 S100000x16 where
  lhsContracting := [1]
  rhsContracting := [0]
  lhsNonContracting := [0]
  rhsNonContracting := [1]
  lhsBatch := []
  rhsBatch := []
  wf := dot_S100000x8_S8x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x20_S100000x20_1_0_0_1_n_n : DotDims S100000x16 S16x20 S100000x20 where
  lhsContracting := [1]
  rhsContracting := [0]
  lhsNonContracting := [0]
  rhsNonContracting := [1]
  lhsBatch := []
  rhsBatch := []
  wf := dot_S100000x16_S16x20_S100000x20_1_0_0_1_n_n_wf
def scatter_S256x20_S100000x1_S100000x20_1_0_0_1 : ScatterDims S256x20 S100000x1 S100000x20 where
  updateWindowDims := [1]
  insertedWindowDims := [0]
  scatterDimsToOperandDims := [0]
  indexVectorDim := 1
  wf := scatter_S256x20_S100000x1_S100000x20_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.K.Region0.lean ====
/-
  Region 0 of the kernel program (the first dense layer, ReLU), as the staged pipeline runs it: what the body
  leaves in each window's buffer at every grid point, and that the body meets the pipeline's obligation there.
-/
import proofs.«414671_j14113262535138_3_alg».proof.Proof.Gen.Kernel.Launch
import proofs.«414671_j14113262535138_3_alg».proof.Proof.Gen.Kernel.Skeleton
import proofs.«414671_j14113262535138_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in rectangles with ten thousand rows recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the dense layer on one block of ten thousand rows

The body reads its two activation blocks, the two weight matrices and the bias row, and stores
`activation ((a · Wl + x · Wr) + bias)` over the whole output block. Nothing is kept between grid points, so
what the output buffer holds after a point is one function of that point's five input blocks. Everything here is
stated at a parameter `V`: the contents of the TensorCore's buffers when the region is entered. -/

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block of the entry array at every grid point, whether the
    pipeline fetched it there or the block index stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block of the entry array at every grid point, whether the
    pipeline fetched it there or the block index stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block of the entry array at every grid point, whether the
    pipeline fetched it there or the block index stood still since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds the window's block of the entry array at every grid point, whether the
    pipeline fetched it there or the block index stood still since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds the window's block of the entry array at every grid point, whether the
    pipeline fetched it there or the block index stood still since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's whole-buffer accesses -/

abbrev rA0 : Rect S10000x8 := Rect.unit (s := S10000x8) ![0, 0] S10000x8.size inb_S10000x8_S10000x8_0_0
abbrev rW0 : Rect S8x16 := Rect.unit (s := S8x16) ![0, 0] S8x16.size inb_S8x16_S8x16_0_0
abbrev rB0 : Rect S1x16 := Rect.unit (s := S1x16) ![0, 0] S1x16.size inb_S1x16_S1x16_0_0
abbrev rO0 : Rect S10000x16 := Rect.unit (s := S10000x16) ![0, 0] S10000x16.size inb_S10000x16_S10000x16_0_0

/-- What the body leaves in the output buffer: its one store, over the whole block, of the layer's value on the
    five loaded blocks. -/
def out0_5 (x0 x1 : Vec F S10000x8 .f32) (x2 x3 : Vec F S8x16 .f32) (x4 : Vec F S1x16 .f32) : Vec F S10000x16 .f32 :=
  View.canon [⟨rO0, k0_pay1 (View.ld x0 rA0) (View.ld x1 rA0) (View.ld x2 rW0) (View.ld x3 rW0) (View.ld x4 rB0)⟩]

/-- The one store covers the output block. -/
theorem cover0_5 (p0 : Vec F S10000x16 .f32) (y : S10000x16.Idx) :
    ∃ pc ∈ ([⟨rO0, p0⟩] : List (View.Piece (Elt F) S10000x16 .f32)), y ∈ pc.1.set :=
  View.cover_of_tiled [⟨rO0, p0⟩] S10000x16.size (by rfl) y

/-! ## The body's triple -/

set_option maxHeartbeats 1000000 in
/-- On whole staging buffers, the inputs' holding `x0 … x4` and the output's anything, the body runs to the end,
    leaves the inputs as they were and the output at `out0_5` of them. -/
theorem sound_kernel0 (c : Dev nD) (E : Set ℕ) (i : grid0.Coords) (arg1 : Memref sig .tc .vmem S10000x8 .f32) (harg1 : arg1.IsWhole) (arg2 : Memref sig .tc .vmem S10000x8 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S1x16 .f32) (harg5 : arg5.IsWhole) (arg6 : Memref sig .tc .vmem S10000x16 .f32) (harg6 : arg6.IsWhole)
    (x0 x1 : Vec F S10000x8 .f32) (x2 x3 : Vec F S8x16 .f32) (x4 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__sage_linear_kernel i arg1 harg1 arg2 harg2 arg3 harg3 arg4 harg4 arg5 harg5 arg6 harg6) K := by
  simp only [cc0__sage_linear_kernel_eq_skeleton]; unfold cc0__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- Region 0's proof data on core `c`: the arrays as the region finds them; after the body at point `t` each
    input buffer still at its block and the output buffer at `out0_5` of the five blocks; the invariant is the
    scoped buffers no window stages and the generator register, untouched; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is handed at point `t`: the invariant, the core's dues, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1.lean ====
/-
  Region 1 of the kernel program (the second dense layer, leaky ReLU), as the staged pipeline runs it: what the body
  leaves in each window's buffer at every grid point, and that the body meets the pipeline's obligation there.
-/
import proofs.«414671_j14113262535138_3_alg».proof.Proof.Gen.Kernel.Launch
import proofs.«414671_j14113262535138_3_alg».proof.Proof.Gen.Kernel.Skeleton
import proofs.«414671_j14113262535138_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in rectangles with ten thousand rows recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the dense layer on one block of ten thousand rows

The body reads its two activation blocks, the two weight matrices and the bias row, and stores
`activation ((a · Wl + x · Wr) + bias)` over the whole output block. Nothing is kept between grid points, so
what the output buffer holds after a point is one function of that point's five input blocks. Everything here is
stated at a parameter `V`: the contents of the TensorCore's buffers when the region is entered. -/

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block of the entry array at every grid point, whether the
    pipeline fetched it there or the block index stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block of the entry array at every grid point, whether the
    pipeline fetched it there or the block index stood still since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block of the entry array at every grid point, whether the
    pipeline fetched it there or the block index stood still since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds the window's block of the entry array at every grid point, whether the
    pipeline fetched it there or the block index stood still since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds the window's block of the entry array at every grid point, whether the
    pipeline fetched it there or the block index stood still since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's whole-buffer accesses -/

abbrev rA1 : Rect S10000x16 := Rect.unit (s := S10000x16) ![0, 0] S10000x16.size inb_S10000x16_S10000x16_0_0
abbrev rW1 : Rect S16x20 := Rect.unit (s := S16x20) ![0, 0] S16x20.size inb_S16x20_S16x20_0_0
abbrev rB1 : Rect S1x20 := Rect.unit (s := S1x20) ![0, 0] S1x20.size inb_S1x20_S1x20_0_0
abbrev rO1 : Rect S10000x20 := Rect.unit (s := S10000x20) ![0, 0] S10000x20.size inb_S10000x20_S10000x20_0_0

/-- What the body leaves in the output buffer: its one store, over the whole block, of the layer's value on the
    five loaded blocks. -/
def out1_5 (x0 x1 : Vec F S10000x16 .f32) (x2 x3 : Vec F S16x20 .f32) (x4 : Vec F S1x20 .f32) : Vec F S10000x20 .f32 :=
  View.canon [⟨rO1, k1_pay1 (View.ld x0 rA1) (View.ld x1 rA1) (View.ld x2 rW1) (View.ld x3 rW1) (View.ld x4 rB1)⟩]

/-- The one store covers the output block. -/
theorem cover1_5 (p0 : Vec F S10000x20 .f32) (y : S10000x20.Idx) :
    ∃ pc ∈ ([⟨rO1, p0⟩] : List (View.Piece (Elt F) S10000x20 .f32)), y ∈ pc.1.set :=
  View.cover_of_tiled [⟨rO1, p0⟩] S10000x20.size (by rfl) y

/-! ## The body's triple -/

set_option maxHeartbeats 1000000 in
/-- On whole staging buffers, the inputs' holding `x0 … x4` and the output's anything, the body runs to the end,
    leaves the inputs as they were and the output at `out1_5` of them. -/
theorem sound_kernel1 (c : Dev nD) (E : Set ℕ) (i : grid1.Coords) (arg1 : Memref sig .tc .vmem S10000x16 .f32) (harg1 : arg1.IsWhole) (arg2 : Memref sig .tc .vmem S10000x16 .f32) (harg2 : arg2.IsWhole) (arg3 : Memref sig .tc .vmem S16x20 .f32) (harg3 : arg3.IsWhole) (arg4 : Memref sig .tc .vmem S16x20 .f32) (harg4 : arg4.IsWhole) (arg5 : Memref sig .tc .vmem S1x20 .f32) (harg5 : arg5.IsWhole) (arg6 : Memref sig .tc .vmem S10000x20 .f32) (harg6 : arg6.IsWhole)
    (x0 x1 : Vec F S10000x16 .f32) (x2 x3 : Vec F S16x20 .f32) (x4 : Vec F S1x20 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__sage_linear_kernel i arg1 harg1 arg2 harg2 arg3 harg3 arg4 harg4 arg5 harg5 arg6 harg6) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- Region 1's proof data on core `c`: the arrays as the region finds them; after the body at point `t` each
    input buffer still at its block and the output buffer at `out1_5` of the five blocks; the invariant is the
    scoped buffers no window stages and the generator register, untouched; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is handed at point `t`: the invariant, the core's dues, every window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.PoolFold.lean ====
/-
  The pooling kernel keeps two running sums in scratch memory across its fifty grid points: per graph and feature
  the sum of the rows met so far, and per graph how many rows were met. The first point starts both from zero;
  every point adds its block's contribution. This module names what the two buffers hold after point `n`, as a
  function of the blocks the points load, in the kernel's own operations (the skeleton's payloads).
-/
import proofs.«414671_j14113262535138_3_alg».proof.Proof.Gen.Kernel.Skeleton

noncomputable section

namespace Cert.Kernel.Hand

open Cert.Kernel Cert.Kernel.Gen Idealize.ShloMosaic

variable {F : FTy → Type} [FloatOps F]

/-- The running sums after grid point `n`: `(sums, counts)`. `bt k` and `ht k` are the graph-id block and the
    feature block point `k` loads. Point 0 adds its block to zeros; point `n + 1` adds its block to what point
    `n` left. -/
def carry (bt : ℕ → Vec F S2000x1 .i32) (ht : ℕ → Vec F S2000x20 .f32) : ℕ → Vec F S256x20 .f32 × Vec F S256x1 .f32
  | 0 => (k2_pay4 (bt 0) (ht 0) (k2_pay1 (F := F)), k2_pay5 (bt 0) (k2_pay2 (F := F)))
  | n + 1 => (k2_pay4 (bt (n + 1)) (ht (n + 1)) (carry bt ht n).1, k2_pay5 (bt (n + 1)) (carry bt ht n).2)

theorem carry_zero (bt : ℕ → Vec F S2000x1 .i32) (ht : ℕ → Vec F S2000x20 .f32) :
    carry bt ht 0 = (k2_pay4 (bt 0) (ht 0) (k2_pay1 (F := F)), k2_pay5 (bt 0) (k2_pay2 (F := F))) := rfl

theorem carry_succ (bt : ℕ → Vec F S2000x1 .i32) (ht : ℕ → Vec F S2000x20 .f32) (n : ℕ) :
    carry bt ht (n + 1) = (k2_pay4 (bt (n + 1)) (ht (n + 1)) (carry bt ht n).1, k2_pay5 (bt (n + 1)) (carry bt ht n).2) := rfl

/-- What the last point stores into the output block: the sums over the counts, a count below one read as one. -/
def pooled (bt : ℕ → Vec F S2000x1 .i32) (ht : ℕ → Vec F S2000x20 .f32) : Vec F S256x20 .f32 :=
  k2_pay6 (carry bt ht 49).1 (carry bt ht 49).2

end Cert.Kernel.Hand

end
-- ==== Proof.K.Region2.lean ====
/-
  Region 2 of the kernel program (the mean pool over graph ids), as the staged pipeline runs it: the body's triple
  at the first, the middle and the last grid point, the invariant that carries the two running sums from point to
  point, and that the body meets the pipeline's obligation at every point.
-/
import proofs.«414671_j14113262535138_3_alg».proof.Proof.Gen.Kernel.Launch
import proofs.«414671_j14113262535138_3_alg».proof.Proof.Gen.Kernel.Skeleton
import proofs.«414671_j14113262535138_3_alg».proof.Proof.Gen.Kernel.Points
import proofs.«414671_j14113262535138_3_alg».proof.Proof.K.PoolFold
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- deciding membership in rectangles with ten thousand rows recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the mean pool, fifty blocks of two thousand rows

The body keeps two running sums in scratch memory: per graph and feature the sum of the rows met so far, per graph
the number of rows met. The first point resets both to zero before it adds its block; every point adds its block;
the last point alone stores the output block, the sums over the counts. So there are three kinds of point, told
apart by the grid coordinate alone, and the output's buffer is left untouched at all but the last. -/

/-! ## The branch conditions, over the grid -/

/-- The condition of the reset branch, from the grid coordinate. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The condition of the branch that stores the output. -/
abbrev cond2_1 (i : grid2.Coords) : Prop := k2_cond2 i = 1#1
/-- It holds at the last point only. -/
theorem hcond2_1 : ∀ t : Fin cfg2.N, cond2_1 (grid2.coords t) ↔ t.val = 49 :=
  (by decide +kernel : ∀ t : Fin grid2.N, cond2_1 (grid2.coords t) ↔ t.val = 49)

/-! ## Where the windows are idle, and where the output is written back -/

/-- The two inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from the last point the output is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last point it is live. -/
theorem liveAt2_2 : ∀ t : Fin cfg2.N, cond2_1 (grid2.coords t) → cfg2.idle 2 (grid2.coords t) = false := by decide +kernel

/-! ## The scratch buffers and the class invariant -/

/-- The two scratch operands: whole scoped buffers of the kernel's own. -/
abbrev scM2_0 : Memref sig .tc .vmem S256x20 .f32 := Memref.whole cc2_scratch0
abbrev scM2_1 : Memref sig .tc .vmem S256x1 .f32 := Memref.whole cc2_scratch1

/-- The core's scoped buffers that are neither a staging buffer of this call nor one of its two scratch buffers,
    at some contents each: the body never touches them. -/
abbrev others2 (c : Dev nD) : sProp 𝕄 :=
  Pipeline.scopedRestBut (Ix := Unit) (Name := ℕ) (U := UR sig nD τ) (Lvl := ℕ) (Val := Elt F) spec2 c [cc2_scratch0, cc2_scratch1]

/-- The class invariant with the two scratch buffers split off as memrefs owned at some contents. -/
theorem PhiA2_eq (c : Dev nD) :
    (Pipeline.ΦA spec2 c : sProp 𝕄)
      = iprop((((∃ d, owns (c : Thread nD τ) scM2_0 fullShare d) ∗ (∃ d, owns (c : Thread nD τ) scM2_1 fullShare d))
          ∗ others2 (F := F) c) ∗ (∃ r, prngReg c r)) := by
  unfold Pipeline.ΦA
  rw [Pipeline.scopedRest_split_of_list spec2 c [cc2_scratch0, cc2_scratch1] (by decide) (by decide)]
  simp only [scM2_0, scM2_1, owns_whole]
  rfl

/-! ## Whole-rectangle stores read back -/

/-- The zero offsets as the stores spell them. -/
theorem hz2 : (![0, 0] : Fin 2 → Nat) = fun _ => 0 := by funext a; fin_cases a <;> rfl

/-- A buffer whose LAST store went through the whole-shape rectangle reads as that store's payload, whatever
    it held before and whatever the earlier stores were. -/
theorem read_writes_whole_last {sp : Space} {S : Shape} {e : EltTy} (v : View sig .tc sp S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz]

/-! ## The body's triple, by the kind of point -/

set_option maxHeartbeats 1000000 in
/-- The body at the first grid point: the two running sums come in at anything, are reset to zeros and have the
    point's block added; the loaded blocks and the output buffer are left as they were. -/
theorem run2_first (c : Dev nD) (E : Set ℕ) (i : grid2.Coords) (arg1 : Memref sig .tc .vmem S2000x1 .i32) (harg1 : arg1.IsWhole) (arg2 : Memref sig .tc .vmem S2000x20 .f32) (harg2 : arg2.IsWhole) (arg3 : Memref sig .tc .vmem S256x20 .f32) (harg3 : arg3.IsWhole) (arg4 : Memref sig .tc .vmem S256x20 .f32) (harg4 : arg4.IsWhole) (arg5 : Memref sig .tc .vmem S256x1 .f32) (harg5 : arg5.IsWhole)
    (hc0 : cond2_0 i) (hc1 : ¬cond2_1 i)
    (b : Vec F S2000x1 .i32) (h : Vec F S2000x20 .f32) (o : Vec F S256x20 .f32) (K : PUnit → sProp 𝕄) :
    iprop(owns (c : Thread nD τ) arg1 fullShare b ∗ owns (c : Thread nD τ) arg2 fullShare h ∗ owns (c : Thread nD τ) arg3 fullShare o
        ∗ (∃ d, owns (c : Thread nD τ) arg4 fullShare d) ∗ (∃ d, owns (c : Thread nD τ) arg5 fullShare d)
        ∗ (iprop(owns (c : Thread nD τ) arg1 fullShare b ∗ owns (c : Thread nD τ) arg2 fullShare h ∗ owns (c : Thread nD τ) arg3 fullShare o
            ∗ owns (c : Thread nD τ) arg4 fullShare (k2_pay4 b h (k2_pay1 (F := F))) ∗ owns (c : Thread nD τ) arg5 fullShare (k2_pay5 b (k2_pay2 (F := F)))) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [read_writes_whole_last (S := S256x20) _ _ hz2]
    rw [View.readCov_unit_zero _ hz2]
    simp only [View.readAt_eq_ld, harg1.read_unread, harg2.read_unread, View.ld_unit_zero (S := S2000x1) hz2, View.ld_unit_zero (S := S2000x20) hz2]
  iexists _; isplitr
  swap; · iexact H5
  ipureintro
  sl_unfold_words
  rw [read_writes_whole_last (S := S256x1) _ _ hz2]
  rw [View.readCov_unit_zero _ hz2]
  simp only [View.readAt_eq_ld, harg1.read_unread, View.ld_unit_zero (S := S2000x1) hz2]

set_option maxHeartbeats 1000000 in
/-- The body at a middle grid point: the running sums come in at `a` and `cn` and have the point's block added;
    the loaded blocks and the output buffer are left as they were. -/
theorem run2_mid (c : Dev nD) (E : Set ℕ) (i : grid2.Coords) (arg1 : Memref sig .tc .vmem S2000x1 .i32) (harg1 : arg1.IsWhole) (arg2 : Memref sig .tc .vmem S2000x20 .f32) (harg2 : arg2.IsWhole) (arg3 : Memref sig .tc .vmem S256x20 .f32) (harg3 : arg3.IsWhole) (arg4 : Memref sig .tc .vmem S256x20 .f32) (harg4 : arg4.IsWhole) (arg5 : Memref sig .tc .vmem S256x1 .f32) (harg5 : arg5.IsWhole)
    (hc0 : ¬cond2_0 i) (hc1 : ¬cond2_1 i)
    (b : Vec F S2000x1 .i32) (h : Vec F S2000x20 .f32) (o : Vec F S256x20 .f32)
    (a : Vec F S256x20 .f32) (cn : Vec F S256x1 .f32) (K : PUnit → sProp 𝕄) :
    iprop(owns (c : Thread nD τ) arg1 fullShare b ∗ owns (c : Thread nD τ) arg2 fullShare h ∗ owns (c : Thread nD τ) arg3 fullShare o
        ∗ owns (c : Thread nD τ) arg4 fullShare a ∗ owns (c : Thread nD τ) arg5 fullShare cn
        ∗ (iprop(owns (c : Thread nD τ) arg1 fullShare b ∗ owns (c : Thread nD τ) arg2 fullShare h ∗ owns (c : Thread nD τ) arg3 fullShare o
            ∗ owns (c : Thread nD τ) arg4 fullShare (k2_pay4 b h a) ∗ owns (c : Thread nD τ) arg5 fullShare (k2_pay5 b cn)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [read_writes_whole_last (S := S256x20) _ _ hz2]
    simp only [View.readAt_eq_ld, harg1.read_unread, harg2.read_unread, harg4.read_unread, View.ld_unit_zero (S := S2000x1) hz2, View.ld_unit_zero (S := S2000x20) hz2, View.ld_unit_zero (S := S256x20) hz2]
  iexists _; isplitr
  swap; · iexact H5
  ipureintro
  sl_unfold_words
  rw [read_writes_whole_last (S := S256x1) _ _ hz2]
  simp only [View.readAt_eq_ld, harg1.read_unread, harg5.read_unread, View.ld_unit_zero (S := S2000x1) hz2, View.ld_unit_zero (S := S256x1) hz2]

set_option maxHeartbeats 1000000 in
/-- The body at the last grid point: the running sums come in at `a` and `cn`, have the point's block added, and
    the output buffer, which comes in at anything, is stored with the sums over the counts. -/
theorem run2_last (c : Dev nD) (E : Set ℕ) (i : grid2.Coords) (arg1 : Memref sig .tc .vmem S2000x1 .i32) (harg1 : arg1.IsWhole) (arg2 : Memref sig .tc .vmem S2000x20 .f32) (harg2 : arg2.IsWhole) (arg3 : Memref sig .tc .vmem S256x20 .f32) (harg3 : arg3.IsWhole) (arg4 : Memref sig .tc .vmem S256x20 .f32) (harg4 : arg4.IsWhole) (arg5 : Memref sig .tc .vmem S256x1 .f32) (harg5 : arg5.IsWhole)
    (hc0 : ¬cond2_0 i) (hc1 : cond2_1 i)
    (b : Vec F S2000x1 .i32) (h : Vec F S2000x20 .f32)
    (a : Vec F S256x20 .f32) (cn : Vec F S256x1 .f32) (K : PUnit → sProp 𝕄) :
    iprop(owns (c : Thread nD τ) arg1 fullShare b ∗ owns (c : Thread nD τ) arg2 fullShare h ∗ (∃ d, owns (c : Thread nD τ) arg3 fullShare d)
        ∗ owns (c : Thread nD τ) arg4 fullShare a ∗ owns (c : Thread nD τ) arg5 fullShare cn
        ∗ (iprop(owns (c : Thread nD τ) arg1 fullShare b ∗ owns (c : Thread nD τ) arg2 fullShare h ∗ owns (c : Thread nD τ) arg3 fullShare (k2_pay6 (k2_pay4 b h a) (k2_pay5 b cn))
            ∗ owns (c : Thread nD τ) arg4 fullShare (k2_pay4 b h a) ∗ owns (c : Thread nD τ) arg5 fullShare (k2_pay5 b cn)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f1, %hf1, H1⟩, ⟨%f2, %hf2, H2⟩, ⟨%d3, %f3, -, H3⟩, ⟨%f4, %hf4, H4⟩, ⟨%f5, %hf5, H5⟩, Hk⟩
  obtain rfl := harg1.eq_unread hf1; obtain rfl := harg2.eq_unread hf2
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_words
    rw [read_writes_whole_last (S := S256x20) _ _ hz2]
    simp only [View.readCov_unit_zero (S := S256x20) _ hz2, View.readCov_unit_zero (S := S256x1) _ hz2, View.readAt_eq_ld,
      harg1.read_unread, harg2.read_unread, harg4.read_unread, harg5.read_unread,
      View.ld_unit_zero (S := S2000x1) hz2, View.ld_unit_zero (S := S2000x20) hz2, View.ld_unit_zero (S := S256x20) hz2, View.ld_unit_zero (S := S256x1) hz2]
  isplitl [H4]
  · iexists _; isplitr
    swap; · iexact H4
    ipureintro
    sl_unfold_words
    rw [read_writes_whole_last (S := S256x20) _ _ hz2]
    simp only [View.readAt_eq_ld, harg1.read_unread, harg2.read_unread, harg4.read_unread, View.ld_unit_zero (S := S2000x1) hz2, View.ld_unit_zero (S := S2000x20) hz2, View.ld_unit_zero (S := S256x20) hz2]
  iexists _; isplitr
  swap; · iexact H5
  ipureintro
  sl_unfold_words
  rw [read_writes_whole_last (S := S256x1) _ _ hz2]
  simp only [View.readAt_eq_ld, harg1.read_unread, harg5.read_unread, View.ld_unit_zero (S := S2000x1) hz2, View.ld_unit_zero (S := S256x1) hz2]

section Region2

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem N2pos : 0 < cfg2.N := by rw [show cfg2.N = 50 from N_2]; decide

/-- The graph-id block and the feature block that grid point `n` loads (positions past the grid wrap round; nothing reads them). -/
def bt2 (c : Dev nD) (n : ℕ) : Vec F S2000x1 .i32 := iblk2 V c 0 ⟨n % cfg2.N, Nat.mod_lt _ N2pos⟩
def ht2 (c : Dev nD) (n : ℕ) : Vec F S2000x20 .f32 := iblk2 V c 1 ⟨n % cfg2.N, Nat.mod_lt _ N2pos⟩

/-- At a point of the grid the wrapped position is the point. -/
theorem bt2_val (c : Dev nD) (t : Fin cfg2.N) : bt2 V c t.val = iblk2 V c 0 t := by
  have e : (⟨t.val % cfg2.N, Nat.mod_lt _ N2pos⟩ : Fin cfg2.N) = t := Fin.ext (Nat.mod_eq_of_lt t.isLt)
  unfold bt2; rw [e]
theorem ht2_val (c : Dev nD) (t : Fin cfg2.N) : ht2 V c t.val = iblk2 V c 1 t := by
  have e : (⟨t.val % cfg2.N, Nat.mod_lt _ N2pos⟩ : Fin cfg2.N) = t := Fin.ext (Nat.mod_eq_of_lt t.isLt)
  unfold ht2; rw [e]

/-- The running sums after the first point: its block added to zeros. -/
theorem carry_first (c : Dev nD) (t : Fin cfg2.N) (h0 : t.val = 0) :
    carry (bt2 V c) (ht2 V c) t.val
      = (k2_pay4 (iblk2 V c 0 t) (iblk2 V c 1 t) (k2_pay1 (F := F)), k2_pay5 (iblk2 V c 0 t) (k2_pay2 (F := F))) := by
  have e := bt2_val V c t; have e' := ht2_val V c t
  rw [h0] at e e'
  rw [h0, carry_zero, e, e']

/-- The running sums after a later point: its block added to what the point before left. -/
theorem carry_next (c : Dev nD) (t : Fin cfg2.N) (h0 : t.val ≠ 0) :
    carry (bt2 V c) (ht2 V c) t.val
      = (k2_pay4 (iblk2 V c 0 t) (iblk2 V c 1 t) (carry (bt2 V c) (ht2 V c) (t.val - 1)).1,
         k2_pay5 (iblk2 V c 0 t) (carry (bt2 V c) (ht2 V c) (t.val - 1)).2) := by
  have e := bt2_val V c t; have e' := ht2_val V c t
  generalize t.val = n at h0 e e' ⊢
  cases n with
  | zero => exact absurd rfl h0
  | succ n => rw [carry_succ, e, e']; rfl

/-- The region invariant before position `n`: before the first point the class's (both scratch buffers at anything);
    afterwards the two scratch buffers at the running sums the point before left, the other scoped buffers at anything,
    the generator register at some state. -/
def Phi2 (c : Dev nD) : ℕ → sProp 𝕄
  | 0 => Pipeline.ΦA spec2 c
  | n + 1 => iprop(((owns (c : Thread nD τ) scM2_0 fullShare (carry (bt2 V c) (ht2 V c) n).1
        ∗ owns (c : Thread nD τ) scM2_1 fullShare (carry (bt2 V c) (ht2 V c) n).2) ∗ others2 (F := F) c) ∗ (∃ r, prngReg c r))

theorem Phi2_zero (c : Dev nD) (n : ℕ) (hz : n = 0) : Phi2 V c n = Pipeline.ΦA spec2 c := by subst hz; rfl

theorem Phi2_succ (c : Dev nD) (n : ℕ) :
    Phi2 V c (n + 1) = iprop(((owns (c : Thread nD τ) scM2_0 fullShare (carry (bt2 V c) (ht2 V c) n).1
        ∗ owns (c : Thread nD τ) scM2_1 fullShare (carry (bt2 V c) (ht2 V c) n).2) ∗ others2 (F := F) c) ∗ (∃ r, prngReg c r)) := rfl

theorem Phi2_pos (c : Dev nD) (n : ℕ) (hz : n ≠ 0) :
    Phi2 V c n = iprop(((owns (c : Thread nD τ) scM2_0 fullShare (carry (bt2 V c) (ht2 V c) (n - 1)).1
        ∗ owns (c : Thread nD τ) scM2_1 fullShare (carry (bt2 V c) (ht2 V c) (n - 1)).2) ∗ others2 (F := F) c) ∗ (∃ r, prngReg c r)) := by
  cases n with
  | zero => exact absurd rfl hz
  | succ n => rfl

/-- Region 2's proof data on core `c`: the arrays as the region finds them; after the body each input buffer still at
    its block, the output buffer at the pooled block (consulted at the last point only: elsewhere the window is idle);
    the invariant carries the running sums; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => pooled (bt2 V c) (ht2 V c)
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = pooled (bt2 V c) (ht2 V c) := by dsimp only [dat2]

theorem after2_2_last (c : Dev nD) (t : Fin cfg2.N) (ht : t.val = 49) :
    (dat2 V c).after 2 t = pooled (bt2 V c) (ht2 V c) := after2_2 V c t

/-- Each input's staging buffer holds the window's block of the entry array at every grid point, whether the
    pipeline fetched it there or the block index stood still since the last fetch. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-! ## The body obligation -/

/-- What the body is handed at point `t`: the invariant, the core's dues, every window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it hands back: the output's buffer as found where the window is idle, at the pooled block where it is live. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    show (dat2 V c).Φ t.succ = Phi2 V c (t.val + 1) from rfl, Phi2_succ,
    show (dat2 V c).Φ t.castSucc = Phi2 V c t.val from rfl,
    show (dat2 V c).leavesExact 0 t = owns (c : Thread nD τ) (st2_0 t) fullShare ((dat2 V c).after 0 t) from by
      unfold Dat.leavesExact; rw [liveAt2_0 t],
    show (dat2 V c).leavesExact 1 t = owns (c : Thread nD τ) (st2_1 t) fullShare ((dat2 V c).after 1 t) from by
      unfold Dat.leavesExact; rw [liveAt2_1 t],
    after2_0, after2_1]
  have hN : t.val < 50 := lt_of_lt_of_eq t.isLt (show cfg2.N = 50 from N_2)
  by_cases h0 : t.val = 0
  · -- the first point
    have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1), Phi2_zero V c _ h0, PhiA2_eq,
      carry_first V c t h0]
    dsimp only
    iintro ⟨⟨⟨⟨HS0, HS1⟩, Hr⟩, Hg⟩, Ho, ⟨%d0, H0⟩, ⟨%d1, H1⟩, ⟨%d2, H2⟩⟩
    iapply (run2_first c Set.univ (grid2.coords t) _ _ _ _ _ _ _ _ _ _ hc0 hc1 (iblk2 V c 0 t) (iblk2 V c 1 t) ((dat2 V c).before 2 t d2) _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    iexists _; iexact H2
  · have hc0 : ¬cond2_0 (grid2.coords t) := fun h => h0 ((hcond2_0 t).mp h)
    rw [Phi2_pos V c _ h0, carry_next V c t h0]
    dsimp only
    by_cases h1 : t.val = 49
    · -- the last point
      have hc1 : cond2_1 (grid2.coords t) := (hcond2_1 t).mpr h1
      rw [show (dat2 V c).leavesExact 2 t = owns (c : Thread nD τ) (st2_2 t) fullShare ((dat2 V c).after 2 t) from by
        unfold Dat.leavesExact; rw [liveAt2_2 t hc1], after2_2]
      rw [show pooled (bt2 V c) (ht2 V c) = k2_pay6 (carry (bt2 V c) (ht2 V c) t.val).1 (carry (bt2 V c) (ht2 V c) t.val).2 from by
        rw [h1]; rfl, carry_next V c t h0]
      dsimp only
      iintro ⟨⟨⟨⟨HS0, HS1⟩, Hr⟩, Hg⟩, Ho, ⟨%d0, H0⟩, ⟨%d1, H1⟩, ⟨%d2, H2⟩⟩
      iapply (run2_last c Set.univ (grid2.coords t) _ _ _ _ _ _ _ _ _ _ hc0 hc1 (iblk2 V c 0 t) (iblk2 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexact H2
    · -- a middle point
      have hc1 : ¬cond2_1 (grid2.coords t) := fun h => h1 ((hcond2_1 t).mp h)
      rw [Dat.leavesExact_idle (dat2 V c) 2 t (idleAt2_2 t hc1) (noFlush2_2 t hc1)]
      iintro ⟨⟨⟨⟨HS0, HS1⟩, Hr⟩, Hg⟩, Ho, ⟨%d0, H0⟩, ⟨%d1, H1⟩, ⟨%d2, H2⟩⟩
      iapply (run2_mid c Set.univ (grid2.coords t) _ _ _ _ _ _ _ _ _ _ hc0 hc1 (iblk2 V c 0 t) (iblk2 V c 1 t) ((dat2 V c).before 2 t d2) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = Phi2 V c 0 from rfl, Phi2_zero V c 0 rfl]

/-- After the last point the invariant gives the class's back: the running sums' named contents are forgotten. -/
theorem hout2 (c : Dev nD) : (dat2 V c).Φ (Fin.last cfg2.N) ⊢ (Pipeline.ΦA spec2 c : sProp 𝕄) := by
  rw [show (dat2 V c).Φ (Fin.last cfg2.N) = Phi2 V c cfg2.N from rfl, Phi2_pos V c _ (Nat.ne_of_gt N2pos), PhiA2_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

theorem owed2 (c : Dev nD) (t) : (dat2 V c).owed t = 0 := rfl
theorem q2 (c : Dev nD) (w) : (dat2 V c).q w = fullShare := rfl

end Region2

end Cert.Kernel.Hand

end
-- ==== Proof.K.Run.lean ====
/-
  The kernel program's run: @main is three stretches of host operations, each followed by a staged kernel region.
  The contents of every unscoped buffer at each boundary are named as a fold from the launch memory — a host
  stretch applies its operations, a region rewrites its windows' arrays to what its write-backs leave — and the
  launch theorem for a list of segments gives: every weakly fair execution terminates, and at the end every
  unscoped buffer holds the last fold. The frame claim and the result's value are both read off that.
-/
import proofs.«414671_j14113262535138_3_alg».proof.Proof.Gen.Kernel.Launch
import proofs.«414671_j14113262535138_3_alg».proof.Proof.Gen.Kernel.Skeleton
import proofs.«414671_j14113262535138_3_alg».proof.Proof.Gen.Kernel.Points
import proofs.«414671_j14113262535138_3_alg».proof.Proof.Gen.Kernel.Regions
import proofs.«414671_j14113262535138_3_alg».proof.Proof.K.Region0
import proofs.«414671_j14113262535138_3_alg».proof.Proof.K.Region1
import proofs.«414671_j14113262535138_3_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in rectangles with ten thousand rows recurses once per row
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev Vt1 : (c : Dev nD) → (b : Ref sig .tc) → Buf (Elt F) ((c : Thread nD τ).loc b) := fun c b => W1 m c b

/-- At region 0's exit: its windows' arrays at what the pipeline leaves (an input array as entered, the output array
    at its write-backs folded over the grid), every other buffer as entered. -/
def W2 (c : Dev nD) : Valuation τ sig (Elt F) :=
  Pipeline.withArrays spec0 c (W1 m c) fun w => (dat0 (Vt1 m) c).arrAt w cfg0.N
theorem W2_arr (c : Dev nD) (w : Fin cfg0.W) :
    W2 m c (Proc.devRef .tc (Pipeline.arrRef spec0 w)) = (dat0 (Vt1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev Vt2 : (c : Dev nD) → (b : Ref sig .tc) → Buf (Elt F) ((c : Thread nD τ).loc b) := fun c b => W2 m c b
theorem hF0 (c : Dev nD) (w : Fin cfg0.W) : (dat0 (Vt1 m) c).arrAt w cfg0.N = Vt2 m c (Pipeline.arrRef spec0 w) :=
  (W2_arr m c w).symm
theorem hrest0 (c : Dev nD) : ∀ b, b ∉ Finset.univ.image (Pipeline.arrRef spec0) → Vt2 m c b = Vt1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev Vt3 : (c : Dev nD) → (b : Ref sig .tc) → Buf (Elt F) ((c : Thread nD τ).loc b) := fun c b => W3 m c b

/-- At region 1's exit: its windows' arrays at what the pipeline leaves (an input array as entered, the output array
    at its write-backs folded over the grid), every other buffer as entered. -/
def W4 (c : Dev nD) : Valuation τ sig (Elt F) :=
  Pipeline.withArrays spec1 c (W3 m c) fun w => (dat1 (Vt3 m) c).arrAt w cfg1.N
theorem W4_arr (c : Dev nD) (w : Fin cfg1.W) :
    W4 m c (Proc.devRef .tc (Pipeline.arrRef spec1 w)) = (dat1 (Vt3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev Vt4 : (c : Dev nD) → (b : Ref sig .tc) → Buf (Elt F) ((c : Thread nD τ).loc b) := fun c b => W4 m c b
theorem hF1 (c : Dev nD) (w : Fin cfg1.W) : (dat1 (Vt3 m) c).arrAt w cfg1.N = Vt4 m c (Pipeline.arrRef spec1 w) :=
  (W4_arr m c w).symm
theorem hrest1 (c : Dev nD) : ∀ b, b ∉ Finset.univ.image (Pipeline.arrRef spec1) → Vt4 m c b = Vt3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev Vt5 : (c : Dev nD) → (b : Ref sig .tc) → Buf (Elt F) ((c : Thread nD τ).loc b) := fun c b => W5 m c b

/-- At region 2's exit: its windows' arrays at what the pipeline leaves (an input array as entered, the output array
    at its write-backs folded over the grid), every other buffer as entered. -/
def W6 (c : Dev nD) : Valuation τ sig (Elt F) :=
  Pipeline.withArrays spec2 c (W5 m c) fun w => (dat2 (Vt5 m) c).arrAt w cfg2.N
theorem W6_arr (c : Dev nD) (w : Fin cfg2.W) :
    W6 m c (Proc.devRef .tc (Pipeline.arrRef spec2 w)) = (dat2 (Vt5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev Vt6 : (c : Dev nD) → (b : Ref sig .tc) → Buf (Elt F) ((c : Thread nD τ).loc b) := fun c b => W6 m c b
theorem hF2 (c : Dev nD) (w : Fin cfg2.W) : (dat2 (Vt5 m) c).arrAt w cfg2.N = Vt6 m c (Pipeline.arrRef spec2 w) :=
  (W6_arr m c w).symm
theorem hrest2 (c : Dev nD) : ∀ b, b ∉ Finset.univ.image (Pipeline.arrRef spec2) → Vt6 m c b = Vt5 m c b :=
  fun b hb => W6_of_ne m c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt3 m) c
  | ⟨2, _⟩ => fun c => dat2 (Vt5 m) c
abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every segment: the core's generator register at some state and its dues, none. -/
abbrev Rst (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last fold, the generator register at some state. -/
abbrev Tend (c : Dev nD) : sProp 𝕄 := iprop(StableHlo.held (c : Thread nD τ) (Pipeline.ucRefs τ sig) (W6 m c) ∗ ∃ r, prngReg c r)

/-! ## The regions as segments -/

-- unifying a library lemma stated over the pinned configuration with the printed one needs plain definitions unfolded
-- inside a metavariable's type
set_option backward.isDefEq.respectTransparency.types false in
/-- Region 0 as a segment of @main: entered with every unscoped buffer at `W1`, left with them at `W2`. Its
    windows' arrays are split out of the unscoped buffers on entry and put back, at what the write-backs left, on exit;
    the generator register goes into the region's invariant and comes back; the core owes nothing throughout. -/
def reg0 : Pipeline.RegionSeg (pcfgs (F := F)) adm (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ L₀ lv₀ 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt1 m c) (Vt2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs plain definitions unfolded
-- inside a metavariable's type
set_option backward.isDefEq.respectTransparency.types false in
/-- Region 1 as a segment of @main: entered with every unscoped buffer at `W3`, left with them at `W4`. Its
    windows' arrays are split out of the unscoped buffers on entry and put back, at what the write-backs left, on exit;
    the generator register goes into the region's invariant and comes back; the core owes nothing throughout. -/
def reg1 : Pipeline.RegionSeg (pcfgs (F := F)) adm (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (Vt3 m) c).loose
  hwaits := Pipeline.hwaits_of_owed_zero _ _ _ _ L₀ lv₀ 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (Vt3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vt3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt3 m c) (Vt4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs plain definitions unfolded
-- inside a metavariable's type
set_option backward.isDefEq.respectTransparency.types false in
/-- Region 2 as a segment of @main: entered with every unscoped buffer at `W5`, left with them at `W6`. Its
    windows' arrays are split out of the unscoped buffers on entry and put back, at what the write-backs left, on exit;
    the generator register goes into the region's invariant and comes back; the core owes nothing throughout. -/
def reg2 : Pipeline.RegionSeg (pcfgs (F := F)) adm (pdats m) () defs₀ 𝒱₀ L₀ lv₀ 2 where
  win := launch2.win.to₀
  block_pos := launch2.block_pos
  stage_whole := launch2.stage_whole
  K := PEmpty
  osem k := k.elim
  ho := Pipeline.OwnSemFacts.none _
  hbody c := (body_obligation2 (Vt5 m) c).loose
  hwaits := Pipeline.hwaits_of_owed_zero _ _ _ _ L₀ lv₀ 2 fun _ _ => rfl
  pre c := iprop(StableHlo.held (c : Thread nD τ) (Pipeline.ucRefs τ sig) (W5 m c) ∗ Rst c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vt5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vt5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (Vt5 m) c).Φ 0 from rfl]
    have h := hin2 (Vt5 m) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (Vt5 m) c).Φ (Fin.last cfg2.N) from rfl]
    have h := hout2 (Vt5 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vt5 m c) (Vt6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev msegs : List (Pipeline.Seg (pcfgs (F := F)) adm (pdats m) () defs₀ 𝒱₀ L₀ lv₀) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (msegs m) := (main_chain c).trans (by chain_rfl)

set_option backward.isDefEq.respectTransparency.types false in
/-- From any memory with zero counters every weakly fair execution of @main terminates, nothing faulting, and every
    final state holds every unscoped buffer at the last fold `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L₀ lv₀ m ρ main (msegs m)
    (fun c Q => by rw [main_run m c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tend m)
    (hch := ⟨fun _ => .rfl, fun _ => .rfl, fun _ => .rfl, fun _ => .rfl, fun _ => .rfl, fun _ => .rfl, fun _ => .rfl⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Hand

end
-- ==== Proof.K.Args.lean ====
/-
  The arguments of @main at the end of the run. No host operation writes an argument, and no region's output
  window has an argument as its array: a region leaves every buffer but its output array as it was entered
  (an input window's array is handed back unchanged, a buffer no window has is not touched). So the fold of
  buffer contents, read at an argument, walks back through all six segments to the launch memory.
-/
import proofs.«414671_j14113262535138_3_alg».proof.Proof.K.Run

-- deciding which window, if any, has a given array goes through every window's record
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F] (m : (ℓ : Loc nD τ sig) → Buf (Elt F) ℓ)

/-! ## A region changes its output array only -/

/-- Region 0 leaves every buffer but its output array `main_v24` as entered: a buffer that is an input window's array is
    handed back with its entry contents, and a buffer no window has is not touched. -/
theorem W2_keep (c : Dev nD) (b : Ref sig .tc) (hb : b ≠ main_v24) : W2 m c (Proc.devRef .tc b) = W1 m c (Proc.devRef .tc b) := by
  by_cases h : ∃ w, Pipeline.arrRef spec0 w = b
  · obtain ⟨w, rfl⟩ := h
    have hin : (cfg0.win w).isOut = false := by revert w; decide
    exact (W2_arr m c w).trans (((dat0 (Vt1 m) c).arrAt_in w hin _).trans (A_eq0 (Vt1 m) c w))
  · exact W2_of_ne m c b fun w e => h ⟨w, e⟩

/-- Region 1 leaves every buffer but its output array `main_v45` as entered: a buffer that is an input window's array is
    handed back with its entry contents, and a buffer no window has is not touched. -/
theorem W4_keep (c : Dev nD) (b : Ref sig .tc) (hb : b ≠ main_v45) : W4 m c (Proc.devRef .tc b) = W3 m c (Proc.devRef .tc b) := by
  by_cases h : ∃ w, Pipeline.arrRef spec1 w = b
  · obtain ⟨w, rfl⟩ := h
    have hin : (cfg1.win w).isOut = false := by revert w; decide
    exact (W4_arr m c w).trans (((dat1 (Vt3 m) c).arrAt_in w hin _).trans (A_eq1 (Vt3 m) c w))
  · exact W4_of_ne m c b fun w e => h ⟨w, e⟩

/-- Region 2 leaves every buffer but its output array `main_v47` as entered: a buffer that is an input window's array is
    handed back with its entry contents, and a buffer no window has is not touched. -/
theorem W6_keep (c : Dev nD) (b : Ref sig .tc) (hb : b ≠ main_v47) : W6 m c (Proc.devRef .tc b) = W5 m c (Proc.devRef .tc b) := by
  by_cases h : ∃ w, Pipeline.arrRef spec2 w = b
  · obtain ⟨w, rfl⟩ := h
    have hin : (cfg2.win w).isOut = false := by revert w; decide
    exact (W6_arr m c w).trans (((dat2 (Vt5 m) c).arrAt_in w hin _).trans (A_eq2 (Vt5 m) c w))
  · exact W6_of_ne m c b fun w e => h ⟨w, e⟩

/-! ## Each argument ends as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_keep m c main_arg0 (by decide)
    _ = W4 m c (Proc.devRef .tc main_arg0) := StableHlo.after_of_writes_sub hostOps2 _ hostOps2_writes (by decide)
    _ = W3 m c (Proc.devRef .tc main_arg0) := W4_keep m c main_arg0 (by decide)
    _ = W2 m c (Proc.devRef .tc main_arg0) := StableHlo.after_of_writes_sub hostOps1 _ hostOps1_writes (by decide)
    _ = W1 m c (Proc.devRef .tc main_arg0) := W2_keep m c main_arg0 (by decide)
    _ = W0 m c (Proc.devRef .tc main_arg0) := StableHlo.after_of_writes_sub hostOps0 _ hostOps0_writes (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_keep m c main_arg1 (by decide)
    _ = W4 m c (Proc.devRef .tc main_arg1) := StableHlo.after_of_writes_sub hostOps2 _ hostOps2_writes (by decide)
    _ = W3 m c (Proc.devRef .tc main_arg1) := W4_keep m c main_arg1 (by decide)
    _ = W2 m c (Proc.devRef .tc main_arg1) := StableHlo.after_of_writes_sub hostOps1 _ hostOps1_writes (by decide)
    _ = W1 m c (Proc.devRef .tc main_arg1) := W2_keep m c main_arg1 (by decide)
    _ = W0 m c (Proc.devRef .tc main_arg1) := StableHlo.after_of_writes_sub hostOps0 _ hostOps0_writes (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_keep m c main_arg2 (by decide)
    _ = W4 m c (Proc.devRef .tc main_arg2) := StableHlo.after_of_writes_sub hostOps2 _ hostOps2_writes (by decide)
    _ = W3 m c (Proc.devRef .tc main_arg2) := W4_keep m c main_arg2 (by decide)
    _ = W2 m c (Proc.devRef .tc main_arg2) := StableHlo.after_of_writes_sub hostOps1 _ hostOps1_writes (by decide)
    _ = W1 m c (Proc.devRef .tc main_arg2) := W2_keep m c main_arg2 (by decide)
    _ = W0 m c (Proc.devRef .tc main_arg2) := StableHlo.after_of_writes_sub hostOps0 _ hostOps0_writes (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_keep m c main_arg3 (by decide)
    _ = W4 m c (Proc.devRef .tc main_arg3) := StableHlo.after_of_writes_sub hostOps2 _ hostOps2_writes (by decide)
    _ = W3 m c (Proc.devRef .tc main_arg3) := W4_keep m c main_arg3 (by decide)
    _ = W2 m c (Proc.devRef .tc main_arg3) := StableHlo.after_of_writes_sub hostOps1 _ hostOps1_writes (by decide)
    _ = W1 m c (Proc.devRef .tc main_arg3) := W2_keep m c main_arg3 (by decide)
    _ = W0 m c (Proc.devRef .tc main_arg3) := StableHlo.after_of_writes_sub hostOps0 _ hostOps0_writes (by decide)
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_keep m c main_arg4 (by decide)
    _ = W4 m c (Proc.devRef .tc main_arg4) := StableHlo.after_of_writes_sub hostOps2 _ hostOps2_writes (by decide)
    _ = W3 m c (Proc.devRef .tc main_arg4) := W4_keep m c main_arg4 (by decide)
    _ = W2 m c (Proc.devRef .tc main_arg4) := StableHlo.after_of_writes_sub hostOps1 _ hostOps1_writes (by decide)
    _ = W1 m c (Proc.devRef .tc main_arg4) := W2_keep m c main_arg4 (by decide)
    _ = W0 m c (Proc.devRef .tc main_arg4) := StableHlo.after_of_writes_sub hostOps0 _ hostOps0_writes (by decide)
    _ = m ((c : Thread nD τ).loc main_arg4) := rfl

theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_keep m c main_arg5 (by decide)
    _ = W4 m c (Proc.devRef .tc main_arg5) := StableHlo.after_of_writes_sub hostOps2 _ hostOps2_writes (by decide)
    _ = W3 m c (Proc.devRef .tc main_arg5) := W4_keep m c main_arg5 (by decide)
    _ = W2 m c (Proc.devRef .tc main_arg5) := StableHlo.after_of_writes_sub hostOps1 _ hostOps1_writes (by decide)
    _ = W1 m c (Proc.devRef .tc main_arg5) := W2_keep m c main_arg5 (by decide)
    _ = W0 m c (Proc.devRef .tc main_arg5) := StableHlo.after_of_writes_sub hostOps0 _ hostOps0_writes (by decide)
    _ = m ((c : Thread nD τ).loc main_arg5) := rfl

theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_keep m c main_arg6 (by decide)
    _ = W4 m c (Proc.devRef .tc main_arg6) := StableHlo.after_of_writes_sub hostOps2 _ hostOps2_writes (by decide)
    _ = W3 m c (Proc.devRef .tc main_arg6) := W4_keep m c main_arg6 (by decide)
    _ = W2 m c (Proc.devRef .tc main_arg6) := StableHlo.after_of_writes_sub hostOps1 _ hostOps1_writes (by decide)
    _ = W1 m c (Proc.devRef .tc main_arg6) := W2_keep m c main_arg6 (by decide)
    _ = W0 m c (Proc.devRef .tc main_arg6) := StableHlo.after_of_writes_sub hostOps0 _ hostOps0_writes (by decide)
    _ = m ((c : Thread nD τ).loc main_arg6) := rfl

theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_keep m c main_arg7 (by decide)
    _ = W4 m c (Proc.devRef .tc main_arg7) := StableHlo.after_of_writes_sub hostOps2 _ hostOps2_writes (by decide)
    _ = W3 m c (Proc.devRef .tc main_arg7) := W4_keep m c main_arg7 (by decide)
    _ = W2 m c (Proc.devRef .tc main_arg7) := StableHlo.after_of_writes_sub hostOps1 _ hostOps1_writes (by decide)
    _ = W1 m c (Proc.devRef .tc main_arg7) := W2_keep m c main_arg7 (by decide)
    _ = W0 m c (Proc.devRef .tc main_arg7) := StableHlo.after_of_writes_sub hostOps0 _ hostOps0_writes (by decide)
    _ = m ((c : Thread nD τ).loc main_arg7) := rfl

theorem W6_main_arg8 (c : Dev nD) : W6 m c (Proc.devRef .tc main_arg8) = m ((c : Thread nD τ).loc main_arg8) :=
  calc W6 m c (Proc.devRef .tc main_arg8)
    _ = W5 m c (Proc.devRef .tc main_arg8) := W6_keep m c main_arg8 (by decide)
    _ = W4 m c (Proc.devRef .tc main_arg8) := StableHlo.after_of_writes_sub hostOps2 _ hostOps2_writes (by decide)
    _ = W3 m c (Proc.devRef .tc main_arg8) := W4_keep m c main_arg8 (by decide)
    _ = W2 m c (Proc.devRef .tc main_arg8) := StableHlo.after_of_writes_sub hostOps1 _ hostOps1_writes (by decide)
    _ = W1 m c (Proc.devRef .tc main_arg8) := W2_keep m c main_arg8 (by decide)
    _ = W0 m c (Proc.devRef .tc main_arg8) := StableHlo.after_of_writes_sub hostOps0 _ hostOps0_writes (by decide)
    _ = m ((c : Thread nD τ).loc main_arg8) := rfl

end Cert.Kernel.Hand

end
-- ==== Proof.KI.Region0.lean ====
/-
  Region 0 of the kernel program (the first dense layer, ReLU), as the staged pipeline runs it: what the body
  leaves in each window's buffer at every grid point, and that the body meets the pipeline's obligation there.
-/
import proofs.«414671_j14113262535138_3_alg».proof.Proof.Gen.KernelIdeal.Launch
import proofs.«414671_j14113262535138_3_alg».proof.Proof.Gen.KernelIdeal.Skeleton
import proofs.«414671_j14113262535138_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in rectangles with ten thousand rows recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the dense layer on one block of ten thousand rows

The body reads its two activation blocks, the two weight matrices and the bias row, and stores
`activation ((a · Wl + x · Wr) + bias)` over the whole output block. Nothing is kept between grid points, so
what the output buffer holds after a point is one function of that point's five input blocks. Everything here is
stated at a parameter `V`: the contents of the TensorCore's buffers when the region is entered. -/

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block of the entry array at every grid point, whether the
    pipeline fetched it there or the block index stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block of the entry array at every grid point, whether the
    pipeline fetched it there or the block index stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block of the entry array at every grid point, whether the
    pipeline fetched it there or the block index stood still since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds the window's block of the entry array at every grid point, whether the
    pipeline fetched it there or the block index stood still since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds the window's block of the entry array at every grid point, whether the
    pipeline fetched it there or the block index stood still since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's whole-buffer accesses -/

abbrev rA0 : Rect S10000x8 := Rect.unit (s := S10000x8) ![0, 0] S10000x8.size inb_S10000x8_S10000x8_0_0
abbrev rW0 : Rect S8x16 := Rect.unit (s := S8x16) ![0, 0] S8x16.size inb_S8x16_S8x16_0_0
abbrev rB0 : Rect S1x16 := Rect.unit (s := S1x16) ![0, 0] S1x16.size inb_S1x16_S1x16_0_0
abbrev rO0 : Rect S10000x16 := Rect.unit (s := S10000x16) ![0, 0] S10000x16.size inb_S10000x16_S10000x16_0_0

/-- What the body leaves in the output buffer: its one store, over the whole block, of the layer's value on the
    five loaded blocks. -/
def out0_5 (x0 x1 : Vec F S10000x8 .f32) (x2 x3 : Vec F S8x16 .f32) (x4 : Vec F S1x16 .f32) : Vec F S10000x16 .f32 :=
  View.canon [⟨rO0, k0_pay1 (View.ld x0 rA0) (View.ld x1 rA0) (View.ld x2 rW0) (View.ld x3 rW0) (View.ld x4 rB0)⟩]

/-- The one store covers the output block. -/
theorem cover0_5 (p0 : Vec F S10000x16 .f32) (y : S10000x16.Idx) :
    ∃ pc ∈ ([⟨rO0, p0⟩] : List (View.Piece (Elt F) S10000x16 .f32)), y ∈ pc.1.set :=
  View.cover_of_tiled [⟨rO0, p0⟩] S10000x16.size (by rfl) y

/-! ## The body's triple -/

set_option maxHeartbeats 1000000 in
/-- On whole staging buffers, the inputs' holding `x0 … x4` and the output's anything, the body runs to the end,
    leaves the inputs as they were and the output at `out0_5` of them. -/
theorem sound_kernel0 (c : Dev nD) (E : Set ℕ) (i : grid0.Coords) (arg1 : Memref sig .tc .vmem S10000x8 .f32) (harg1 : arg1.IsWhole) (arg2 : Memref sig .tc .vmem S10000x8 .f32) (harg2 : arg2.IsWhole) (arg3 : Memref sig .tc .vmem S8x16 .f32) (harg3 : arg3.IsWhole) (arg4 : Memref sig .tc .vmem S8x16 .f32) (harg4 : arg4.IsWhole) (arg5 : Memref sig .tc .vmem S1x16 .f32) (harg5 : arg5.IsWhole) (arg6 : Memref sig .tc .vmem S10000x16 .f32) (harg6 : arg6.IsWhole)
    (x0 x1 : Vec F S10000x8 .f32) (x2 x3 : Vec F S8x16 .f32) (x4 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__sage_linear_kernel i arg1 harg1 arg2 harg2 arg3 harg3 arg4 harg4 arg5 harg5 arg6 harg6) K := by
  simp only [cc0__sage_linear_kernel_eq_skeleton]; unfold cc0__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- Region 0's proof data on core `c`: the arrays as the region finds them; after the body at point `t` each
    input buffer still at its block and the output buffer at `out0_5` of the five blocks; the invariant is the
    scoped buffers no window stages and the generator register, untouched; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is handed at point `t`: the invariant, the core's dues, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1.lean ====
/-
  Region 1 of the kernel program (the second dense layer, leaky ReLU), as the staged pipeline runs it: what the body
  leaves in each window's buffer at every grid point, and that the body meets the pipeline's obligation there.
-/
import proofs.«414671_j14113262535138_3_alg».proof.Proof.Gen.KernelIdeal.Launch
import proofs.«414671_j14113262535138_3_alg».proof.Proof.Gen.KernelIdeal.Skeleton
import proofs.«414671_j14113262535138_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in rectangles with ten thousand rows recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the dense layer on one block of ten thousand rows

The body reads its two activation blocks, the two weight matrices and the bias row, and stores
`activation ((a · Wl + x · Wr) + bias)` over the whole output block. Nothing is kept between grid points, so
what the output buffer holds after a point is one function of that point's five input blocks. Everything here is
stated at a parameter `V`: the contents of the TensorCore's buffers when the region is entered. -/

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds the window's block of the entry array at every grid point, whether the
    pipeline fetched it there or the block index stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block of the entry array at every grid point, whether the
    pipeline fetched it there or the block index stood still since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block of the entry array at every grid point, whether the
    pipeline fetched it there or the block index stood still since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds the window's block of the entry array at every grid point, whether the
    pipeline fetched it there or the block index stood still since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds the window's block of the entry array at every grid point, whether the
    pipeline fetched it there or the block index stood still since the last fetch. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's whole-buffer accesses -/

abbrev rA1 : Rect S10000x16 := Rect.unit (s := S10000x16) ![0, 0] S10000x16.size inb_S10000x16_S10000x16_0_0
abbrev rW1 : Rect S16x20 := Rect.unit (s := S16x20) ![0, 0] S16x20.size inb_S16x20_S16x20_0_0
abbrev rB1 : Rect S1x20 := Rect.unit (s := S1x20) ![0, 0] S1x20.size inb_S1x20_S1x20_0_0
abbrev rO1 : Rect S10000x20 := Rect.unit (s := S10000x20) ![0, 0] S10000x20.size inb_S10000x20_S10000x20_0_0

/-- What the body leaves in the output buffer: its one store, over the whole block, of the layer's value on the
    five loaded blocks. -/
def out1_5 (x0 x1 : Vec F S10000x16 .f32) (x2 x3 : Vec F S16x20 .f32) (x4 : Vec F S1x20 .f32) : Vec F S10000x20 .f32 :=
  View.canon [⟨rO1, k1_pay1 (View.ld x0 rA1) (View.ld x1 rA1) (View.ld x2 rW1) (View.ld x3 rW1) (View.ld x4 rB1)⟩]

/-- The one store covers the output block. -/
theorem cover1_5 (p0 : Vec F S10000x20 .f32) (y : S10000x20.Idx) :
    ∃ pc ∈ ([⟨rO1, p0⟩] : List (View.Piece (Elt F) S10000x20 .f32)), y ∈ pc.1.set :=
  View.cover_of_tiled [⟨rO1, p0⟩] S10000x20.size (by rfl) y

/-! ## The body's triple -/

set_option maxHeartbeats 1000000 in
/-- On whole staging buffers, the inputs' holding `x0 … x4` and the output's anything, the body runs to the end,
    leaves the inputs as they were and the output at `out1_5` of them. -/
theorem sound_kernel1 (c : Dev nD) (E : Set ℕ) (i : grid1.Coords) (arg1 : Memref sig .tc .vmem S10000x16 .f32) (harg1 : arg1.IsWhole) (arg2 : Memref sig .tc .vmem S10000x16 .f32) (harg2 : arg2.IsWhole) (arg3 : Memref sig .tc .vmem S16x20 .f32) (harg3 : arg3.IsWhole) (arg4 : Memref sig .tc .vmem S16x20 .f32) (harg4 : arg4.IsWhole) (arg5 : Memref sig .tc .vmem S1x20 .f32) (harg5 : arg5.IsWhole) (arg6 : Memref sig .tc .vmem S10000x20 .f32) (harg6 : arg6.IsWhole)
    (x0 x1 : Vec F S10000x16 .f32) (x2 x3 : Vec F S16x20 .f32) (x4 : Vec F S1x20 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__sage_linear_kernel i arg1 harg1 arg2 harg2 arg3 harg3 arg4 harg4 arg5 harg5 arg6 harg6) K := by
  simp only [cc1__sage_linear_kernel_eq_skeleton]; unfold cc1__sage_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- Region 1's proof data on core `c`: the arrays as the region finds them; after the body at point `t` each
    input buffer still at its block and the output buffer at `out1_5` of the five blocks; the invariant is the
    scoped buffers no window stages and the generator register, untouched; nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

/-- What the body is handed at point `t`: the invariant, the core's dues, every window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.PoolFold.lean ====
/-
  The pooling kernel keeps two running sums in scratch memory across its fifty grid points: per graph and feature
  the sum of the rows met so far, and per graph how many rows were met. The first point starts both from zero;
  every point adds its block's contribution. This module names what the two buffers hold after point `n`, as a
  function of the blocks the points load, in the kernel's own operations (the skeleton's payloads).
-/
import proofs.«414671_j14113262535138_3_alg».proof.Proof.Gen.KernelIdeal.Skeleton

noncomputable section

namespace Cert.KernelIdeal.Hand

open Cert.KernelIdeal Cert.KernelIdeal.Gen Idealize.ShloMosaic

variable {F : FTy → Type} [FloatOps F]

/-- The running sums after grid point `n`: `(sums, counts)`. `bt k` and `ht k` are the graph-id block and the
    feature block point `k` loads. Point 0 adds its block to zeros; point `n + 1` adds its block to what point
    `n` left. -/
def carry (bt : ℕ → Vec F S2000x1 .i32) (ht : ℕ → Vec F S2000x20 .f32) : ℕ → Vec F S256x20 .f32 × Vec F S256x1 .f32
  | 0 => (k2_pay4 (bt 0) (ht 0) (k2_pay1 (F := F)), k2_pay5 (bt 0) (k2_pay2 (F := F)))
  | n + 1 => (k2_pay4 (bt (n + 1)) (ht (n + 1)) (carry bt ht n).1, k2_pay5 (bt (n + 1)) (carry bt ht n).2)

theorem carry_zero (bt : ℕ → Vec F S2000x1 .i32) (ht : ℕ → Vec F S2000x20 .f32) :
    carry bt ht 0 = (k2_pay4 (bt 0) (ht 0) (k2_pay1 (F := F)), k2_pay5 (bt 0) (k2_pay2 (F := F))) := rfl

theorem carry_succ (bt : ℕ → Vec F S2000x1 .i32) (ht : ℕ → Vec F S2000x20 .f32) (n : ℕ) :
    carry bt ht (n + 1) = (k2_pay4 (bt (n + 1)) (ht (n + 1)) (carry bt ht n).1, k2_pay5 (bt (n + 1)) (carry bt ht n).2) := rfl

/-- What the last point stores into the output block: the sums over the counts, a count below one read as one. -/
def pooled (bt : ℕ → Vec F S2000x1 .i32) (ht : ℕ → Vec F S2000x20 .f32) : Vec F S256x20 .f32 :=
  k2_pay6 (carry bt ht 49).1 (carry bt ht 49).2

end Cert.KernelIdeal.Hand

end
-- ==== Proof.KI.Region2.lean ====
/-
  Region 2 of the kernel program (the mean pool over graph ids), as the staged pipeline runs it: the body's triple
  at the first, the middle and the last grid point, the invariant that carries the two running sums from point to
  point, and that the body meets the pipeline's obligation at every point.
-/
import proofs.«414671_j14113262535138_3_alg».proof.Proof.Gen.KernelIdeal.Launch
import proofs.«414671_j14113262535138_3_alg».proof.Proof.Gen.KernelIdeal.Skeleton
import proofs.«414671_j14113262535138_3_alg».proof.Proof.Gen.KernelIdeal.Points
import proofs.«414671_j14113262535138_3_alg».proof.Proof.KI.PoolFold
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

-- deciding membership in rectangles with ten thousand rows recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the mean pool, fifty blocks of two thousand rows

The body keeps two running sums in scratch memory: per graph and feature the sum of the rows met so far, per graph
the number of rows met. The first point resets both to zero before it adds its block; every point adds its block;
the last point alone stores the output block, the sums over the counts. So there are three kinds of point, told
apart by the grid coordinate alone, and the output's buffer is left untouched at all but the last. -/

/-! ## The branch conditions, over the grid -/

/-- The condition of the reset branch, from the grid coordinate. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)
/-- The condition of the branch that stores the output. -/
abbrev cond2_1 (i : grid2.Coords) : Prop := k2_cond2 i = 1#1
/-- It holds at the last point only. -/
theorem hcond2_1 : ∀ t : Fin cfg2.N, cond2_1 (grid2.coords t) ↔ t.val = 49 :=
  (by decide +kernel : ∀ t : Fin grid2.N, cond2_1 (grid2.coords t) ↔ t.val = 49)

/-! ## Where the windows are idle, and where the output is written back -/

/-- The two inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from the last point the output is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last point it is live. -/
theorem liveAt2_2 : ∀ t : Fin cfg2.N, cond2_1 (grid2.coords t) → cfg2.idle 2 (grid2.coords t) = false := by decide +kernel

/-! ## The scratch buffers and the class invariant -/

/-- The two scratch operands: whole scoped buffers of the kernel's own. -/
abbrev scM2_0 : Memref sig .tc .vmem S256x20 .f32 := Memref.whole cc2_scratch0
abbrev scM2_1 : Memref sig .tc .vmem S256x1 .f32 := Memref.whole cc2_scratch1

/-- The core's scoped buffers that are neither a staging buffer of this call nor one of its two scratch buffers,
    at some contents each: the body never touches them. -/
abbrev others2 (c : Dev nD) : sProp 𝕄 :=
  Pipeline.scopedRestBut (Ix := Unit) (Name := ℕ) (U := UR sig nD τ) (Lvl := ℕ) (Val := Elt F) spec2 c [cc2_scratch0, cc2_scratch1]

/-- The class invariant with the two scratch buffers split off as memrefs owned at some contents. -/
theorem PhiA2_eq (c : Dev nD) :
    (Pipeline.ΦA spec2 c : sProp 𝕄)
      = iprop((((∃ d, owns (c : Thread nD τ) scM2_0 fullShare d) ∗ (∃ d, owns (c : Thread nD τ) scM2_1 fullShare d))
          ∗ others2 (F := F) c) ∗ (∃ r, prngReg c r)) := by
  unfold Pipeline.ΦA
  rw [Pipeline.scopedRest_split_of_list spec2 c [cc2_scratch0, cc2_scratch1] (by decide) (by decide)]
  simp only [scM2_0, scM2_1, owns_whole]
  rfl

/-! ## Whole-rectangle stores read back -/

/-- The zero offsets as the stores spell them. -/
theorem hz2 : (![0, 0] : Fin 2 → Nat) = fun _ => 0 := by funext a; fin_cases a <;> rfl

/-- A buffer whose LAST store went through the whole-shape rectangle reads as that store's payload, whatever
    it held before and whatever the earlier stores were. -/
theorem read_writes_whole_last {sp : Space} {S : Shape} {e : EltTy} (v : View sig .tc sp S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz]

/-! ## The body's triple, by the kind of point -/

set_option maxHeartbeats 1000000 in
/-- The body at the first grid point: the two running sums come in at anything, are reset to zeros and have the
    point's block added; the loaded blocks and the output buffer are left as they were. -/
theorem run2_first (c : Dev nD) (E : Set ℕ) (i : grid2.Coords) (arg1 : Memref sig .tc .vmem S2000x1 .i32) (harg1 : arg1.IsWhole) (arg2 : Memref sig .tc .vmem S2000x20 .f32) (harg2 : arg2.IsWhole) (arg3 : Memref sig .tc .vmem S256x20 .f32) (harg3 : arg3.IsWhole) (arg4 : Memref sig .tc .vmem S256x20 .f32) (harg4 : arg4.IsWhole) (arg5 : Memref sig .tc .vmem S256x1 .f32) (harg5 : arg5.IsWhole)
    (hc0 : cond2_0 i) (hc1 : ¬cond2_1 i)
    (b : Vec F S2000x1 .i32) (h : Vec F S2000x20 .f32) (o : Vec F S256x20 .f32) (K : PUnit → sProp 𝕄) :
    iprop(owns (c : Thread nD τ) arg1 fullShare b ∗ owns (c : Thread nD τ) arg2 fullShare h ∗ owns (c : Thread nD τ) arg3 fullShare o
        ∗ (∃ d, owns (c : Thread nD τ) arg4 fullShare d) ∗ (∃ d, owns (c : Thread nD τ) arg5 fullShare d)
        ∗ (iprop(owns (c : Thread nD τ) arg1 fullShare b ∗ owns (c : Thread nD τ) arg2 fullShare h ∗ owns (c : Thread nD τ) arg3 fullShare o
            ∗ owns (c : Thread nD τ) arg4 fullShare (k2_pay4 b h (k2_pay1 (F := F))) ∗ owns (c : Thread nD τ) arg5 fullShare (k2_pay5 b (k2_pay2 (F := F)))) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [read_writes_whole_last (S := S256x20) _ _ hz2]
    rw [View.readCov_unit_zero _ hz2]
    simp only [View.readAt_eq_ld, harg1.read_unread, harg2.read_unread, View.ld_unit_zero (S := S2000x1) hz2, View.ld_unit_zero (S := S2000x20) hz2]
  iexists _; isplitr
  swap; · iexact H5
  ipureintro
  sl_unfold_words
  rw [read_writes_whole_last (S := S256x1) _ _ hz2]
  rw [View.readCov_unit_zero _ hz2]
  simp only [View.readAt_eq_ld, harg1.read_unread, View.ld_unit_zero (S := S2000x1) hz2]

set_option maxHeartbeats 1000000 in
/-- The body at a middle grid point: the running sums come in at `a` and `cn` and have the point's block added;
    the loaded blocks and the output buffer are left as they were. -/
theorem run2_mid (c : Dev nD) (E : Set ℕ) (i : grid2.Coords) (arg1 : Memref sig .tc .vmem S2000x1 .i32) (harg1 : arg1.IsWhole) (arg2 : Memref sig .tc .vmem S2000x20 .f32) (harg2 : arg2.IsWhole) (arg3 : Memref sig .tc .vmem S256x20 .f32) (harg3 : arg3.IsWhole) (arg4 : Memref sig .tc .vmem S256x20 .f32) (harg4 : arg4.IsWhole) (arg5 : Memref sig .tc .vmem S256x1 .f32) (harg5 : arg5.IsWhole)
    (hc0 : ¬cond2_0 i) (hc1 : ¬cond2_1 i)
    (b : Vec F S2000x1 .i32) (h : Vec F S2000x20 .f32) (o : Vec F S256x20 .f32)
    (a : Vec F S256x20 .f32) (cn : Vec F S256x1 .f32) (K : PUnit → sProp 𝕄) :
    iprop(owns (c : Thread nD τ) arg1 fullShare b ∗ owns (c : Thread nD τ) arg2 fullShare h ∗ owns (c : Thread nD τ) arg3 fullShare o
        ∗ owns (c : Thread nD τ) arg4 fullShare a ∗ owns (c : Thread nD τ) arg5 fullShare cn
        ∗ (iprop(owns (c : Thread nD τ) arg1 fullShare b ∗ owns (c : Thread nD τ) arg2 fullShare h ∗ owns (c : Thread nD τ) arg3 fullShare o
            ∗ owns (c : Thread nD τ) arg4 fullShare (k2_pay4 b h a) ∗ owns (c : Thread nD τ) arg5 fullShare (k2_pay5 b cn)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_words
    rw [read_writes_whole_last (S := S256x20) _ _ hz2]
    simp only [View.readAt_eq_ld, harg1.read_unread, harg2.read_unread, harg4.read_unread, View.ld_unit_zero (S := S2000x1) hz2, View.ld_unit_zero (S := S2000x20) hz2, View.ld_unit_zero (S := S256x20) hz2]
  iexists _; isplitr
  swap; · iexact H5
  ipureintro
  sl_unfold_words
  rw [read_writes_whole_last (S := S256x1) _ _ hz2]
  simp only [View.readAt_eq_ld, harg1.read_unread, harg5.read_unread, View.ld_unit_zero (S := S2000x1) hz2, View.ld_unit_zero (S := S256x1) hz2]

set_option maxHeartbeats 1000000 in
/-- The body at the last grid point: the running sums come in at `a` and `cn`, have the point's block added, and
    the output buffer, which comes in at anything, is stored with the sums over the counts. -/
theorem run2_last (c : Dev nD) (E : Set ℕ) (i : grid2.Coords) (arg1 : Memref sig .tc .vmem S2000x1 .i32) (harg1 : arg1.IsWhole) (arg2 : Memref sig .tc .vmem S2000x20 .f32) (harg2 : arg2.IsWhole) (arg3 : Memref sig .tc .vmem S256x20 .f32) (harg3 : arg3.IsWhole) (arg4 : Memref sig .tc .vmem S256x20 .f32) (harg4 : arg4.IsWhole) (arg5 : Memref sig .tc .vmem S256x1 .f32) (harg5 : arg5.IsWhole)
    (hc0 : ¬cond2_0 i) (hc1 : cond2_1 i)
    (b : Vec F S2000x1 .i32) (h : Vec F S2000x20 .f32)
    (a : Vec F S256x20 .f32) (cn : Vec F S256x1 .f32) (K : PUnit → sProp 𝕄) :
    iprop(owns (c : Thread nD τ) arg1 fullShare b ∗ owns (c : Thread nD τ) arg2 fullShare h ∗ (∃ d, owns (c : Thread nD τ) arg3 fullShare d)
        ∗ owns (c : Thread nD τ) arg4 fullShare a ∗ owns (c : Thread nD τ) arg5 fullShare cn
        ∗ (iprop(owns (c : Thread nD τ) arg1 fullShare b ∗ owns (c : Thread nD τ) arg2 fullShare h ∗ owns (c : Thread nD τ) arg3 fullShare (k2_pay6 (k2_pay4 b h a) (k2_pay5 b cn))
            ∗ owns (c : Thread nD τ) arg4 fullShare (k2_pay4 b h a) ∗ owns (c : Thread nD τ) arg5 fullShare (k2_pay5 b cn)) -∗ K ⟨⟩))
      ⊢ wp frame (wpE (defs₀ (F := F)) Variants.none c none) E (cc2__pool_kernel i arg1 harg1 arg2 harg2 arg3 harg3 arg4 harg4 arg5 harg5) K := by
  simp only [cc2__pool_kernel_eq_skeleton]; unfold cc2__pool_kernel_skel
  unfold owns
  iintro ⟨⟨%f1, %hf1, H1⟩, ⟨%f2, %hf2, H2⟩, ⟨%d3, %f3, -, H3⟩, ⟨%f4, %hf4, H4⟩, ⟨%f5, %hf5, H5⟩, Hk⟩
  obtain rfl := harg1.eq_unread hf1; obtain rfl := harg2.eq_unread hf2
  obtain rfl := harg4.eq_unread hf4; obtain rfl := harg5.eq_unread hf5
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    sl_unfold_words
    rw [read_writes_whole_last (S := S256x20) _ _ hz2]
    simp only [View.readCov_unit_zero (S := S256x20) _ hz2, View.readCov_unit_zero (S := S256x1) _ hz2, View.readAt_eq_ld,
      harg1.read_unread, harg2.read_unread, harg4.read_unread, harg5.read_unread,
      View.ld_unit_zero (S := S2000x1) hz2, View.ld_unit_zero (S := S2000x20) hz2, View.ld_unit_zero (S := S256x20) hz2, View.ld_unit_zero (S := S256x1) hz2]
  isplitl [H4]
  · iexists _; isplitr
    swap; · iexact H4
    ipureintro
    sl_unfold_words
    rw [read_writes_whole_last (S := S256x20) _ _ hz2]
    simp only [View.readAt_eq_ld, harg1.read_unread, harg2.read_unread, harg4.read_unread, View.ld_unit_zero (S := S2000x1) hz2, View.ld_unit_zero (S := S2000x20) hz2, View.ld_unit_zero (S := S256x20) hz2]
  iexists _; isplitr
  swap; · iexact H5
  ipureintro
  sl_unfold_words
  rw [read_writes_whole_last (S := S256x1) _ _ hz2]
  simp only [View.readAt_eq_ld, harg1.read_unread, harg5.read_unread, View.ld_unit_zero (S := S2000x1) hz2, View.ld_unit_zero (S := S256x1) hz2]

section Region2

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem N2pos : 0 < cfg2.N := by rw [show cfg2.N = 50 from N_2]; decide

/-- The graph-id block and the feature block that grid point `n` loads (positions past the grid wrap round; nothing reads them). -/
def bt2 (c : Dev nD) (n : ℕ) : Vec F S2000x1 .i32 := iblk2 V c 0 ⟨n % cfg2.N, Nat.mod_lt _ N2pos⟩
def ht2 (c : Dev nD) (n : ℕ) : Vec F S2000x20 .f32 := iblk2 V c 1 ⟨n % cfg2.N, Nat.mod_lt _ N2pos⟩

/-- At a point of the grid the wrapped position is the point. -/
theorem bt2_val (c : Dev nD) (t : Fin cfg2.N) : bt2 V c t.val = iblk2 V c 0 t := by
  have e : (⟨t.val % cfg2.N, Nat.mod_lt _ N2pos⟩ : Fin cfg2.N) = t := Fin.ext (Nat.mod_eq_of_lt t.isLt)
  unfold bt2; rw [e]
theorem ht2_val (c : Dev nD) (t : Fin cfg2.N) : ht2 V c t.val = iblk2 V c 1 t := by
  have e : (⟨t.val % cfg2.N, Nat.mod_lt _ N2pos⟩ : Fin cfg2.N) = t := Fin.ext (Nat.mod_eq_of_lt t.isLt)
  unfold ht2; rw [e]

/-- The running sums after the first point: its block added to zeros. -/
theorem carry_first (c : Dev nD) (t : Fin cfg2.N) (h0 : t.val = 0) :
    carry (bt2 V c) (ht2 V c) t.val
      = (k2_pay4 (iblk2 V c 0 t) (iblk2 V c 1 t) (k2_pay1 (F := F)), k2_pay5 (iblk2 V c 0 t) (k2_pay2 (F := F))) := by
  have e := bt2_val V c t; have e' := ht2_val V c t
  rw [h0] at e e'
  rw [h0, carry_zero, e, e']

/-- The running sums after a later point: its block added to what the point before left. -/
theorem carry_next (c : Dev nD) (t : Fin cfg2.N) (h0 : t.val ≠ 0) :
    carry (bt2 V c) (ht2 V c) t.val
      = (k2_pay4 (iblk2 V c 0 t) (iblk2 V c 1 t) (carry (bt2 V c) (ht2 V c) (t.val - 1)).1,
         k2_pay5 (iblk2 V c 0 t) (carry (bt2 V c) (ht2 V c) (t.val - 1)).2) := by
  have e := bt2_val V c t; have e' := ht2_val V c t
  generalize t.val = n at h0 e e' ⊢
  cases n with
  | zero => exact absurd rfl h0
  | succ n => rw [carry_succ, e, e']; rfl

/-- The region invariant before position `n`: before the first point the class's (both scratch buffers at anything);
    afterwards the two scratch buffers at the running sums the point before left, the other scoped buffers at anything,
    the generator register at some state. -/
def Phi2 (c : Dev nD) : ℕ → sProp 𝕄
  | 0 => Pipeline.ΦA spec2 c
  | n + 1 => iprop(((owns (c : Thread nD τ) scM2_0 fullShare (carry (bt2 V c) (ht2 V c) n).1
        ∗ owns (c : Thread nD τ) scM2_1 fullShare (carry (bt2 V c) (ht2 V c) n).2) ∗ others2 (F := F) c) ∗ (∃ r, prngReg c r))

theorem Phi2_zero (c : Dev nD) (n : ℕ) (hz : n = 0) : Phi2 V c n = Pipeline.ΦA spec2 c := by subst hz; rfl

theorem Phi2_succ (c : Dev nD) (n : ℕ) :
    Phi2 V c (n + 1) = iprop(((owns (c : Thread nD τ) scM2_0 fullShare (carry (bt2 V c) (ht2 V c) n).1
        ∗ owns (c : Thread nD τ) scM2_1 fullShare (carry (bt2 V c) (ht2 V c) n).2) ∗ others2 (F := F) c) ∗ (∃ r, prngReg c r)) := rfl

theorem Phi2_pos (c : Dev nD) (n : ℕ) (hz : n ≠ 0) :
    Phi2 V c n = iprop(((owns (c : Thread nD τ) scM2_0 fullShare (carry (bt2 V c) (ht2 V c) (n - 1)).1
        ∗ owns (c : Thread nD τ) scM2_1 fullShare (carry (bt2 V c) (ht2 V c) (n - 1)).2) ∗ others2 (F := F) c) ∗ (∃ r, prngReg c r)) := by
  cases n with
  | zero => exact absurd rfl hz
  | succ n => rfl

/-- Region 2's proof data on core `c`: the arrays as the region finds them; after the body each input buffer still at
    its block, the output buffer at the pooled block (consulted at the last point only: elsewhere the window is idle);
    the invariant carries the running sums; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => pooled (bt2 V c) (ht2 V c)
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = pooled (bt2 V c) (ht2 V c) := by dsimp only [dat2]

theorem after2_2_last (c : Dev nD) (t : Fin cfg2.N) (ht : t.val = 49) :
    (dat2 V c).after 2 t = pooled (bt2 V c) (ht2 V c) := after2_2 V c t

/-- Each input's staging buffer holds the window's block of the entry array at every grid point, whether the
    pipeline fetched it there or the block index stood still since the last fetch. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-! ## The body obligation -/

/-- What the body is handed at point `t`: the invariant, the core's dues, every window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- What it hands back: the output's buffer as found where the window is idle, at the pooled block where it is live. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    show (dat2 V c).Φ t.succ = Phi2 V c (t.val + 1) from rfl, Phi2_succ,
    show (dat2 V c).Φ t.castSucc = Phi2 V c t.val from rfl,
    show (dat2 V c).leavesExact 0 t = owns (c : Thread nD τ) (st2_0 t) fullShare ((dat2 V c).after 0 t) from by
      unfold Dat.leavesExact; rw [liveAt2_0 t],
    show (dat2 V c).leavesExact 1 t = owns (c : Thread nD τ) (st2_1 t) fullShare ((dat2 V c).after 1 t) from by
      unfold Dat.leavesExact; rw [liveAt2_1 t],
    after2_0, after2_1]
  have hN : t.val < 50 := lt_of_lt_of_eq t.isLt (show cfg2.N = 50 from N_2)
  by_cases h0 : t.val = 0
  · -- the first point
    have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1), Phi2_zero V c _ h0, PhiA2_eq,
      carry_first V c t h0]
    dsimp only
    iintro ⟨⟨⟨⟨HS0, HS1⟩, Hr⟩, Hg⟩, Ho, ⟨%d0, H0⟩, ⟨%d1, H1⟩, ⟨%d2, H2⟩⟩
    iapply (run2_first c Set.univ (grid2.coords t) _ _ _ _ _ _ _ _ _ _ hc0 hc1 (iblk2 V c 0 t) (iblk2 V c 1 t) ((dat2 V c).before 2 t d2) _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexact H1
    iexists _; iexact H2
  · have hc0 : ¬cond2_0 (grid2.coords t) := fun h => h0 ((hcond2_0 t).mp h)
    rw [Phi2_pos V c _ h0, carry_next V c t h0]
    dsimp only
    by_cases h1 : t.val = 49
    · -- the last point
      have hc1 : cond2_1 (grid2.coords t) := (hcond2_1 t).mpr h1
      rw [show (dat2 V c).leavesExact 2 t = owns (c : Thread nD τ) (st2_2 t) fullShare ((dat2 V c).after 2 t) from by
        unfold Dat.leavesExact; rw [liveAt2_2 t hc1], after2_2]
      rw [show pooled (bt2 V c) (ht2 V c) = k2_pay6 (carry (bt2 V c) (ht2 V c) t.val).1 (carry (bt2 V c) (ht2 V c) t.val).2 from by
        rw [h1]; rfl, carry_next V c t h0]
      dsimp only
      iintro ⟨⟨⟨⟨HS0, HS1⟩, Hr⟩, Hg⟩, Ho, ⟨%d0, H0⟩, ⟨%d1, H1⟩, ⟨%d2, H2⟩⟩
      iapply (run2_last c Set.univ (grid2.coords t) _ _ _ _ _ _ _ _ _ _ hc0 hc1 (iblk2 V c 0 t) (iblk2 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexact H2
    · -- a middle point
      have hc1 : ¬cond2_1 (grid2.coords t) := fun h => h1 ((hcond2_1 t).mp h)
      rw [Dat.leavesExact_idle (dat2 V c) 2 t (idleAt2_2 t hc1) (noFlush2_2 t hc1)]
      iintro ⟨⟨⟨⟨HS0, HS1⟩, Hr⟩, Hg⟩, Ho, ⟨%d0, H0⟩, ⟨%d1, H1⟩, ⟨%d2, H2⟩⟩
      iapply (run2_mid c Set.univ (grid2.coords t) _ _ _ _ _ _ _ _ _ _ hc0 hc1 (iblk2 V c 0 t) (iblk2 V c 1 t) ((dat2 V c).before 2 t d2) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = Phi2 V c 0 from rfl, Phi2_zero V c 0 rfl]

/-- After the last point the invariant gives the class's back: the running sums' named contents are forgotten. -/
theorem hout2 (c : Dev nD) : (dat2 V c).Φ (Fin.last cfg2.N) ⊢ (Pipeline.ΦA spec2 c : sProp 𝕄) := by
  rw [show (dat2 V c).Φ (Fin.last cfg2.N) = Phi2 V c cfg2.N from rfl, Phi2_pos V c _ (Nat.ne_of_gt N2pos), PhiA2_eq]
  iintro ⟨⟨⟨HS0, HS1⟩, Hr⟩, Hg⟩
  isplitl [HS0 HS1 Hr]
  · isplitl [HS0 HS1]
    · isplitl [HS0]; · iexists _; iexact HS0
      iexists _; iexact HS1
    iexact Hr
  iexact Hg

theorem owed2 (c : Dev nD) (t) : (dat2 V c).owed t = 0 := rfl
theorem q2 (c : Dev nD) (w) : (dat2 V c).q w = fullShare := rfl

end Region2

end Cert.KernelIdeal.Hand

end
-- ==== Proof.KI.Run.lean ====
/-
  The kernel program's run: @main is three stretches of host operations, each followed by a staged kernel region.
  The contents of every unscoped buffer at each boundary are named as a fold from the launch memory — a host
  stretch applies its operations, a region rewrites its windows' arrays to what its write-backs leave — and the
  launch theorem for a list of segments gives: every weakly fair execution terminates, and at the end every
  unscoped buffer holds the last fold. The frame claim and the result's value are both read off that.
-/
import proofs.«414671_j14113262535138_3_alg».proof.Proof.Gen.KernelIdeal.Launch
import proofs.«414671_j14113262535138_3_alg».proof.Proof.Gen.KernelIdeal.Skeleton
import proofs.«414671_j14113262535138_3_alg».proof.Proof.Gen.KernelIdeal.Points
import proofs.«414671_j14113262535138_3_alg».proof.Proof.Gen.KernelIdeal.Regions
import proofs.«414671_j14113262535138_3_alg».proof.Proof.KI.Region0
import proofs.«414671_j14113262535138_3_alg».proof.Proof.KI.Region1
import proofs.«414671_j14113262535138_3_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding membership in rectangles with ten thousand rows recurses once per row
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev Vt1 : (c : Dev nD) → (b : Ref sig .tc) → Buf (Elt F) ((c : Thread nD τ).loc b) := fun c b => W1 m c b

/-- At region 0's exit: its windows' arrays at what the pipeline leaves (an input array as entered, the output array
    at its write-backs folded over the grid), every other buffer as entered. -/
def W2 (c : Dev nD) : Valuation τ sig (Elt F) :=
  Pipeline.withArrays spec0 c (W1 m c) fun w => (dat0 (Vt1 m) c).arrAt w cfg0.N
theorem W2_arr (c : Dev nD) (w : Fin cfg0.W) :
    W2 m c (Proc.devRef .tc (Pipeline.arrRef spec0 w)) = (dat0 (Vt1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev Vt2 : (c : Dev nD) → (b : Ref sig .tc) → Buf (Elt F) ((c : Thread nD τ).loc b) := fun c b => W2 m c b
theorem hF0 (c : Dev nD) (w : Fin cfg0.W) : (dat0 (Vt1 m) c).arrAt w cfg0.N = Vt2 m c (Pipeline.arrRef spec0 w) :=
  (W2_arr m c w).symm
theorem hrest0 (c : Dev nD) : ∀ b, b ∉ Finset.univ.image (Pipeline.arrRef spec0) → Vt2 m c b = Vt1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev Vt3 : (c : Dev nD) → (b : Ref sig .tc) → Buf (Elt F) ((c : Thread nD τ).loc b) := fun c b => W3 m c b

/-- At region 1's exit: its windows' arrays at what the pipeline leaves (an input array as entered, the output array
    at its write-backs folded over the grid), every other buffer as entered. -/
def W4 (c : Dev nD) : Valuation τ sig (Elt F) :=
  Pipeline.withArrays spec1 c (W3 m c) fun w => (dat1 (Vt3 m) c).arrAt w cfg1.N
theorem W4_arr (c : Dev nD) (w : Fin cfg1.W) :
    W4 m c (Proc.devRef .tc (Pipeline.arrRef spec1 w)) = (dat1 (Vt3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev Vt4 : (c : Dev nD) → (b : Ref sig .tc) → Buf (Elt F) ((c : Thread nD τ).loc b) := fun c b => W4 m c b
theorem hF1 (c : Dev nD) (w : Fin cfg1.W) : (dat1 (Vt3 m) c).arrAt w cfg1.N = Vt4 m c (Pipeline.arrRef spec1 w) :=
  (W4_arr m c w).symm
theorem hrest1 (c : Dev nD) : ∀ b, b ∉ Finset.univ.image (Pipeline.arrRef spec1) → Vt4 m c b = Vt3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev Vt5 : (c : Dev nD) → (b : Ref sig .tc) → Buf (Elt F) ((c : Thread nD τ).loc b) := fun c b => W5 m c b

/-- At region 2's exit: its windows' arrays at what the pipeline leaves (an input array as entered, the output array
    at its write-backs folded over the grid), every other buffer as entered. -/
def W6 (c : Dev nD) : Valuation τ sig (Elt F) :=
  Pipeline.withArrays spec2 c (W5 m c) fun w => (dat2 (Vt5 m) c).arrAt w cfg2.N
theorem W6_arr (c : Dev nD) (w : Fin cfg2.W) :
    W6 m c (Proc.devRef .tc (Pipeline.arrRef spec2 w)) = (dat2 (Vt5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev Vt6 : (c : Dev nD) → (b : Ref sig .tc) → Buf (Elt F) ((c : Thread nD τ).loc b) := fun c b => W6 m c b
theorem hF2 (c : Dev nD) (w : Fin cfg2.W) : (dat2 (Vt5 m) c).arrAt w cfg2.N = Vt6 m c (Pipeline.arrRef spec2 w) :=
  (W6_arr m c w).symm
theorem hrest2 (c : Dev nD) : ∀ b, b ∉ Finset.univ.image (Pipeline.arrRef spec2) → Vt6 m c b = Vt5 m c b :=
  fun b hb => W6_of_ne m c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Vt1 m) c
  | ⟨1, _⟩ => fun c => dat1 (Vt3 m) c
  | ⟨2, _⟩ => fun c => dat2 (Vt5 m) c
abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every segment: the core's generator register at some state and its dues, none. -/
abbrev Rst (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last fold, the generator register at some state. -/
abbrev Tend (c : Dev nD) : sProp 𝕄 := iprop(StableHlo.held (c : Thread nD τ) (Pipeline.ucRefs τ sig) (W6 m c) ∗ ∃ r, prngReg c r)

/-! ## The regions as segments -/

-- unifying a library lemma stated over the pinned configuration with the printed one needs plain definitions unfolded
-- inside a metavariable's type
set_option backward.isDefEq.respectTransparency.types false in
/-- Region 0 as a segment of @main: entered with every unscoped buffer at `W1`, left with them at `W2`. Its
    windows' arrays are split out of the unscoped buffers on entry and put back, at what the write-backs left, on exit;
    the generator register goes into the region's invariant and comes back; the core owes nothing throughout. -/
def reg0 : Pipeline.RegionSeg (pcfgs (F := F)) adm (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (Vt1 m) c).loose
  hwaits := Pipeline.hwaits_of_owed_zero _ _ _ _ L₀ lv₀ 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (Vt1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vt1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vt1 m c) (Vt2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs plain definitions unfolded
-- inside a metavariable's type
set_option backward.isDefEq.respectTransparency.types false in
/-- Region 1 as a segment of @main: entered with every unscoped buffer at `W3`, left with them at `W4`. Its
    windows' arrays are split out of the unscoped buffers on entry and put back, at what the write-backs left, on exit;
    the generator register goes into the region's invariant and comes back; the core owes nothing throughout. -/
def reg1 : Pipeline.RegionSeg (pcfgs (F := F)) adm (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (Vt3 m) c).loose
  hwaits := Pipeline.hwaits_of_owed_zero _ _ _ _ L₀ lv₀ 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (Vt3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vt3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vt3 m c) (Vt4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one needs plain definitions unfolded
-- inside a metavariable's type
set_option backward.isDefEq.respectTransparency.types false in
/-- Region 2 as a segment of @main: entered with every unscoped buffer at `W5`, left with them at `W6`. Its
    windows' arrays are split out of the unscoped buffers on entry and put back, at what the write-backs left, on exit;
    the generator register goes into the region's invariant and comes back; the core owes nothing throughout. -/
def reg2 : Pipeline.RegionSeg (pcfgs (F := F)) adm (pdats m) () defs₀ 𝒱₀ L₀ lv₀ 2 where
  win := launch2.win.to₀
  block_pos := launch2.block_pos
  stage_whole := launch2.stage_whole
  K := PEmpty
  osem k := k.elim
  ho := Pipeline.OwnSemFacts.none _
  hbody c := (body_obligation2 (Vt5 m) c).loose
  hwaits := Pipeline.hwaits_of_owed_zero _ _ _ _ L₀ lv₀ 2 fun _ _ => rfl
  pre c := iprop(StableHlo.held (c : Thread nD τ) (Pipeline.ucRefs τ sig) (W5 m c) ∗ Rst c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Vt5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vt5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (Vt5 m) c).Φ 0 from rfl]
    have h := hin2 (Vt5 m) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (Vt5 m) c).Φ (Fin.last cfg2.N) from rfl]
    have h := hout2 (Vt5 m) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vt5 m c) (Vt6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev msegs : List (Pipeline.Seg (pcfgs (F := F)) adm (pdats m) () defs₀ 𝒱₀ L₀ lv₀) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (msegs m) := (main_chain c).trans (by chain_rfl)

set_option backward.isDefEq.respectTransparency.types false in
/-- From any memory with zero counters every weakly fair execution of @main terminates, nothing faulting, and every
    final state holds every unscoped buffer at the last fold `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L₀ lv₀ m ρ main (msegs m)
    (fun c Q => by rw [main_run m c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tend m)
    (hch := ⟨fun _ => .rfl, fun _ => .rfl, fun _ => .rfl, fun _ => .rfl, fun _ => .rfl, fun _ => .rfl, fun _ => .rfl⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Hand

end
-- ==== Proof.KI.Args.lean ====
/-
  The arguments of @main at the end of the run. No host operation writes an argument, and no region's output
  window has an argument as its array: a region leaves every buffer but its output array as it was entered
  (an input window's array is handed back unchanged, a buffer no window has is not touched). So the fold of
  buffer contents, read at an argument, walks back through all six segments to the launch memory.
-/
import proofs.«414671_j14113262535138_3_alg».proof.Proof.KI.Run

-- deciding which window, if any, has a given array goes through every window's record
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F] (m : (ℓ : Loc nD τ sig) → Buf (Elt F) ℓ)

/-! ## A region changes its output array only -/

/-- Region 0 leaves every buffer but its output array `main_v24` as entered: a buffer that is an input window's array is
    handed back with its entry contents, and a buffer no window has is not touched. -/
theorem W2_keep (c : Dev nD) (b : Ref sig .tc) (hb : b ≠ main_v24) : W2 m c (Proc.devRef .tc b) = W1 m c (Proc.devRef .tc b) := by
  by_cases h : ∃ w, Pipeline.arrRef spec0 w = b
  · obtain ⟨w, rfl⟩ := h
    have hin : (cfg0.win w).isOut = false := by revert w; decide
    exact (W2_arr m c w).trans (((dat0 (Vt1 m) c).arrAt_in w hin _).trans (A_eq0 (Vt1 m) c w))
  · exact W2_of_ne m c b fun w e => h ⟨w, e⟩

/-- Region 1 leaves every buffer but its output array `main_v45` as entered: a buffer that is an input window's array is
    handed back with its entry contents, and a buffer no window has is not touched. -/
theorem W4_keep (c : Dev nD) (b : Ref sig .tc) (hb : b ≠ main_v45) : W4 m c (Proc.devRef .tc b) = W3 m c (Proc.devRef .tc b) := by
  by_cases h : ∃ w, Pipeline.arrRef spec1 w = b
  · obtain ⟨w, rfl⟩ := h
    have hin : (cfg1.win w).isOut = false := by revert w; decide
    exact (W4_arr m c w).trans (((dat1 (Vt3 m) c).arrAt_in w hin _).trans (A_eq1 (Vt3 m) c w))
  · exact W4_of_ne m c b fun w e => h ⟨w, e⟩

/-- Region 2 leaves every buffer but its output array `main_v47` as entered: a buffer that is an input window's array is
    handed back with its entry contents, and a buffer no window has is not touched. -/
theorem W6_keep (c : Dev nD) (b : Ref sig .tc) (hb : b ≠ main_v47) : W6 m c (Proc.devRef .tc b) = W5 m c (Proc.devRef .tc b) := by
  by_cases h : ∃ w, Pipeline.arrRef spec2 w = b
  · obtain ⟨w, rfl⟩ := h
    have hin : (cfg2.win w).isOut = false := by revert w; decide
    exact (W6_arr m c w).trans (((dat2 (Vt5 m) c).arrAt_in w hin _).trans (A_eq2 (Vt5 m) c w))
  · exact W6_of_ne m c b fun w e => h ⟨w, e⟩

/-! ## Each argument ends as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_keep m c main_arg0 (by decide)
    _ = W4 m c (Proc.devRef .tc main_arg0) := StableHlo.after_of_writes_sub hostOps2 _ hostOps2_writes (by decide)
    _ = W3 m c (Proc.devRef .tc main_arg0) := W4_keep m c main_arg0 (by decide)
    _ = W2 m c (Proc.devRef .tc main_arg0) := StableHlo.after_of_writes_sub hostOps1 _ hostOps1_writes (by decide)
    _ = W1 m c (Proc.devRef .tc main_arg0) := W2_keep m c main_arg0 (by decide)
    _ = W0 m c (Proc.devRef .tc main_arg0) := StableHlo.after_of_writes_sub hostOps0 _ hostOps0_writes (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_keep m c main_arg1 (by decide)
    _ = W4 m c (Proc.devRef .tc main_arg1) := StableHlo.after_of_writes_sub hostOps2 _ hostOps2_writes (by decide)
    _ = W3 m c (Proc.devRef .tc main_arg1) := W4_keep m c main_arg1 (by decide)
    _ = W2 m c (Proc.devRef .tc main_arg1) := StableHlo.after_of_writes_sub hostOps1 _ hostOps1_writes (by decide)
    _ = W1 m c (Proc.devRef .tc main_arg1) := W2_keep m c main_arg1 (by decide)
    _ = W0 m c (Proc.devRef .tc main_arg1) := StableHlo.after_of_writes_sub hostOps0 _ hostOps0_writes (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_keep m c main_arg2 (by decide)
    _ = W4 m c (Proc.devRef .tc main_arg2) := StableHlo.after_of_writes_sub hostOps2 _ hostOps2_writes (by decide)
    _ = W3 m c (Proc.devRef .tc main_arg2) := W4_keep m c main_arg2 (by decide)
    _ = W2 m c (Proc.devRef .tc main_arg2) := StableHlo.after_of_writes_sub hostOps1 _ hostOps1_writes (by decide)
    _ = W1 m c (Proc.devRef .tc main_arg2) := W2_keep m c main_arg2 (by decide)
    _ = W0 m c (Proc.devRef .tc main_arg2) := StableHlo.after_of_writes_sub hostOps0 _ hostOps0_writes (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_keep m c main_arg3 (by decide)
    _ = W4 m c (Proc.devRef .tc main_arg3) := StableHlo.after_of_writes_sub hostOps2 _ hostOps2_writes (by decide)
    _ = W3 m c (Proc.devRef .tc main_arg3) := W4_keep m c main_arg3 (by decide)
    _ = W2 m c (Proc.devRef .tc main_arg3) := StableHlo.after_of_writes_sub hostOps1 _ hostOps1_writes (by decide)
    _ = W1 m c (Proc.devRef .tc main_arg3) := W2_keep m c main_arg3 (by decide)
    _ = W0 m c (Proc.devRef .tc main_arg3) := StableHlo.after_of_writes_sub hostOps0 _ hostOps0_writes (by decide)
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_keep m c main_arg4 (by decide)
    _ = W4 m c (Proc.devRef .tc main_arg4) := StableHlo.after_of_writes_sub hostOps2 _ hostOps2_writes (by decide)
    _ = W3 m c (Proc.devRef .tc main_arg4) := W4_keep m c main_arg4 (by decide)
    _ = W2 m c (Proc.devRef .tc main_arg4) := StableHlo.after_of_writes_sub hostOps1 _ hostOps1_writes (by decide)
    _ = W1 m c (Proc.devRef .tc main_arg4) := W2_keep m c main_arg4 (by decide)
    _ = W0 m c (Proc.devRef .tc main_arg4) := StableHlo.after_of_writes_sub hostOps0 _ hostOps0_writes (by decide)
    _ = m ((c : Thread nD τ).loc main_arg4) := rfl

theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_keep m c main_arg5 (by decide)
    _ = W4 m c (Proc.devRef .tc main_arg5) := StableHlo.after_of_writes_sub hostOps2 _ hostOps2_writes (by decide)
    _ = W3 m c (Proc.devRef .tc main_arg5) := W4_keep m c main_arg5 (by decide)
    _ = W2 m c (Proc.devRef .tc main_arg5) := StableHlo.after_of_writes_sub hostOps1 _ hostOps1_writes (by decide)
    _ = W1 m c (Proc.devRef .tc main_arg5) := W2_keep m c main_arg5 (by decide)
    _ = W0 m c (Proc.devRef .tc main_arg5) := StableHlo.after_of_writes_sub hostOps0 _ hostOps0_writes (by decide)
    _ = m ((c : Thread nD τ).loc main_arg5) := rfl

theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_keep m c main_arg6 (by decide)
    _ = W4 m c (Proc.devRef .tc main_arg6) := StableHlo.after_of_writes_sub hostOps2 _ hostOps2_writes (by decide)
    _ = W3 m c (Proc.devRef .tc main_arg6) := W4_keep m c main_arg6 (by decide)
    _ = W2 m c (Proc.devRef .tc main_arg6) := StableHlo.after_of_writes_sub hostOps1 _ hostOps1_writes (by decide)
    _ = W1 m c (Proc.devRef .tc main_arg6) := W2_keep m c main_arg6 (by decide)
    _ = W0 m c (Proc.devRef .tc main_arg6) := StableHlo.after_of_writes_sub hostOps0 _ hostOps0_writes (by decide)
    _ = m ((c : Thread nD τ).loc main_arg6) := rfl

theorem W6_main_arg7 (c : Dev nD) : W6 m c (Proc.devRef .tc main_arg7) = m ((c : Thread nD τ).loc main_arg7) :=
  calc W6 m c (Proc.devRef .tc main_arg7)
    _ = W5 m c (Proc.devRef .tc main_arg7) := W6_keep m c main_arg7 (by decide)
    _ = W4 m c (Proc.devRef .tc main_arg7) := StableHlo.after_of_writes_sub hostOps2 _ hostOps2_writes (by decide)
    _ = W3 m c (Proc.devRef .tc main_arg7) := W4_keep m c main_arg7 (by decide)
    _ = W2 m c (Proc.devRef .tc main_arg7) := StableHlo.after_of_writes_sub hostOps1 _ hostOps1_writes (by decide)
    _ = W1 m c (Proc.devRef .tc main_arg7) := W2_keep m c main_arg7 (by decide)
    _ = W0 m c (Proc.devRef .tc main_arg7) := StableHlo.after_of_writes_sub hostOps0 _ hostOps0_writes (by decide)
    _ = m ((c : Thread nD τ).loc main_arg7) := rfl

theorem W6_main_arg8 (c : Dev nD) : W6 m c (Proc.devRef .tc main_arg8) = m ((c : Thread nD τ).loc main_arg8) :=
  calc W6 m c (Proc.devRef .tc main_arg8)
    _ = W5 m c (Proc.devRef .tc main_arg8) := W6_keep m c main_arg8 (by decide)
    _ = W4 m c (Proc.devRef .tc main_arg8) := StableHlo.after_of_writes_sub hostOps2 _ hostOps2_writes (by decide)
    _ = W3 m c (Proc.devRef .tc main_arg8) := W4_keep m c main_arg8 (by decide)
    _ = W2 m c (Proc.devRef .tc main_arg8) := StableHlo.after_of_writes_sub hostOps1 _ hostOps1_writes (by decide)
    _ = W1 m c (Proc.devRef .tc main_arg8) := W2_keep m c main_arg8 (by decide)
    _ = W0 m c (Proc.devRef .tc main_arg8) := StableHlo.after_of_writes_sub hostOps0 _ hostOps0_writes (by decide)
    _ = m ((c : Thread nD τ).loc main_arg8) := rfl

end Cert.KernelIdeal.Hand

end
-- ==== Proof.RefValue.lean ====
/-
  The reference program, cut where the kernel program is cut. Its dense layers, its neighbour mean over hidden
  features and its pooling are each named as ONE function of the arrays they read; the generated stage-by-stage
  reading of the reference (`Read.val_main_vN`) is each of them applied to the earlier stages, by unfolding.
-/
import proofs.«414671_j14113262535138_3_alg».proof.Proof.Gen.ReferenceIdeal.Run
import proofs.«414671_j14113262535138_3_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe

variable {F : FTy → Type} [FloatOps F]

/-- The first layer as the reference computes it from a neighbour-mean array `mean` and the node features `x`:
    `relu ((mean · Wl + b) + x · Wr)`, the bias a row broadcast down the nodes. -/
def refLayer1 (mean x : (⟨S100000x8, .f32⟩ : BufTy).Contents (Elt F)) (wl : (⟨S8x16, .f32⟩ : BufTy).Contents (Elt F)) (b : (⟨S16, .f32⟩ : BufTy).Contents (Elt F)) (wr : (⟨S8x16, .f32⟩ : BufTy).Contents (Elt F)) :
    (⟨S100000x16, .f32⟩ : BufTy).Contents (Elt F) :=
  maximumf
    (addf
      (addf (Host.dotGeneral dot_S100000x8_S8x16_S100000x16_1_0_0_1_n_n none mean wl)
        (broadcastInDim S100000x16 ![0, 1] bcast_S1x16_S100000x16_0_1 (broadcastInDim S1x16 ![1] bcast_S16_S1x16_1 b)))
      (Host.dotGeneral dot_S100000x8_S8x16_S100000x16_1_0_0_1_n_n none x wr))
    (broadcastInDim S100000x16 ![] bcast_S_S100000x16 (constant S_ .f32 0x00000000#32))

theorem val_main_v29_eq (x0 : (⟨S100000x8, .f32⟩ : BufTy).Contents (Elt F)) (x1 : (⟨S2x3200000, .i32⟩ : BufTy).Contents (Elt F)) (x3 : (⟨S8x16, .f32⟩ : BufTy).Contents (Elt F)) (x4 : (⟨S16, .f32⟩ : BufTy).Contents (Elt F)) (x5 : (⟨S8x16, .f32⟩ : BufTy).Contents (Elt F)) :
    val_main_v29 (F := F) x0 x1 x3 x4 x5 = refLayer1 (val_main_v22 (F := F) x0 x1) x0 x3 x4 x5 := rfl

/-- The neighbour mean of a hidden-feature array `h` along the edge list `e`: gather the source rows, add them up
    at their target rows, divide by the number of incoming edges (read as one where there is none). -/
def refAgg16 (h : (⟨S100000x16, .f32⟩ : BufTy).Contents (Elt F)) (e : (⟨S2x3200000, .i32⟩ : BufTy).Contents (Elt F)) : (⟨S100000x16, .f32⟩ : BufTy).Contents (Elt F) :=
  Host.divf
    (Host.scatterAdd scatter_S100000x16_S3200000x1_S3200000x16_1_0_0_1 (val_main_v37 (F := F)) (val_main_v38 (F := F) e)
      (Host.gather gather_S100000x16_S3200000x1_S3200000x16_1_0_n_n_0_1_116 h (val_main_v35 (F := F) e)))
    (val_main_v47 (F := F) e)

theorem val_main_v48_eq (x0 : (⟨S100000x8, .f32⟩ : BufTy).Contents (Elt F)) (x1 : (⟨S2x3200000, .i32⟩ : BufTy).Contents (Elt F)) (x3 : (⟨S8x16, .f32⟩ : BufTy).Contents (Elt F)) (x4 : (⟨S16, .f32⟩ : BufTy).Contents (Elt F)) (x5 : (⟨S8x16, .f32⟩ : BufTy).Contents (Elt F)) :
    val_main_v48 (F := F) x0 x1 x3 x4 x5 = refAgg16 (val_main_v29 (F := F) x0 x1 x3 x4 x5) x1 := rfl

/-- The second layer before its activation: `(mean · Wl + b) + h · Wr`. -/
def refPre2 (mean h : (⟨S100000x16, .f32⟩ : BufTy).Contents (Elt F)) (wl : (⟨S16x20, .f32⟩ : BufTy).Contents (Elt F)) (b : (⟨S20, .f32⟩ : BufTy).Contents (Elt F)) (wr : (⟨S16x20, .f32⟩ : BufTy).Contents (Elt F)) :
    (⟨S100000x20, .f32⟩ : BufTy).Contents (Elt F) :=
  addf
    (addf (Host.dotGeneral dot_S100000x16_S16x20_S100000x20_1_0_0_1_n_n none mean wl)
      (broadcastInDim S100000x20 ![0, 1] bcast_S1x20_S100000x20_0_1 (broadcastInDim S1x20 ![1] bcast_S20_S1x20_1 b)))
    (Host.dotGeneral dot_S100000x16_S16x20_S100000x20_1_0_0_1_n_n none h wr)

/-- The second layer: the leaky activation `s ↦ if s > 0 then s else 0.1 · s` of `refPre2`, the slope the f32
    word the program prints. -/
def refLayer2 (mean h : (⟨S100000x16, .f32⟩ : BufTy).Contents (Elt F)) (wl : (⟨S16x20, .f32⟩ : BufTy).Contents (Elt F)) (b : (⟨S20, .f32⟩ : BufTy).Contents (Elt F)) (wr : (⟨S16x20, .f32⟩ : BufTy).Contents (Elt F)) :
    (⟨S100000x20, .f32⟩ : BufTy).Contents (Elt F) :=
  select
    (cmpf .ogt (refPre2 mean h wl b wr) (broadcastInDim S100000x20 ![] bcast_S_S100000x20 (constant S_ .f32 0x00000000#32)))
    (refPre2 mean h wl b wr)
    (mulf (broadcastInDim S100000x20 ![] bcast_S_S100000x20 (constant S_ .f32 0x3DCCCCCD#32)) (refPre2 mean h wl b wr))

theorem val_main_v59_eq (x0 : (⟨S100000x8, .f32⟩ : BufTy).Contents (Elt F)) (x1 : (⟨S2x3200000, .i32⟩ : BufTy).Contents (Elt F)) (x3 : (⟨S8x16, .f32⟩ : BufTy).Contents (Elt F)) (x4 : (⟨S16, .f32⟩ : BufTy).Contents (Elt F)) (x5 : (⟨S8x16, .f32⟩ : BufTy).Contents (Elt F))
    (x6 : (⟨S16x20, .f32⟩ : BufTy).Contents (Elt F)) (x7 : (⟨S20, .f32⟩ : BufTy).Contents (Elt F)) (x8 : (⟨S16x20, .f32⟩ : BufTy).Contents (Elt F)) :
    val_main_v59 (F := F) x0 x1 x3 x4 x5 x6 x7 x8
      = refLayer2 (val_main_v48 (F := F) x0 x1 x3 x4 x5) (val_main_v29 (F := F) x0 x1 x3 x4 x5) x6 x7 x8 := rfl

/-- The mean pool of a node-feature array `h` over the graph ids `batch`: the rows of each graph added up, over the
    number of its rows (read as one for a graph with none). A graph id outside `0 … 255` lands nowhere. -/
def refPool (batch : (⟨S100000, .i32⟩ : BufTy).Contents (Elt F)) (h : (⟨S100000x20, .f32⟩ : BufTy).Contents (Elt F)) : (⟨S256x20, .f32⟩ : BufTy).Contents (Elt F) :=
  Host.divf
    (Host.scatterAdd scatter_S256x20_S100000x1_S100000x20_1_0_0_1 (val_main_v60 (F := F)) (val_main_v61 (F := F) batch) h)
    (val_main_v70 (F := F) batch)

theorem val_main_v71_pool (x0 : (⟨S100000x8, .f32⟩ : BufTy).Contents (Elt F)) (x1 : (⟨S2x3200000, .i32⟩ : BufTy).Contents (Elt F)) (x2 : (⟨S100000, .i32⟩ : BufTy).Contents (Elt F)) (x3 : (⟨S8x16, .f32⟩ : BufTy).Contents (Elt F)) (x4 : (⟨S16, .f32⟩ : BufTy).Contents (Elt F)) (x5 : (⟨S8x16, .f32⟩ : BufTy).Contents (Elt F))
    (x6 : (⟨S16x20, .f32⟩ : BufTy).Contents (Elt F)) (x7 : (⟨S20, .f32⟩ : BufTy).Contents (Elt F)) (x8 : (⟨S16x20, .f32⟩ : BufTy).Contents (Elt F)) :
    val_main_v71 (F := F) x0 x1 x2 x3 x4 x5 x6 x7 x8 = refPool x2 (val_main_v59 (F := F) x0 x1 x3 x4 x5 x6 x7 x8) := rfl

end Cert.ReferenceIdeal.RefValue

end
-- ==== Proof.HostChain.lean ====
/-
  The host stretches of the kernel program against the reference's stages. Before each of its first two regions
  the kernel program computes the neighbour mean with the same host operations as the reference (the edge list's
  two rows, the wrap-around of negative node ids, a gather of source rows, two scatter-adds, a maximum with one,
  two broadcasts, a division): read one operation at a time, what the stretch leaves in its result buffer is the
  reference's stage applied to the same arrays. The bias rows and the graph-id column are reshapes of arguments,
  and the remaining buffers a region reads are arguments or an earlier region's output, which no stretch writes.
-/
import proofs.«414671_j14113262535138_3_alg».proof.Proof.KI.Args
import proofs.«414671_j14113262535138_3_alg».proof.Proof.RefValue
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Cert.ReferenceIdeal.RefValue Idealize.ShloMosaic.ValueIdx

/-! ## A vector laid out as a column -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The stretches read for any float instance

These equations hold whatever a float is: a stretch and the reference's stages are the same operations applied to
the same arrays, and nothing in that depends on the float instance. They are stated with the instance left abstract. -/

namespace HostChain

section AnyInstance
variable {F : FTy → Type} [FloatOps F] (m : (ℓ : Loc nD τ sig) → Buf (Elt F) ℓ) (c : Dev nD)

/-- An argument is as launched at region 0's entry: the first stretch writes none. -/
theorem W1_arg (r : Ref sig .tc) (hr : r ∉ hostOps0_W) : W1 m c (Proc.devRef .tc r) = m ((c : Thread nD τ).loc r) :=
  (StableHlo.after_of_writes_sub hostOps0 _ hostOps0_writes hr).trans rfl

/-- A buffer that neither the first stretch nor region 0 writes is as launched at region 0's exit. -/
theorem W2_arg (r : Ref sig .tc) (hr : r ∉ hostOps0_W) (hne : r ≠ main_v24) : W2 m c (Proc.devRef .tc r) = m ((c : Thread nD τ).loc r) :=
  (W2_keep m c r hne).trans (W1_arg m c r hr)

/-- … and at region 1's entry, if the second stretch does not write it either. -/
theorem W3_arg (r : Ref sig .tc) (hr : r ∉ hostOps0_W) (hne : r ≠ main_v24) (hr' : r ∉ hostOps1_W) :
    W3 m c (Proc.devRef .tc r) = m ((c : Thread nD τ).loc r) :=
  (StableHlo.after_of_writes_sub hostOps1 _ hostOps1_writes hr').trans (W2_arg m c r hr hne)

/-- … and at region 1's exit, if it is not region 1's output array. -/
theorem W4_arg (r : Ref sig .tc) (hr : r ∉ hostOps0_W) (hne : r ≠ main_v24) (hr' : r ∉ hostOps1_W) (hne' : r ≠ main_v45) :
    W4 m c (Proc.devRef .tc r) = m ((c : Thread nD τ).loc r) :=
  (W4_keep m c r hne').trans (W3_arg m c r hr hne hr')

/-- The first stretch leaves the edge list's source row, flattened, in `main_v1`: the reference's stage 1. -/
theorem W1_v1 : W1 m c (Proc.devRef .tc main_v1) = Cert.ReferenceIdeal.Read.val_main_v1 (F := F) (m ((c : Thread nD τ).loc main_arg1)) := by
  show StableHlo.after hostOps0 (fun b => m (c, b)) (Proc.devRef .tc main_v1) = _
  after_results
  rfl

/-- … and the target row in `main_v3`: the reference's stage 3. -/
theorem W1_v3 : W1 m c (Proc.devRef .tc main_v3) = Cert.ReferenceIdeal.Read.val_main_v3 (F := F) (m ((c : Thread nD τ).loc main_arg1)) := by
  show StableHlo.after hostOps0 (fun b => m (c, b)) (Proc.devRef .tc main_v3) = _
  after_results
  rfl

/-- The first stretch leaves in `main_v22` the neighbour mean of the node features: the reference's stage 22. -/
theorem W1_mean_any : W1 m c (Proc.devRef .tc main_v22) = Cert.ReferenceIdeal.Read.val_main_v22 (F := F) (m ((c : Thread nD τ).loc main_arg0)) (m ((c : Thread nD τ).loc main_arg1)) := by
  show StableHlo.after hostOps0 (fun b => m (c, b)) (Proc.devRef .tc main_v22) = _
  after_results_simp
  rfl

/-- Layer 1's bias as a row: `main_v23` is the argument reshaped from `[16]` to `[1, 16]`. -/
theorem W1_bias_any (q : Fin 16) : W1 m c (Proc.devRef .tc main_v23) (ix2 (0 : Fin 1) q) = (m ((c : Thread nD τ).loc main_arg4)) (ix1 q) := by
  have e : W1 m c (Proc.devRef .tc main_v23) = shapeCast S1x16 (m ((c : Thread nD τ).loc main_arg4)) shapeCasts_S16_S1x16 := by
    show StableHlo.after hostOps0 (fun b => m (c, b)) (Proc.devRef .tc main_v23) = _
    after_results
    rfl
  exact (congrFun e _).trans (shapeCast_a_1a_apply _ _ 0 q)

/-- The second stretch leaves in `main_v43` the neighbour mean of region 0's output along the same edge list. It reads
    the two flattened rows the first stretch left (region 0 does not touch them), and from there on applies the
    reference's operations to the same arrays. -/
theorem W3_mean_any : W3 m c (Proc.devRef .tc main_v43) = refAgg16 (F := F) (W2 m c (Proc.devRef .tc main_v24)) (m ((c : Thread nD τ).loc main_arg1)) := by
  have h1 : W2 m c (Proc.devRef .tc main_v1) = Cert.ReferenceIdeal.Read.val_main_v1 (F := F) (m ((c : Thread nD τ).loc main_arg1)) :=
    (W2_keep m c main_v1 (by decide)).trans (W1_v1 m c)
  have h3 : W2 m c (Proc.devRef .tc main_v3) = Cert.ReferenceIdeal.Read.val_main_v3 (F := F) (m ((c : Thread nD τ).loc main_arg1)) :=
    (W2_keep m c main_v3 (by decide)).trans (W1_v3 m c)
  show StableHlo.after hostOps1 (W2 m c) (Proc.devRef .tc main_v43) = _
  after_results_simp
  rw [h1, h3]
  rfl

/-- Layer 2's bias as a row: `main_v44` is the argument reshaped from `[20]` to `[1, 20]`. -/
theorem W3_bias_any (q : Fin 20) : W3 m c (Proc.devRef .tc main_v44) (ix2 (0 : Fin 1) q) = (m ((c : Thread nD τ).loc main_arg7)) (ix1 q) := by
  have e : W3 m c (Proc.devRef .tc main_v44) = shapeCast S1x20 (W2 m c (Proc.devRef .tc main_arg7)) shapeCasts_S20_S1x20 := by
    show StableHlo.after hostOps1 (W2 m c) (Proc.devRef .tc main_v44) = _
    after_results
    rfl
  rw [e, W2_arg m c main_arg7 (by decide) (by decide)]
  exact shapeCast_a_1a_apply _ _ 0 q

/-- The graph ids as a column: `main_v46` is the argument reshaped from `[100000]` to `[100000, 1]`. -/
theorem W5_batch_any (n : Fin 100000) : W5 m c (Proc.devRef .tc main_v46) (ix2 n (0 : Fin 1)) = (m ((c : Thread nD τ).loc main_arg2)) (ix1 n) := by
  have e : W5 m c (Proc.devRef .tc main_v46) = shapeCast S100000x1 (W4 m c (Proc.devRef .tc main_arg2)) shapeCasts_S100000_S100000x1 := by
    show StableHlo.after hostOps2 (W4 m c) (Proc.devRef .tc main_v46) = _
    after_results
    rfl
  rw [e, W4_arg m c main_arg2 (by decide) (by decide) (by decide) (by decide)]
  exact shapeCast_a_a1_apply _ _ n 0

end AnyInstance
end HostChain

/-! ## At the extended reals -/

section AtIdeal
variable (m : (ℓ : Loc nD τ sig) → Buf (Elt Ideal) ℓ) (c : Dev nD)

theorem W1_mean : W1 m c (Proc.devRef .tc main_v22) = Cert.ReferenceIdeal.Read.val_main_v22 (F := Ideal) (m ((c : Thread nD τ).loc main_arg0)) (m ((c : Thread nD τ).loc main_arg1)) :=
  HostChain.W1_mean_any m c
theorem W1_bias (q : Fin 16) : W1 m c (Proc.devRef .tc main_v23) (ix2 (0 : Fin 1) q) = (m ((c : Thread nD τ).loc main_arg4)) (ix1 q) :=
  HostChain.W1_bias_any m c q
theorem W1_arg0 : W1 m c (Proc.devRef .tc main_arg0) = (m ((c : Thread nD τ).loc main_arg0)) := HostChain.W1_arg m c main_arg0 (by decide)
theorem W1_arg3 : W1 m c (Proc.devRef .tc main_arg3) = (m ((c : Thread nD τ).loc main_arg3)) := HostChain.W1_arg m c main_arg3 (by decide)
theorem W1_arg5 : W1 m c (Proc.devRef .tc main_arg5) = (m ((c : Thread nD τ).loc main_arg5)) := HostChain.W1_arg m c main_arg5 (by decide)
theorem W3_mean : W3 m c (Proc.devRef .tc main_v43) = refAgg16 (F := Ideal) (W2 m c (Proc.devRef .tc main_v24)) (m ((c : Thread nD τ).loc main_arg1)) :=
  HostChain.W3_mean_any m c
theorem W3_bias (q : Fin 20) : W3 m c (Proc.devRef .tc main_v44) (ix2 (0 : Fin 1) q) = (m ((c : Thread nD τ).loc main_arg7)) (ix1 q) :=
  HostChain.W3_bias_any m c q
theorem W3_h1 : W3 m c (Proc.devRef .tc main_v24) = W2 m c (Proc.devRef .tc main_v24) :=
  StableHlo.after_of_writes_sub hostOps1 _ hostOps1_writes (by decide)
theorem W3_arg6 : W3 m c (Proc.devRef .tc main_arg6) = (m ((c : Thread nD τ).loc main_arg6)) := HostChain.W3_arg m c main_arg6 (by decide) (by decide) (by decide)
theorem W3_arg8 : W3 m c (Proc.devRef .tc main_arg8) = (m ((c : Thread nD τ).loc main_arg8)) := HostChain.W3_arg m c main_arg8 (by decide) (by decide) (by decide)
theorem W5_batch (n : Fin 100000) : W5 m c (Proc.devRef .tc main_v46) (ix2 n (0 : Fin 1)) = (m ((c : Thread nD τ).loc main_arg2)) (ix1 n) :=
  HostChain.W5_batch_any m c n
theorem W5_h2 : W5 m c (Proc.devRef .tc main_v45) = W4 m c (Proc.devRef .tc main_v45) :=
  StableHlo.after_of_writes_sub hostOps2 _ hostOps2_writes (by decide)

end AtIdeal

end Cert.KernelIdeal.Hand

end
-- ==== Proof.LayerMath.lean ====
/-
  The two dense layers at one element, over the extended reals. Each layer's stored value on a block of rows is
  a maximum (layer 1) or a leaky activation (layer 2) of  (Σ_k a[p,k]·Wl[k,q] + Σ_k x[p,k]·Wr[k,q]) + b[0,q];
  the reference's is the same activation of  ((Σ_k mean[n,k]·Wl[k,q]) + b[q]) + Σ_k x[n,k]·Wr[k,q].
  When the block's rows are the array's rows the two are equal by commutativity and associativity of addition.
-/
import proofs.«414671_j14113262535138_3_alg».proof.Proof.Gen.KernelIdeal.Skeleton
import proofs.«414671_j14113262535138_3_alg».proof.Proof.RefValue
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand.LayerMath

open Cert.KernelIdeal Cert.KernelIdeal.Gen Cert.ReferenceIdeal.RefValue Idealize.ShloMosaic Idealize.ShloMosaic.ValueIdx

/-! ## A rows-by-columns contraction as a sum over the shared axis -/

/-- For dimension numbers that contract ONE axis of extent `K`, rows of the left operand against columns of the
    right, the sum over the contraction's index set at output `(p, q)` is `Σ_k lhs[p,k] · rhs[k,q]`: the index set
    is carried onto `Fin K` by its one coordinate, and the four axis facts say which operand element each `k` reads. -/
theorem contract_sum {A K B : ℕ} {φ₁ φ₂ : FTy}
    (D : DotDims ⟨2, ![A, K]⟩ ⟨2, ![K, B]⟩ ⟨2, ![A, B]⟩) (hr : D.contr.rank = 1) (hs : D.contr.size ⟨0, by omega⟩ = K)
    (l0 : ∀ (i : (⟨2, ![A, B]⟩ : Shape).Idx) (c : D.contr.Idx), (D.lhsIdx i c 0).val = (i 0).val)
    (l1 : ∀ (i : (⟨2, ![A, B]⟩ : Shape).Idx) (c : D.contr.Idx), (D.lhsIdx i c 1).val = (c ⟨0, by omega⟩).val)
    (r0 : ∀ (i : (⟨2, ![A, B]⟩ : Shape).Idx) (c : D.contr.Idx), (D.rhsIdx i c 0).val = (c ⟨0, by omega⟩).val)
    (r1 : ∀ (i : (⟨2, ![A, B]⟩ : Shape).Idx) (c : D.contr.Idx), (D.rhsIdx i c 1).val = (i 1).val)
    (lhs : FVec Ideal ⟨2, ![A, K]⟩ φ₁) (rhs : FVec Ideal ⟨2, ![K, B]⟩ φ₂) (p : Fin A) (q : Fin B) :
    ∑ c : D.contr.Idx, lhs (D.lhsIdx (ix2 p q) c) * rhs (D.rhsIdx (ix2 p q) c)
      = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact l0 _ _
    | ⟨1, _⟩ => exact (l1 _ _).trans hk)
  have er : D.rhsIdx (ix2 p q) ((contrEquiv1 D K hr hs).symm k) = ix2 k q := funext fun a => Fin.ext (by
    match a with
    | ⟨0, _⟩ => exact (r0 _ _).trans hk
    | ⟨1, _⟩ => exact r1 _ _)
  rw [el, er]

/-! ## The block's dimension numbers, axis by axis -/

theorem k0_lhs_0 (i : S10000x16.Idx) (c : dot_S10000x8_S8x16_S10000x16_1_0_0_1_n_n.contr.Idx) :
    (dot_S10000x8_S8x16_S10000x16_1_0_0_1_n_n.lhsIdx i c 0).val = (i 0).val := by
  unfold DotDims.lhsIdx
  rw [dif_neg (show ¬(0 : Fin S10000x8.rank) ∈ dot_S10000x8_S8x16_S10000x16_1_0_0_1_n_n.lhsBatch by decide), dif_pos (show (0 : Fin S10000x8.rank) ∈ dot_S10000x8_S8x16_S10000x16_1_0_0_1_n_n.lhsNonContracting by decide)]
  rfl
theorem k0_lhs_1 (i : S10000x16.Idx) (c : dot_S10000x8_S8x16_S10000x16_1_0_0_1_n_n.contr.Idx) :
    (dot_S10000x8_S8x16_S10000x16_1_0_0_1_n_n.lhsIdx i c 1).val = (c ⟨0, by decide⟩).val :=
  dot_S10000x8_S8x16_S10000x16_1_0_0_1_n_n.lhsIdx_val_of_single rfl i c
theorem k0_rhs_0 (i : S10000x16.Idx) (c : dot_S10000x8_S8x16_S10000x16_1_0_0_1_n_n.contr.Idx) :
    (dot_S10000x8_S8x16_S10000x16_1_0_0_1_n_n.rhsIdx i c 0).val = (c ⟨0, by decide⟩).val :=
  dot_S10000x8_S8x16_S10000x16_1_0_0_1_n_n.rhsIdx_val_of_single rfl i c
theorem k0_rhs_1 (i : S10000x16.Idx) (c : dot_S10000x8_S8x16_S10000x16_1_0_0_1_n_n.contr.Idx) :
    (dot_S10000x8_S8x16_S10000x16_1_0_0_1_n_n.rhsIdx i c 1).val = (i 1).val := by
  unfold DotDims.rhsIdx
  rw [dif_neg (show ¬(1 : Fin S8x16.rank) ∈ dot_S10000x8_S8x16_S10000x16_1_0_0_1_n_n.rhsBatch by decide), dif_pos (show (1 : Fin S8x16.rank) ∈ dot_S10000x8_S8x16_S10000x16_1_0_0_1_n_n.rhsNonContracting by decide)]
  rfl

/-- Layer 1's block product at `(p, q)`: `Σ_k lhs[p,k] · rhs[k,q]` over the 8 input features. -/
theorem k0_matmul_apply {φ₁ φ₂ : FTy} (lhs : FVec Ideal S10000x8 φ₁) (rhs : FVec Ideal S8x16 φ₂) (p : Fin 10000) (q : Fin 16) :
    matmul dot_S10000x8_S8x16_S10000x16_1_0_0_1_n_n none lhs rhs (constant S10000x16 .f32 0x00000000#32) (ix2 p q)
      = ∑ k : Fin 8, lhs (ix2 p k) * rhs (ix2 k q) := by
  simp only [matmul]
  rw [Ideal.matmul_constant_zero_apply]
  exact contract_sum dot_S10000x8_S8x16_S10000x16_1_0_0_1_n_n rfl rfl k0_lhs_0 k0_lhs_1 k0_rhs_0 k0_rhs_1 lhs rhs p q

theorem k0_pay1_apply (a x : Vec Ideal S10000x8 .f32) (wl wr : Vec Ideal S8x16 .f32) (bb : Vec Ideal S1x16 .f32) (p : Fin 10000) (q : Fin 16) :
    k0_pay1 (F := Ideal) a x wl wr bb (ix2 p q)
      = max (((∑ k : Fin 8, a (ix2 p k) * wl (ix2 k q)) + ∑ k : Fin 8, x (ix2 p k) * wr (ix2 k q)) + bb (ix2 (0 : Fin 1) q))
          (Ideal.ofBits .f32 0x00000000#32) := by
  unfold k0_pay1
  simp only [maximumf_apply, addf_apply, broadcast_apply]
  rw [k0_matmul_apply, k0_matmul_apply, broadcastTo_1b_ab_apply]
  simp only [truncf_apply, shapeCast_self]
  rfl

/-! ## The reference's first layer at one element -/

/-- The reference's product at `(n, q)`: `Σ_k lhs[n,k] · rhs[k,q]` over the 8 input features. -/
theorem ref1_dot_apply (lhs : FVec Ideal Cert.ReferenceIdeal.S100000x8 .f32) (rhs : FVec Ideal Cert.ReferenceIdeal.S8x16 .f32) (n : Fin 100000) (q : Fin 16) :
    Host.dotGeneral (F := Ideal) Cert.ReferenceIdeal.dot_S100000x8_S8x16_S100000x16_1_0_0_1_n_n none lhs rhs (ix2 n q)
      = ∑ k : Fin 8, lhs (ix2 n k) * rhs (ix2 k q) := by
  simp only [Host.dotGeneral]
  rw [Ideal.dotGeneral_apply]
  exact contract_sum Cert.ReferenceIdeal.dot_S100000x8_S8x16_S100000x16_1_0_0_1_n_n rfl rfl
    Cert.ReferenceIdeal.Read.lhs_main_v23_0 Cert.ReferenceIdeal.Read.lhs_main_v23_1
    Cert.ReferenceIdeal.Read.rhs_main_v23_0 Cert.ReferenceIdeal.Read.rhs_main_v23_1 lhs rhs n q

/-- The bias, laid as a row and repeated down the nodes, reads `b[q]` at `(n, q)`. -/
theorem ref1_bias_apply (b : (⟨Cert.ReferenceIdeal.S16, .f32⟩ : BufTy).Contents (Elt Ideal)) (n : Fin 100000) (q : Fin 16) :
    broadcastInDim Cert.ReferenceIdeal.S100000x16 ![0, 1] Cert.ReferenceIdeal.Gen.bcast_S1x16_S100000x16_0_1
        (broadcastInDim Cert.ReferenceIdeal.S1x16 ![1] Cert.ReferenceIdeal.Gen.bcast_S16_S1x16_1 b) (ix2 n q) = b (ix1 q) := by
  refine (broadcastInDim_apply _ Cert.ReferenceIdeal.Gen.bcast_S1x16_S100000x16_0_1 _ (ix2 n q) (ix2 (0 : Fin 1) q) (fun a => ?_)).trans ?_
  · match a with
    | ⟨0, _⟩ => rfl
    | ⟨1, _⟩ => rfl
  · refine broadcastInDim_apply _ Cert.ReferenceIdeal.Gen.bcast_S16_S1x16_1 b (ix2 (0 : Fin 1) q) (ix1 q) (fun a => ?_)
    match a with
    | ⟨0, _⟩ => rfl

theorem refLayer1_apply (mean x : (⟨Cert.ReferenceIdeal.S100000x8, .f32⟩ : BufTy).Contents (Elt Ideal)) (wl : (⟨Cert.ReferenceIdeal.S8x16, .f32⟩ : BufTy).Contents (Elt Ideal))
    (b : (⟨Cert.ReferenceIdeal.S16, .f32⟩ : BufTy).Contents (Elt Ideal)) (wr : (⟨Cert.ReferenceIdeal.S8x16, .f32⟩ : BufTy).Contents (Elt Ideal)) (n : Fin 100000) (q : Fin 16) :
    refLayer1 (F := Ideal) mean x wl b wr (ix2 n q)
      = max (((∑ k : Fin 8, mean (ix2 n k) * wl (ix2 k q)) + b (ix1 q)) + ∑ k : Fin 8, x (ix2 n k) * wr (ix2 k q))
          (Ideal.ofBits .f32 0x00000000#32) := by
  unfold refLayer1
  simp only [maximumf_apply, addf_apply]
  rw [ref1_dot_apply, ref1_dot_apply, ref1_bias_apply]
  rfl

/-! ## Layer 2: the same sums over 16 hidden features into 20, under the leaky activation -/

theorem k1_lhs_0 (i : S10000x20.Idx) (c : dot_S10000x16_S16x20_S10000x20_1_0_0_1_n_n.contr.Idx) :
    (dot_S10000x16_S16x20_S10000x20_1_0_0_1_n_n.lhsIdx i c 0).val = (i 0).val := by
  unfold DotDims.lhsIdx
  rw [dif_neg (show ¬(0 : Fin S10000x16.rank) ∈ dot_S10000x16_S16x20_S10000x20_1_0_0_1_n_n.lhsBatch by decide), dif_pos (show (0 : Fin S10000x16.rank) ∈ dot_S10000x16_S16x20_S10000x20_1_0_0_1_n_n.lhsNonContracting by decide)]
  rfl
theorem k1_lhs_1 (i : S10000x20.Idx) (c : dot_S10000x16_S16x20_S10000x20_1_0_0_1_n_n.contr.Idx) :
    (dot_S10000x16_S16x20_S10000x20_1_0_0_1_n_n.lhsIdx i c 1).val = (c ⟨0, by decide⟩).val :=
  dot_S10000x16_S16x20_S10000x20_1_0_0_1_n_n.lhsIdx_val_of_single rfl i c
theorem k1_rhs_0 (i : S10000x20.Idx) (c : dot_S10000x16_S16x20_S10000x20_1_0_0_1_n_n.contr.Idx) :
    (dot_S10000x16_S16x20_S10000x20_1_0_0_1_n_n.rhsIdx i c 0).val = (c ⟨0, by decide⟩).val :=
  dot_S10000x16_S16x20_S10000x20_1_0_0_1_n_n.rhsIdx_val_of_single rfl i c
theorem k1_rhs_1 (i : S10000x20.Idx) (c : dot_S10000x16_S16x20_S10000x20_1_0_0_1_n_n.contr.Idx) :
    (dot_S10000x16_S16x20_S10000x20_1_0_0_1_n_n.rhsIdx i c 1).val = (i 1).val := by
  unfold DotDims.rhsIdx
  rw [dif_neg (show ¬(1 : Fin S16x20.rank) ∈ dot_S10000x16_S16x20_S10000x20_1_0_0_1_n_n.rhsBatch by decide), dif_pos (show (1 : Fin S16x20.rank) ∈ dot_S10000x16_S16x20_S10000x20_1_0_0_1_n_n.rhsNonContracting by decide)]
  rfl

/-- Layer 2's block product at `(p, q)`: `Σ_k lhs[p,k] · rhs[k,q]` over the 16 hidden features. -/
theorem k1_matmul_apply {φ₁ φ₂ : FTy} (lhs : FVec Ideal S10000x16 φ₁) (rhs : FVec Ideal S16x20 φ₂) (p : Fin 10000) (q : Fin 20) :
    matmul dot_S10000x16_S16x20_S10000x20_1_0_0_1_n_n none lhs rhs (constant S10000x20 .f32 0x00000000#32) (ix2 p q)
      = ∑ k : Fin 16, lhs (ix2 p k) * rhs (ix2 k q) := by
  simp only [matmul]
  rw [Ideal.matmul_constant_zero_apply]
  exact contract_sum dot_S10000x16_S16x20_S10000x20_1_0_0_1_n_n rfl rfl k1_lhs_0 k1_lhs_1 k1_rhs_0 k1_rhs_1 lhs rhs p q

/-- The leaky activation on one extended real: `s` itself where `s` compares greater than the value of the zero
    word, else the value of the slope word times `s`. Both words are kept as words and never evaluated. -/
def leaky (s : Ideal .f32) : Ideal .f32 :=
  Scalar.select (FloatOps.cmpf .ogt s (Ideal.ofBits .f32 0x00000000#32)) s (Ideal.ofBits .f32 0x3DCCCCCD#32 * s)

/-- Layer 2's stored value at `(p, q)`: the leaky activation of `(Σ_k a[p,k]·Wl[k,q] + Σ_k h[p,k]·Wr[k,q]) + b[0,q]`. -/
theorem k1_pay1_apply (a h : Vec Ideal S10000x16 .f32) (wl wr : Vec Ideal S16x20 .f32) (bb : Vec Ideal S1x20 .f32) (p : Fin 10000) (q : Fin 20) :
    k1_pay1 (F := Ideal) a h wl wr bb (ix2 p q)
      = leaky (((∑ k : Fin 16, a (ix2 p k) * wl (ix2 k q)) + ∑ k : Fin 16, h (ix2 p k) * wr (ix2 k q)) + bb (ix2 (0 : Fin 1) q)) := by
  unfold k1_pay1 leaky
  simp only [select_apply, cmpf_apply, mulf_apply, addf_apply, broadcast_apply]
  rw [k1_matmul_apply, k1_matmul_apply, broadcastTo_1b_ab_apply]
  simp only [truncf_apply, shapeCast_self]
  rfl

/-- The reference's layer-2 product at `(n, q)`: `Σ_k lhs[n,k] · rhs[k,q]` over the 16 hidden features. -/
theorem ref2_dot_apply (lhs : FVec Ideal Cert.ReferenceIdeal.S100000x16 .f32) (rhs : FVec Ideal Cert.ReferenceIdeal.S16x20 .f32) (n : Fin 100000) (q : Fin 20) :
    Host.dotGeneral (F := Ideal) Cert.ReferenceIdeal.dot_S100000x16_S16x20_S100000x20_1_0_0_1_n_n none lhs rhs (ix2 n q)
      = ∑ k : Fin 16, lhs (ix2 n k) * rhs (ix2 k q) := by
  simp only [Host.dotGeneral]
  rw [Ideal.dotGeneral_apply]
  exact contract_sum Cert.ReferenceIdeal.dot_S100000x16_S16x20_S100000x20_1_0_0_1_n_n rfl rfl
    Cert.ReferenceIdeal.Read.lhs_main_v49_0 Cert.ReferenceIdeal.Read.lhs_main_v49_1
    Cert.ReferenceIdeal.Read.rhs_main_v49_0 Cert.ReferenceIdeal.Read.rhs_main_v49_1 lhs rhs n q

/-- Layer 2's bias, laid as a row and repeated down the nodes, reads `b[q]` at `(n, q)`. -/
theorem ref2_bias_apply (b : (⟨Cert.ReferenceIdeal.S20, .f32⟩ : BufTy).Contents (Elt Ideal)) (n : Fin 100000) (q : Fin 20) :
    broadcastInDim Cert.ReferenceIdeal.S100000x20 ![0, 1] Cert.ReferenceIdeal.Gen.bcast_S1x20_S100000x20_0_1
        (broadcastInDim Cert.ReferenceIdeal.S1x20 ![1] Cert.ReferenceIdeal.Gen.bcast_S20_S1x20_1 b) (ix2 n q) = b (ix1 q) := by
  refine (broadcastInDim_apply _ Cert.ReferenceIdeal.Gen.bcast_S1x20_S100000x20_0_1 _ (ix2 n q) (ix2 (0 : Fin 1) q) (fun a => ?_)).trans ?_
  · match a with
    | ⟨0, _⟩ => rfl
    | ⟨1, _⟩ => rfl
  · refine broadcastInDim_apply _ Cert.ReferenceIdeal.Gen.bcast_S20_S1x20_1 b (ix2 (0 : Fin 1) q) (ix1 q) (fun a => ?_)
    match a with
    | ⟨0, _⟩ => rfl

/-- The reference's layer-2 sum before the activation at `(n, q)`. -/
theorem refPre2_apply (mean h : (⟨Cert.ReferenceIdeal.S100000x16, .f32⟩ : BufTy).Contents (Elt Ideal)) (wl : (⟨Cert.ReferenceIdeal.S16x20, .f32⟩ : BufTy).Contents (Elt Ideal))
    (b : (⟨Cert.ReferenceIdeal.S20, .f32⟩ : BufTy).Contents (Elt Ideal)) (wr : (⟨Cert.ReferenceIdeal.S16x20, .f32⟩ : BufTy).Contents (Elt Ideal)) (n : Fin 100000) (q : Fin 20) :
    refPre2 (F := Ideal) mean h wl b wr (ix2 n q)
      = ((∑ k : Fin 16, mean (ix2 n k) * wl (ix2 k q)) + b (ix1 q)) + ∑ k : Fin 16, h (ix2 n k) * wr (ix2 k q) := by
  unfold refPre2
  simp only [addf_apply]
  rw [ref2_dot_apply, ref2_dot_apply, ref2_bias_apply]

/-- The reference's second layer at `(n, q)` is the leaky activation of its sum there. -/
theorem refLayer2_apply (mean h : (⟨Cert.ReferenceIdeal.S100000x16, .f32⟩ : BufTy).Contents (Elt Ideal)) (wl : (⟨Cert.ReferenceIdeal.S16x20, .f32⟩ : BufTy).Contents (Elt Ideal))
    (b : (⟨Cert.ReferenceIdeal.S20, .f32⟩ : BufTy).Contents (Elt Ideal)) (wr : (⟨Cert.ReferenceIdeal.S16x20, .f32⟩ : BufTy).Contents (Elt Ideal)) (n : Fin 100000) (q : Fin 20) :
    refLayer2 (F := Ideal) mean h wl b wr (ix2 n q) = leaky (refPre2 (F := Ideal) mean h wl b wr (ix2 n q)) := by
  unfold refLayer2 leaky
  simp only [select_apply, cmpf_apply, mulf_apply]
  rfl

end Cert.KernelIdeal.Hand.LayerMath

namespace Cert.KernelIdeal.Hand

open Cert.KernelIdeal Cert.KernelIdeal.Gen Cert.ReferenceIdeal.RefValue Idealize.ShloMosaic Idealize.ShloMosaic.ValueIdx
open Cert.KernelIdeal.Hand.LayerMath

/-! ## The two layers, block against array

With the block's rows identified with the array's (`ha`, `hx` / `hh`, `hb`) both sides are the same activation of
`(s₁ + s₂) + β` and of `(s₁ + β) + s₂`; addition on the extended reals is commutative and associative. -/

theorem layer1_bridge
    (mean x : (⟨Cert.ReferenceIdeal.S100000x8, .f32⟩ : BufTy).Contents (Elt Ideal)) (wl wr : (⟨Cert.ReferenceIdeal.S8x16, .f32⟩ : BufTy).Contents (Elt Ideal)) (b : (⟨Cert.ReferenceIdeal.S16, .f32⟩ : BufTy).Contents (Elt Ideal))
    (ablk xblk : Vec Ideal Cert.KernelIdeal.S10000x8 .f32) (bblk : Vec Ideal Cert.KernelIdeal.S1x16 .f32)
    (n : Fin 100000) (p : Fin 10000) (q : Fin 16)
    (ha : ∀ k : Fin 8, ablk (ix2 p k) = mean (ix2 n k)) (hx : ∀ k : Fin 8, xblk (ix2 p k) = x (ix2 n k))
    (hb : bblk (ix2 (0 : Fin 1) q) = b (ix1 q)) :
    k0_pay1 (F := Ideal) ablk xblk wl wr bblk (ix2 p q) = refLayer1 (F := Ideal) mean x wl b wr (ix2 n q) := by
  rw [k0_pay1_apply, refLayer1_apply]
  simp only [ha, hx, hb]
  rw [add_right_comm]

theorem layer2_bridge
    (mean h : (⟨Cert.ReferenceIdeal.S100000x16, .f32⟩ : BufTy).Contents (Elt Ideal)) (wl wr : (⟨Cert.ReferenceIdeal.S16x20, .f32⟩ : BufTy).Contents (Elt Ideal)) (b : (⟨Cert.ReferenceIdeal.S20, .f32⟩ : BufTy).Contents (Elt Ideal))
    (ablk hblk : Vec Ideal Cert.KernelIdeal.S10000x16 .f32) (bblk : Vec Ideal Cert.KernelIdeal.S1x20 .f32)
    (n : Fin 100000) (p : Fin 10000) (q : Fin 20)
    (ha : ∀ k : Fin 16, ablk (ix2 p k) = mean (ix2 n k)) (hh : ∀ k : Fin 16, hblk (ix2 p k) = h (ix2 n k))
    (hb : bblk (ix2 (0 : Fin 1) q) = b (ix1 q)) :
    k1_pay1 (F := Ideal) ablk hblk wl wr bblk (ix2 p q) = refLayer2 (F := Ideal) mean h wl b wr (ix2 n q) := by
  rw [k1_pay1_apply, refLayer2_apply, refPre2_apply]
  simp only [ha, hh, hb]
  rw [add_right_comm]

end Cert.KernelIdeal.Hand

end
-- ==== Proof.Val0.lean ====
/-
  What region 0 of the kernel program (the first dense layer) leaves in its output array, over the extended reals.
-/
import proofs.«414671_j14113262535138_3_alg».proof.Proof.KI.Region0
import proofs.«414671_j14113262535138_3_alg».proof.Proof.LayerMath
import Idealize.ShloMosaic.Lib.Pipeline.Value
import Idealize.ShloMosaic.Lib.ValueIdx

set_option maxRecDepth 16384

noncomputable section

namespace Cert.KernelIdeal.Hand

open Cert.KernelIdeal Cert.KernelIdeal.Gen Cert.ReferenceIdeal.RefValue
open Idealize.ShloMosaic Idealize.ShloMosaic.TcCoe Idealize.ShloMosaic.ValueIdx
open Idealize.SL Idealize.SL.Sem
open Idealize.ShloMosaic.Pipeline (Dat Cfg Window)

/-! # What region 0 leaves in its output array, as one function of the arrays it finds

Grid point `t` writes back rows `10000·t … 10000·t + 9999`: the layer's value on the same rows of the two
activation arrays, with the whole weight matrices and the bias row. The ten blocks tile the array, so after the
region the array IS the layer's value, row by row — stated with the reference's own layer term as that function. -/

section Val0

variable (V : (c : Dev nD) → (b : Ref sig .tc) → Buf (Elt Ideal) ((c : Thread nD τ).loc b))

theorem hz0 : (![0, 0] : Fin 2 → Nat) = fun _ => 0 := funext fun a => by fin_cases a <;> rfl

/-- Where the six windows' blocks sit at grid point `t`: the two activation blocks and the output block at block row
    `t`, the weights and the bias at the origin. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The weight windows' one block is the whole matrix. -/
theorem wblk0_2 (c : Dev nD) (t : Fin cfg0.N) : iblk0 V c 2 t = V c main_arg3 := by
  obtain ⟨-, -, -, -, e20, e21, -⟩ := idx_facts0 t
  funext y
  show V c main_arg3 (((cfg0.win 2).blk t).view.emb y) = V c main_arg3 y
  refine congrArg _ (funext fun a => Fin.ext ?_)
  match a with
  | ⟨0, _⟩ => show win0_2.index t (0 : Fin 2) * 8 + 1 * (y 0).val = (y 0).val; omega
  | ⟨1, _⟩ => show win0_2.index t (1 : Fin 2) * 16 + 1 * (y 1).val = (y 1).val; omega

theorem wblk0_3 (c : Dev nD) (t : Fin cfg0.N) : iblk0 V c 3 t = V c main_arg5 := by
  obtain ⟨-, -, -, -, -, -, e30, e31, -⟩ := idx_facts0 t
  funext y
  show V c main_arg5 (((cfg0.win 3).blk t).view.emb y) = V c main_arg5 y
  refine congrArg _ (funext fun a => Fin.ext ?_)
  match a with
  | ⟨0, _⟩ => show win0_3.index t (0 : Fin 2) * 8 + 1 * (y 0).val = (y 0).val; omega
  | ⟨1, _⟩ => show win0_3.index t (1 : Fin 2) * 16 + 1 * (y 1).val = (y 1).val; omega

/-- WHAT POINT `t` WRITES BACK is block `t` of the layer's value on the arrays as the region finds them. `b` is the
    bias as a vector, of which the region's bias window holds the one-row reshape (`hb`). -/
theorem flushed0_eq (c : Dev nD) (b : (⟨Cert.ReferenceIdeal.S16, .f32⟩ : BufTy).Contents (Elt Ideal))
    (hb : ∀ q : Fin 16, V c main_v23 (ix2 (0 : Fin 1) q) = b (ix1 q)) (t : Fin cfg0.N) :
    (dat0 V c).flushed 5 t = ((cfg0.win 5).blk t).view.read (Elt Ideal)
      (refLayer1 (F := Ideal) (V c main_v22) (V c main_arg0) (V c main_arg3) b (V c main_arg5)) := by
  show (cfg0.win 5).cut (grid0.coords t) ((dat0 V c).after 5 t) = _
  rw [after0_5]
  unfold out0_5
  rw [View.canon_unit_zero hz0]
  simp only [View.ld_unit_zero (S := S10000x8) hz0, View.ld_unit_zero (S := S8x16) hz0, View.ld_unit_zero (S := S1x16) hz0]
  rw [wblk0_2, wblk0_3]
  obtain ⟨e00, e01, e10, e11, -, -, -, -, e40, e41, e50, e51⟩ := idx_facts0 t
  have ht : t.val < 10 := lt_of_lt_of_eq t.isLt N_0
  funext j
  obtain ⟨p, q, rfl⟩ : ∃ (p : Fin 10000) (q : Fin 16), j = ix2 p q := ⟨j 0, j 1, eq_ix2 j⟩
  have hn : 10000 * t.val + p.val < 100000 := by have := p.isLt; omega
  have hemb : ((cfg0.win 5).blk t).view.emb (ix2 p q) = ix2 (⟨10000 * t.val + p.val, hn⟩ : Fin 100000) q := by
    funext a; apply Fin.ext
    match a with
    | ⟨0, _⟩ => show win0_5.index t (0 : Fin 2) * 10000 + 1 * p.val = 10000 * t.val + p.val; omega
    | ⟨1, _⟩ => show win0_5.index t (1 : Fin 2) * 16 + 1 * q.val = q.val; omega
  show k0_pay1 (F := Ideal) (iblk0 V c 0 t) (iblk0 V c 1 t) (V c main_arg3) (V c main_arg5) (iblk0 V c 4 t) (ix2 p q)
    = refLayer1 (F := Ideal) (V c main_v22) (V c main_arg0) (V c main_arg3) b (V c main_arg5) (((cfg0.win 5).blk t).view.emb (ix2 p q))
  rw [hemb]
  refine layer1_bridge (V c main_v22) (V c main_arg0) (V c main_arg3) (V c main_arg5) b (iblk0 V c 0 t) (iblk0 V c 1 t) (iblk0 V c 4 t)
    ⟨10000 * t.val + p.val, hn⟩ p q (fun k => ?_) (fun k => ?_) ?_
  · show V c main_v22 (((cfg0.win 0).blk t).view.emb (ix2 p k)) = V c main_v22 (ix2 (⟨10000 * t.val + p.val, hn⟩ : Fin 100000) k)
    refine congrArg _ (funext fun a => Fin.ext ?_)
    match a with
    | ⟨0, _⟩ => show win0_0.index t (0 : Fin 2) * 10000 + 1 * p.val = 10000 * t.val + p.val; omega
    | ⟨1, _⟩ => show win0_0.index t (1 : Fin 2) * 8 + 1 * k.val = k.val; omega
  · show V c main_arg0 (((cfg0.win 1).blk t).view.emb (ix2 p k)) = V c main_arg0 (ix2 (⟨10000 * t.val + p.val, hn⟩ : Fin 100000) k)
    refine congrArg _ (funext fun a => Fin.ext ?_)
    match a with
    | ⟨0, _⟩ => show win0_1.index t (0 : Fin 2) * 10000 + 1 * p.val = 10000 * t.val + p.val; omega
    | ⟨1, _⟩ => show win0_1.index t (1 : Fin 2) * 8 + 1 * k.val = k.val; omega
  · refine Eq.trans ?_ (hb q)
    show V c main_v23 (((cfg0.win 4).blk t).view.emb (ix2 (0 : Fin 1) q)) = V c main_v23 (ix2 (0 : Fin 1) q)
    refine congrArg _ (funext fun a => Fin.ext ?_)
    match a with
    | ⟨0, _⟩ => show win0_4.index t (0 : Fin 2) * 1 + 1 * 0 = 0; omega
    | ⟨1, _⟩ => show win0_4.index t (1 : Fin 2) * 16 + 1 * q.val = q.val; omega

/-- An index of the output array is in point `t`'s block iff each coordinate is in the block's range on its axis. -/
theorem mem_blk0 (t : Fin cfg0.N) (i : S100000x16.Idx) :
    i ∈ ((cfg0.win 5).blk t).view.set ↔ ∀ a : Fin 2, win0_5.index t a * S10000x16.size a ≤ (i a).val ∧ (i a).val < win0_5.index t a * S10000x16.size a + S10000x16.size a := by
  show i ∈ ((View.whole main_v24).slice (win0_5.rect t)).set ↔ _
  rw [View.set_slice_whole, Rect.mem_set_unit]
  exact Iff.rfl

/-- Every row of the output array is in some point's block: row `r` in block `r / 10000`. -/
theorem cover0 (i : S100000x16.Idx) : ∃ t : Fin cfg0.N, (cfg0.win 5).flush t = true ∧ i ∈ ((cfg0.win 5).blk t).view.set := by
  have hi0 : (i 0).val < 100000 := (i 0).isLt
  have hi1 : (i 1).val < 16 := (i 1).isLt
  have hN : cfg0.N = 10 := N_0
  refine ⟨⟨(i 0).val / 10000, by rw [hN]; omega⟩, flush0_5 _, ?_⟩
  rw [mem_blk0]
  obtain ⟨-, -, -, -, -, -, -, -, -, -, e50, e51⟩ := idx_facts0 ⟨(i 0).val / 10000, by rw [hN]; omega⟩
  intro a
  match a with
  | ⟨0, _⟩ => show win0_5.index _ (0 : Fin 2) * 10000 ≤ (i 0).val ∧ (i 0).val < win0_5.index _ (0 : Fin 2) * 10000 + 10000; rw [e50]; dsimp only; omega
  | ⟨1, _⟩ => show win0_5.index _ (1 : Fin 2) * 16 ≤ (i 1).val ∧ (i 1).val < win0_5.index _ (1 : Fin 2) * 16 + 16; rw [e51]; omega

/-- THE ARRAY after region 0: the first layer of the arrays the region finds. -/
theorem arr0_eq (c : Dev nD) (b : (⟨Cert.ReferenceIdeal.S16, .f32⟩ : BufTy).Contents (Elt Ideal))
    (hb : ∀ q : Fin 16, V c main_v23 (ix2 (0 : Fin 1) q) = b (ix1 q)) :
    (dat0 V c).arrAt 5 cfg0.N = refLayer1 (F := Ideal) (V c main_v22) (V c main_arg0) (V c main_arg3) b (V c main_arg5) :=
  (dat0 V c).arrAt_eq_of_cover 5 _ (fun t _ => flushed0_eq V c b hb t) cover0

end Val0

end Cert.KernelIdeal.Hand

end
-- ==== Proof.Val1.lean ====
/-
  What region 1 of the kernel program (the second dense layer) leaves in its output array, over the extended reals.
-/
import proofs.«414671_j14113262535138_3_alg».proof.Proof.KI.Region1
import proofs.«414671_j14113262535138_3_alg».proof.Proof.LayerMath
import Idealize.ShloMosaic.Lib.Pipeline.Value
import Idealize.ShloMosaic.Lib.ValueIdx

set_option maxRecDepth 16384

noncomputable section

namespace Cert.KernelIdeal.Hand

open Cert.KernelIdeal Cert.KernelIdeal.Gen Cert.ReferenceIdeal.RefValue
open Idealize.ShloMosaic Idealize.ShloMosaic.TcCoe Idealize.ShloMosaic.ValueIdx
open Idealize.SL Idealize.SL.Sem
open Idealize.ShloMosaic.Pipeline (Dat Cfg Window)

/-! # What region 1 leaves in its output array, as one function of the arrays it finds

Grid point `t` writes back rows `10000·t … 10000·t + 9999`: the layer's value on the same rows of the two
activation arrays, with the whole weight matrices and the bias row. The ten blocks tile the array, so after the
region the array IS the layer's value, row by row — stated with the reference's own layer term as that function. -/

section Val1

variable (V : (c : Dev nD) → (b : Ref sig .tc) → Buf (Elt Ideal) ((c : Thread nD τ).loc b))

theorem hz1 : (![0, 0] : Fin 2 → Nat) = fun _ => 0 := funext fun a => by fin_cases a <;> rfl

/-- Where the six windows' blocks sit at grid point `t`: the two activation blocks and the output block at block row
    `t`, the weights and the bias at the origin. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The weight windows' one block is the whole matrix. -/
theorem wblk1_2 (c : Dev nD) (t : Fin cfg1.N) : iblk1 V c 2 t = V c main_arg6 := by
  obtain ⟨-, -, -, -, e20, e21, -⟩ := idx_facts1 t
  funext y
  show V c main_arg6 (((cfg1.win 2).blk t).view.emb y) = V c main_arg6 y
  refine congrArg _ (funext fun a => Fin.ext ?_)
  match a with
  | ⟨0, _⟩ => show win1_2.index t (0 : Fin 2) * 16 + 1 * (y 0).val = (y 0).val; omega
  | ⟨1, _⟩ => show win1_2.index t (1 : Fin 2) * 20 + 1 * (y 1).val = (y 1).val; omega

theorem wblk1_3 (c : Dev nD) (t : Fin cfg1.N) : iblk1 V c 3 t = V c main_arg8 := by
  obtain ⟨-, -, -, -, -, -, e30, e31, -⟩ := idx_facts1 t
  funext y
  show V c main_arg8 (((cfg1.win 3).blk t).view.emb y) = V c main_arg8 y
  refine congrArg _ (funext fun a => Fin.ext ?_)
  match a with
  | ⟨0, _⟩ => show win1_3.index t (0 : Fin 2) * 16 + 1 * (y 0).val = (y 0).val; omega
  | ⟨1, _⟩ => show win1_3.index t (1 : Fin 2) * 20 + 1 * (y 1).val = (y 1).val; omega

/-- WHAT POINT `t` WRITES BACK is block `t` of the layer's value on the arrays as the region finds them. `b` is the
    bias as a vector, of which the region's bias window holds the one-row reshape (`hb`). -/
theorem flushed1_eq (c : Dev nD) (b : (⟨Cert.ReferenceIdeal.S20, .f32⟩ : BufTy).Contents (Elt Ideal))
    (hb : ∀ q : Fin 20, V c main_v44 (ix2 (0 : Fin 1) q) = b (ix1 q)) (t : Fin cfg1.N) :
    (dat1 V c).flushed 5 t = ((cfg1.win 5).blk t).view.read (Elt Ideal)
      (refLayer2 (F := Ideal) (V c main_v43) (V c main_v24) (V c main_arg6) b (V c main_arg8)) := by
  show (cfg1.win 5).cut (grid1.coords t) ((dat1 V c).after 5 t) = _
  rw [after1_5]
  unfold out1_5
  rw [View.canon_unit_zero hz1]
  simp only [View.ld_unit_zero (S := S10000x16) hz1, View.ld_unit_zero (S := S16x20) hz1, View.ld_unit_zero (S := S1x20) hz1]
  rw [wblk1_2, wblk1_3]
  obtain ⟨e00, e01, e10, e11, -, -, -, -, e40, e41, e50, e51⟩ := idx_facts1 t
  have ht : t.val < 10 := lt_of_lt_of_eq t.isLt N_1
  funext j
  obtain ⟨p, q, rfl⟩ : ∃ (p : Fin 10000) (q : Fin 20), j = ix2 p q := ⟨j 0, j 1, eq_ix2 j⟩
  have hn : 10000 * t.val + p.val < 100000 := by have := p.isLt; omega
  have hemb : ((cfg1.win 5).blk t).view.emb (ix2 p q) = ix2 (⟨10000 * t.val + p.val, hn⟩ : Fin 100000) q := by
    funext a; apply Fin.ext
    match a with
    | ⟨0, _⟩ => show win1_5.index t (0 : Fin 2) * 10000 + 1 * p.val = 10000 * t.val + p.val; omega
    | ⟨1, _⟩ => show win1_5.index t (1 : Fin 2) * 20 + 1 * q.val = q.val; omega
  show k1_pay1 (F := Ideal) (iblk1 V c 0 t) (iblk1 V c 1 t) (V c main_arg6) (V c main_arg8) (iblk1 V c 4 t) (ix2 p q)
    = refLayer2 (F := Ideal) (V c main_v43) (V c main_v24) (V c main_arg6) b (V c main_arg8) (((cfg1.win 5).blk t).view.emb (ix2 p q))
  rw [hemb]
  refine layer2_bridge (V c main_v43) (V c main_v24) (V c main_arg6) (V c main_arg8) b (iblk1 V c 0 t) (iblk1 V c 1 t) (iblk1 V c 4 t)
    ⟨10000 * t.val + p.val, hn⟩ p q (fun k => ?_) (fun k => ?_) ?_
  · show V c main_v43 (((cfg1.win 0).blk t).view.emb (ix2 p k)) = V c main_v43 (ix2 (⟨10000 * t.val + p.val, hn⟩ : Fin 100000) k)
    refine congrArg _ (funext fun a => Fin.ext ?_)
    match a with
    | ⟨0, _⟩ => show win1_0.index t (0 : Fin 2) * 10000 + 1 * p.val = 10000 * t.val + p.val; omega
    | ⟨1, _⟩ => show win1_0.index t (1 : Fin 2) * 16 + 1 * k.val = k.val; omega
  · show V c main_v24 (((cfg1.win 1).blk t).view.emb (ix2 p k)) = V c main_v24 (ix2 (⟨10000 * t.val + p.val, hn⟩ : Fin 100000) k)
    refine congrArg _ (funext fun a => Fin.ext ?_)
    match a with
    | ⟨0, _⟩ => show win1_1.index t (0 : Fin 2) * 10000 + 1 * p.val = 10000 * t.val + p.val; omega
    | ⟨1, _⟩ => show win1_1.index t (1 : Fin 2) * 16 + 1 * k.val = k.val; omega
  · refine Eq.trans ?_ (hb q)
    show V c main_v44 (((cfg1.win 4).blk t).view.emb (ix2 (0 : Fin 1) q)) = V c main_v44 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 20 + 1 * q.val = q.val; omega

/-- An index of the output array is in point `t`'s block iff each coordinate is in the block's range on its axis. -/
theorem mem_blk1 (t : Fin cfg1.N) (i : S100000x20.Idx) :
    i ∈ ((cfg1.win 5).blk t).view.set ↔ ∀ a : Fin 2, win1_5.index t a * S10000x20.size a ≤ (i a).val ∧ (i a).val < win1_5.index t a * S10000x20.size a + S10000x20.size a := by
  show i ∈ ((View.whole main_v45).slice (win1_5.rect t)).set ↔ _
  rw [View.set_slice_whole, Rect.mem_set_unit]
  exact Iff.rfl

/-- Every row of the output array is in some point's block: row `r` in block `r / 10000`. -/
theorem cover1 (i : S100000x20.Idx) : ∃ t : Fin cfg1.N, (cfg1.win 5).flush t = true ∧ i ∈ ((cfg1.win 5).blk t).view.set := by
  have hi0 : (i 0).val < 100000 := (i 0).isLt
  have hi1 : (i 1).val < 20 := (i 1).isLt
  have hN : cfg1.N = 10 := N_1
  refine ⟨⟨(i 0).val / 10000, by rw [hN]; omega⟩, flush1_5 _, ?_⟩
  rw [mem_blk1]
  obtain ⟨-, -, -, -, -, -, -, -, -, -, e50, e51⟩ := idx_facts1 ⟨(i 0).val / 10000, by rw [hN]; omega⟩
  intro a
  match a with
  | ⟨0, _⟩ => show win1_5.index _ (0 : Fin 2) * 10000 ≤ (i 0).val ∧ (i 0).val < win1_5.index _ (0 : Fin 2) * 10000 + 10000; rw [e50]; dsimp only; omega
  | ⟨1, _⟩ => show win1_5.index _ (1 : Fin 2) * 20 ≤ (i 1).val ∧ (i 1).val < win1_5.index _ (1 : Fin 2) * 20 + 20; rw [e51]; omega

/-- THE ARRAY after region 1: the second layer of the arrays the region finds. -/
theorem arr1_eq (c : Dev nD) (b : (⟨Cert.ReferenceIdeal.S20, .f32⟩ : BufTy).Contents (Elt Ideal))
    (hb : ∀ q : Fin 20, V c main_v44 (ix2 (0 : Fin 1) q) = b (ix1 q)) :
    (dat1 V c).arrAt 5 cfg1.N = refLayer2 (F := Ideal) (V c main_v43) (V c main_v24) (V c main_arg6) b (V c main_arg8) :=
  (dat1 V c).arrAt_eq_of_cover 5 _ (fun t _ => flushed1_eq V c b hb t) cover1

end Val1

end Cert.KernelIdeal.Hand

end
-- ==== Proof.PoolMath.lean ====
/-
  The mean pool over graph ids: the kernel's running sums against the reference's two scatter-adds, over the
  extended reals. The kernel adds, block by block, the product of a one-hot matrix of the block's graph ids with
  the block's rows (and with a column of ones); the reference adds each row at the position its graph id names.
  Both are the sum, over the rows whose id is the graph, of the row (of one), and both divide the first by the
  second read as at least one. An id outside 0 … 255 matches no column of the one-hot matrix and names no
  position: it is left out on both sides. Only that + is commutative and associative, 0 + x = x, 1 · x = x and
  0 · x = 0 is used; nothing is assumed finite.
-/
import proofs.«414671_j14113262535138_3_alg».proof.Proof.KI.PoolFold
import proofs.«414671_j14113262535138_3_alg».proof.Proof.RefValue
import Idealize.ShloMosaic.Lib.ValueIdx
import Idealize.ShloMosaic.Lib.ValueIdxRank1
import Idealize.ShloMosaic.Lib.Pipeline.Value
import Idealize.ShloMosaic.Lib.StableHlo.Predicate
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## The two words that denote one -/

theorem one_bf16 : Ideal.ofBits .bf16 0x3F80#16 = 1 := by
  simp [Ideal.ofBits, Ideal.ieee, -EReal.coe_mul]; norm_num

theorem one_f32 : Ideal.ofBits .f32 0x3F800000#32 = 1 := by
  simp [Ideal.ofBits, Ideal.ieee, -EReal.coe_mul]; norm_num

/-! ## A graph id as a word -/

/-- A 32-bit word is the word of a number below 256 exactly when its signed value is that number. -/
theorem word_eq_iff_toInt (w : BitVec 32) (g : Fin 256) : w = BitVec.ofNat 32 g.val ↔ w.toInt = (g.val : ℤ) := by
  have hg : (BitVec.ofNat 32 g.val).toInt = (g.val : ℤ) := by
    have := g.isLt
    rw [BitVec.toInt_eq_toNat_cond, BitVec.toNat_ofNat]
    omega
  constructor
  · intro h; rw [h, hg]
  · intro h; exact BitVec.eq_of_toInt_eq (h.trans hg.symm)

/-- The one-hot entry: one where the word is the graph's, zero elsewhere. -/
def oh (w : BitVec 32) (g : Fin 256) : EReal := if w = BitVec.ofNat 32 g.val then 1 else 0

/-- Weighing by the one-hot entry keeps the value where the word's signed value is the graph and drops it elsewhere. -/
theorem oh_mul (w : BitVec 32) (g : Fin 256) (x : EReal) : oh w g * x = if w.toInt = (g.val : ℤ) then x else 0 := by
  unfold oh
  by_cases hw : w = BitVec.ofNat 32 g.val
  · rw [if_pos hw, if_pos ((word_eq_iff_toInt w g).1 hw), one_mul]
  · rw [if_neg hw, if_neg (fun h => hw ((word_eq_iff_toInt w g).2 h)), zero_mul]

/-! ## Where an update of a scatter lands -/

/-- An update lands at `i` exactly when, on every axis, its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro hi a
      have := congrArg (fun f => ((f a).val : ℤ)) hi
      simp only at this
      rw [← this]
      have := (h a).1
      simp only [Int.toNat_of_nonneg this]
    · intro hi
      funext a
      apply Fin.ext
      show (d.start j idx a + (d.window j a : ℤ)).toNat = (i a).val
      rw [hi a]; simp
  · constructor
    · intro hn; exact absurd hn (by simp)
    · intro hi
      exfalso; apply h; intro a
      rw [hi a]
      exact ⟨Int.natCast_nonneg _, by exact_mod_cast (i a).isLt⟩

/-! ## The one-hot matrix of a block of graph ids -/

theorem pay3_apply (v3 : Vec Ideal S2000x1 .i32) (r : Fin 2000) (g : Fin 256) :
    k2_pay3 (F := Ideal) v3 (ix2 r g) = oh (v3 (ix2 r (0 : Fin 1))) g := by
  unfold k2_pay3
  show FloatOps.sitofp (F := Ideal) .f32 ((IntOp.cmpi .eq (broadcastTo S2000x256 (shapeCast S2000x1 v3 shapeCasts_S2000x1_S2000x1) broadcasts_S2000x1_S2000x256 (ix2 r g)) (iota .tc S2000x256 32 [1] iota_S2000x256_d1_w32 (ix2 r g))).setWidth 32) = _
  rw [shapeCast_self, iota_single_apply,
    broadcastTo_apply (t := S2000x256) v3 broadcasts_S2000x1_S2000x256 (ix2 r g) (ix2 r (0 : Fin 1)) (fun a => match a with
      | ⟨0, _⟩ => by show r.val = if (2000 : Nat) = 1 then 0 else r.val; rw [if_neg (by decide)]
      | ⟨1, _⟩ => by show 0 = if (1 : Nat) = 1 then 0 else g.val; rw [if_pos rfl])]
  show ((((IntOp.cmpi .eq (v3 (ix2 r (0 : Fin 1))) (BitVec.ofNat 32 g.val)).setWidth 32).toInt : ℝ) : EReal) = _
  unfold oh
  by_cases hw : v3 (ix2 r (0 : Fin 1)) = BitVec.ofNat 32 g.val
  · rw [if_pos hw, StableHlo.Predicate.cmpi_eq_iff.2 hw]; norm_num
  · rw [if_neg hw, eq_zero_of_ne_one (fun h => hw (StableHlo.Predicate.cmpi_eq_iff.1 h))]; norm_num

/-! ## The block products: both operands contracted along their rows -/

theorem lhsA_0 (i : S256x20.Idx) (q : dot_S2000x256_S2000x20_S256x20_0_0_1_1_n_n.contr.Idx) :
    (dot_S2000x256_S2000x20_S256x20_0_0_1_1_n_n.lhsIdx i q 0).val = (q ⟨0, by decide⟩).val :=
  dot_S2000x256_S2000x20_S256x20_0_0_1_1_n_n.lhsIdx_val_of_single rfl i q
theorem lhsA_1 (i : S256x20.Idx) (q : dot_S2000x256_S2000x20_S256x20_0_0_1_1_n_n.contr.Idx) :
    (dot_S2000x256_S2000x20_S256x20_0_0_1_1_n_n.lhsIdx i q 1).val = (i 0).val := by
  unfold DotDims.lhsIdx
  rw [dif_neg (show ¬(1 : Fin S2000x256.rank) ∈ dot_S2000x256_S2000x20_S256x20_0_0_1_1_n_n.lhsBatch by decide), dif_pos (show (1 : Fin S2000x256.rank) ∈ dot_S2000x256_S2000x20_S256x20_0_0_1_1_n_n.lhsNonContracting by decide)]
  rfl
theorem rhsA_0 (i : S256x20.Idx) (q : dot_S2000x256_S2000x20_S256x20_0_0_1_1_n_n.contr.Idx) :
    (dot_S2000x256_S2000x20_S256x20_0_0_1_1_n_n.rhsIdx i q 0).val = (q ⟨0, by decide⟩).val :=
  dot_S2000x256_S2000x20_S256x20_0_0_1_1_n_n.rhsIdx_val_of_single rfl i q
theorem rhsA_1 (i : S256x20.Idx) (q : dot_S2000x256_S2000x20_S256x20_0_0_1_1_n_n.contr.Idx) :
    (dot_S2000x256_S2000x20_S256x20_0_0_1_1_n_n.rhsIdx i q 1).val = (i 1).val := by
  unfold DotDims.rhsIdx
  rw [dif_neg (show ¬(1 : Fin S2000x20.rank) ∈ dot_S2000x256_S2000x20_S256x20_0_0_1_1_n_n.rhsBatch by decide), dif_pos (show (1 : Fin S2000x20.rank) ∈ dot_S2000x256_S2000x20_S256x20_0_0_1_1_n_n.rhsNonContracting by decide)]
  rfl

/-- The one-hot matrix, transposed, times a block of rows: entry `(g, f)` is the sum down the 2000 rows. -/
theorem matmulA_apply (lhs : FVec Ideal S2000x256 .bf16) (rhs : FVec Ideal S2000x20 .bf16) (g : Fin 256) (f : Fin 20) :
    FloatOps.matmul dot_S2000x256_S2000x20_S256x20_0_0_1_1_n_n none lhs rhs (constant (F := Ideal) S256x20 .f32 0x00000000#32) (ix2 g f)
      = ∑ r : Fin 2000, lhs (ix2 r g) * rhs (ix2 r f) := by
  rw [Ideal.matmul_constant_zero_apply, ← Equiv.sum_comp (contrEquiv1 dot_S2000x256_S2000x20_S256x20_0_0_1_1_n_n 2000 rfl rfl).symm]
  refine Finset.sum_congr rfl fun k _ => ?_
  have hk := contrEquiv1_symm_val dot_S2000x256_S2000x20_S256x20_0_0_1_1_n_n 2000 rfl rfl k
  have el : dot_S2000x256_S2000x20_S256x20_0_0_1_1_n_n.lhsIdx (ix2 g f) ((contrEquiv1 dot_S2000x256_S2000x20_S256x20_0_0_1_1_n_n 2000 rfl rfl).symm k) = ix2 k g := funext fun a => Fin.ext (by
    match a with
    | ⟨0, _⟩ => exact (lhsA_0 _ _).trans hk
    | ⟨1, _⟩ => exact lhsA_1 _ _)
  have er : dot_S2000x256_S2000x20_S256x20_0_0_1_1_n_n.rhsIdx (ix2 g f) ((contrEquiv1 dot_S2000x256_S2000x20_S256x20_0_0_1_1_n_n 2000 rfl rfl).symm k) = ix2 k f := funext fun a => Fin.ext (by
    match a with
    | ⟨0, _⟩ => exact (rhsA_0 _ _).trans hk
    | ⟨1, _⟩ => exact rhsA_1 _ _)
  rw [el, er]

theorem lhsB_0 (i : S256x1.Idx) (q : dot_S2000x256_S2000x1_S256x1_0_0_1_1_n_n.contr.Idx) :
    (dot_S2000x256_S2000x1_S256x1_0_0_1_1_n_n.lhsIdx i q 0).val = (q ⟨0, by decide⟩).val :=
  dot_S2000x256_S2000x1_S256x1_0_0_1_1_n_n.lhsIdx_val_of_single rfl i q
theorem lhsB_1 (i : S256x1.Idx) (q : dot_S2000x256_S2000x1_S256x1_0_0_1_1_n_n.contr.Idx) :
    (dot_S2000x256_S2000x1_S256x1_0_0_1_1_n_n.lhsIdx i q 1).val = (i 0).val := by
  unfold DotDims.lhsIdx
  rw [dif_neg (show ¬(1 : Fin S2000x256.rank) ∈ dot_S2000x256_S2000x1_S256x1_0_0_1_1_n_n.lhsBatch by decide), dif_pos (show (1 : Fin S2000x256.rank) ∈ dot_S2000x256_S2000x1_S256x1_0_0_1_1_n_n.lhsNonContracting by decide)]
  rfl
theorem rhsB_0 (i : S256x1.Idx) (q : dot_S2000x256_S2000x1_S256x1_0_0_1_1_n_n.contr.Idx) :
    (dot_S2000x256_S2000x1_S256x1_0_0_1_1_n_n.rhsIdx i q 0).val = (q ⟨0, by decide⟩).val :=
  dot_S2000x256_S2000x1_S256x1_0_0_1_1_n_n.rhsIdx_val_of_single rfl i q
theorem rhsB_1 (i : S256x1.Idx) (q : dot_S2000x256_S2000x1_S256x1_0_0_1_1_n_n.contr.Idx) :
    (dot_S2000x256_S2000x1_S256x1_0_0_1_1_n_n.rhsIdx i q 1).val = (i 1).val := by
  unfold DotDims.rhsIdx
  rw [dif_neg (show ¬(1 : Fin S2000x1.rank) ∈ dot_S2000x256_S2000x1_S256x1_0_0_1_1_n_n.rhsBatch by decide), dif_pos (show (1 : Fin S2000x1.rank) ∈ dot_S2000x256_S2000x1_S256x1_0_0_1_1_n_n.rhsNonContracting by decide)]
  rfl

/-- The same against a single column. -/
theorem matmulB_apply (lhs : FVec Ideal S2000x256 .bf16) (rhs : FVec Ideal S2000x1 .bf16) (g : Fin 256) (f : Fin 1) :
    FloatOps.matmul dot_S2000x256_S2000x1_S256x1_0_0_1_1_n_n none lhs rhs (constant (F := Ideal) S256x1 .f32 0x00000000#32) (ix2 g f)
      = ∑ r : Fin 2000, lhs (ix2 r g) * rhs (ix2 r f) := by
  rw [Ideal.matmul_constant_zero_apply, ← Equiv.sum_comp (contrEquiv1 dot_S2000x256_S2000x1_S256x1_0_0_1_1_n_n 2000 rfl rfl).symm]
  refine Finset.sum_congr rfl fun k _ => ?_
  have hk := contrEquiv1_symm_val dot_S2000x256_S2000x1_S256x1_0_0_1_1_n_n 2000 rfl rfl k
  have el : dot_S2000x256_S2000x1_S256x1_0_0_1_1_n_n.lhsIdx (ix2 g f) ((contrEquiv1 dot_S2000x256_S2000x1_S256x1_0_0_1_1_n_n 2000 rfl rfl).symm k) = ix2 k g := funext fun a => Fin.ext (by
    match a with
    | ⟨0, _⟩ => exact (lhsB_0 _ _).trans hk
    | ⟨1, _⟩ => exact lhsB_1 _ _)
  have er : dot_S2000x256_S2000x1_S256x1_0_0_1_1_n_n.rhsIdx (ix2 g f) ((contrEquiv1 dot_S2000x256_S2000x1_S256x1_0_0_1_1_n_n 2000 rfl rfl).symm k) = ix2 k f := funext fun a => Fin.ext (by
    match a with
    | ⟨0, _⟩ => exact (rhsB_0 _ _).trans hk
    | ⟨1, _⟩ => exact rhsB_1 _ _)
  rw [el, er]

/-! ## The payloads at an index -/

theorem pay1_apply (i : S256x20.Idx) : k2_pay1 (F := Ideal) i = 0 := by
  unfold k2_pay1
  rw [shapeCast_self]
  exact Ideal.ofBits_zero_f32

theorem pay2_apply (i : S256x1.Idx) : k2_pay2 (F := Ideal) i = 0 := by
  unfold k2_pay2
  rw [shapeCast_self]
  exact Ideal.ofBits_zero_f32

/-- One grid point's sums: what was there plus, down the block's rows, each row weighed by its one-hot entry. -/
theorem pay4_apply (v3 : Vec Ideal S2000x1 .i32) (v11 : Vec Ideal S2000x20 .f32) (v15 : Vec Ideal S256x20 .f32) (g : Fin 256) (f : Fin 20) :
    k2_pay4 (F := Ideal) v3 v11 v15 (ix2 g f)
      = v15 (ix2 g f) + ∑ r : Fin 2000, oh (v3 (ix2 r (0 : Fin 1))) g * v11 (ix2 r f) := by
  unfold k2_pay4
  rw [shapeCast_self, shapeCast_self]
  show v15 (ix2 g f) + FloatOps.matmul dot_S2000x256_S2000x20_S256x20_0_0_1_1_n_n none (k2_pay3 (F := Ideal) v3)
      (truncf (F := Ideal) .bf16 v11 bitsLt_bf16_f32) (constant (F := Ideal) S256x20 .f32 0x00000000#32) (ix2 g f) = _
  rw [matmulA_apply]
  refine congrArg (v15 (ix2 g f) + ·) (Finset.sum_congr rfl fun r _ => ?_)
  rw [pay3_apply]
  rfl

/-- One grid point's counts: what was there plus the one-hot entries down the block's rows. -/
theorem pay5_apply (v3 : Vec Ideal S2000x1 .i32) (v21 : Vec Ideal S256x1 .f32) (g : Fin 256) :
    k2_pay5 (F := Ideal) v3 v21 (ix2 g (0 : Fin 1))
      = v21 (ix2 g (0 : Fin 1)) + ∑ r : Fin 2000, oh (v3 (ix2 r (0 : Fin 1))) g * 1 := by
  unfold k2_pay5
  rw [shapeCast_self]
  show v21 (ix2 g (0 : Fin 1)) + FloatOps.matmul dot_S2000x256_S2000x1_S256x1_0_0_1_1_n_n none (k2_pay3 (F := Ideal) v3)
      (broadcast S2000x1 (Scalar.ofBits (F := Ideal) .bf16 0x3F80#16)) (constant (F := Ideal) S256x1 .f32 0x00000000#32) (ix2 g (0 : Fin 1)) = _
  rw [matmulB_apply]
  refine congrArg (v21 (ix2 g (0 : Fin 1)) + ·) (Finset.sum_congr rfl fun r _ => ?_)
  rw [pay3_apply]
  show _ * Ideal.ofBits .bf16 0x3F80#16 = _
  rw [one_bf16]

/-! ## The running sums in closed form -/

/-- What grid point `t` adds to the sums at `(g, f)`. -/
def addS (bt : ℕ → Vec Ideal S2000x1 .i32) (ht : ℕ → Vec Ideal S2000x20 .f32) (g : Fin 256) (f : Fin 20) (t : ℕ) : EReal :=
  ∑ r : Fin 2000, oh (bt t (ix2 r (0 : Fin 1))) g * ht t (ix2 r f)

/-- What grid point `t` adds to the count of graph `g`. -/
def addC (bt : ℕ → Vec Ideal S2000x1 .i32) (g : Fin 256) (t : ℕ) : EReal :=
  ∑ r : Fin 2000, oh (bt t (ix2 r (0 : Fin 1))) g * 1

theorem carry_fst (bt : ℕ → Vec Ideal S2000x1 .i32) (ht : ℕ → Vec Ideal S2000x20 .f32) (g : Fin 256) (f : Fin 20) (n : ℕ) :
    (carry (F := Ideal) bt ht n).1 (ix2 g f) = ∑ t ∈ Finset.range (n + 1), addS bt ht g f t := by
  induction n with
  | zero =>
    rw [carry_zero]
    show k2_pay4 (F := Ideal) (bt 0) (ht 0) (k2_pay1 (F := Ideal)) (ix2 g f) = _
    rw [pay4_apply, pay1_apply, zero_add, Finset.sum_range_one]
    rfl
  | succ n ih =>
    rw [carry_succ]
    show k2_pay4 (F := Ideal) (bt (n + 1)) (ht (n + 1)) (carry (F := Ideal) bt ht n).1 (ix2 g f) = _
    rw [pay4_apply, ih, Finset.sum_range_succ _ (n + 1)]
    rfl

theorem carry_snd (bt : ℕ → Vec Ideal S2000x1 .i32) (ht : ℕ → Vec Ideal S2000x20 .f32) (g : Fin 256) (n : ℕ) :
    (carry (F := Ideal) bt ht n).2 (ix2 g (0 : Fin 1)) = ∑ t ∈ Finset.range (n + 1), addC bt g t := by
  induction n with
  | zero =>
    rw [carry_zero]
    show k2_pay5 (F := Ideal) (bt 0) (k2_pay2 (F := Ideal)) (ix2 g (0 : Fin 1)) = _
    rw [pay5_apply, pay2_apply, zero_add, Finset.sum_range_one]
    rfl
  | succ n ih =>
    rw [carry_succ]
    show k2_pay5 (F := Ideal) (bt (n + 1)) (carry (F := Ideal) bt ht n).2 (ix2 g (0 : Fin 1)) = _
    rw [pay5_apply, ih, Finset.sum_range_succ _ (n + 1)]
    rfl

/-! ## The reference's two scatter-adds at an index

Both records scatter along axis 0 of the operand, read their start off column 0 of the index array at the
update's row, and insert that axis as a window axis of extent one. The feature scatter carries the update's second
coordinate through unchanged; the count scatter has no window axis at all. -/

/-- The start index of row `n`'s update is read at `(n, 0)`, whichever component is asked for (there is one). -/
theorem sumScatter_siIdx (n : Fin 100000) (f' : Fin 20)
    (c : Fin Cert.ReferenceIdeal.scatter_S256x20_S100000x1_S100000x20_1_0_0_1.scatterDimsToOperandDims.length) :
    Cert.ReferenceIdeal.scatter_S256x20_S100000x1_S100000x20_1_0_0_1.siIdx (ix2 n f') c = ix2 n (0 : Fin 1) := by
  funext b
  apply Fin.ext
  match b with
  | ⟨0, _⟩ => rfl
  | ⟨1, _⟩ =>
    have hc : c.val < 1 := c.isLt
    show c.val = 0
    omega

theorem sumScatter_start0 (n : Fin 100000) (f' : Fin 20) (idx : IVec Cert.ReferenceIdeal.S100000x1 32) :
    Cert.ReferenceIdeal.scatter_S256x20_S100000x1_S100000x20_1_0_0_1.start (ix2 n f') idx 0
      = (idx (ix2 n (0 : Fin 1))).toInt := by
  unfold ScatterDims.start
  rw [dif_pos (show (0 : Fin Cert.ReferenceIdeal.S256x20.rank) ∈ Cert.ReferenceIdeal.scatter_S256x20_S100000x1_S100000x20_1_0_0_1.scatterDimsToOperandDims by decide),
    sumScatter_siIdx]

theorem sumScatter_start1 (n : Fin 100000) (f' : Fin 20) (idx : IVec Cert.ReferenceIdeal.S100000x1 32) :
    Cert.ReferenceIdeal.scatter_S256x20_S100000x1_S100000x20_1_0_0_1.start (ix2 n f') idx 1 = 0 := by
  unfold ScatterDims.start
  rw [dif_neg (show ¬(1 : Fin Cert.ReferenceIdeal.S256x20.rank) ∈ Cert.ReferenceIdeal.scatter_S256x20_S100000x1_S100000x20_1_0_0_1.scatterDimsToOperandDims by decide)]

theorem sumScatter_window0 (n : Fin 100000) (f' : Fin 20) :
    Cert.ReferenceIdeal.scatter_S256x20_S100000x1_S100000x20_1_0_0_1.window (ix2 n f') 0 = 0 := by
  unfold ScatterDims.window
  rw [dif_neg (show ¬(0 : Fin Cert.ReferenceIdeal.S256x20.rank) ∈ Cert.ReferenceIdeal.scatter_S256x20_S100000x1_S100000x20_1_0_0_1.sKept by decide)]

theorem sumScatter_window1 (n : Fin 100000) (f' : Fin 20) :
    Cert.ReferenceIdeal.scatter_S256x20_S100000x1_S100000x20_1_0_0_1.window (ix2 n f') 1 = f'.val := by
  unfold ScatterDims.window
  rw [dif_pos (show (1 : Fin Cert.ReferenceIdeal.S256x20.rank) ∈ Cert.ReferenceIdeal.scatter_S256x20_S100000x1_S100000x20_1_0_0_1.sKept by decide)]
  rfl

/-- Row `n`'s entry `f'` lands at `(g, f)` exactly when the row's graph id, read signed, is `g` and `f' = f`. -/
theorem sumScatter_lands (idx : IVec Cert.ReferenceIdeal.S100000x1 32) (n : Fin 100000) (f' : Fin 20) (g : Fin 256) (f : Fin 20) :
    Cert.ReferenceIdeal.scatter_S256x20_S100000x1_S100000x20_1_0_0_1.resultIdx? (ix2 n f') idx = some (ix2 g f)
      ↔ (idx (ix2 n (0 : Fin 1))).toInt = (g.val : ℤ) ∧ f' = f := by
  rw [resultIdx?_eq_some_iff]
  constructor
  · intro h
    have h0 := h 0
    have h1 := h 1
    rw [sumScatter_start0, sumScatter_window0] at h0
    rw [sumScatter_start1, sumScatter_window1] at h1
    have h0' : (idx (ix2 n (0 : Fin 1))).toInt + ((0 : ℕ) : ℤ) = (g.val : ℤ) := h0
    have h1' : (0 : ℤ) + (f'.val : ℤ) = (f.val : ℤ) := h1
    exact ⟨by omega, Fin.ext (by omega)⟩
  · rintro ⟨h0, rfl⟩ a
    match a with
    | ⟨0, _⟩ =>
      show Cert.ReferenceIdeal.scatter_S256x20_S100000x1_S100000x20_1_0_0_1.start (ix2 n f') idx 0
        + (Cert.ReferenceIdeal.scatter_S256x20_S100000x1_S100000x20_1_0_0_1.window (ix2 n f') 0 : ℤ) = (g.val : ℤ)
      rw [sumScatter_start0, sumScatter_window0]; omega
    | ⟨1, _⟩ =>
      show Cert.ReferenceIdeal.scatter_S256x20_S100000x1_S100000x20_1_0_0_1.start (ix2 n f') idx 1
        + (Cert.ReferenceIdeal.scatter_S256x20_S100000x1_S100000x20_1_0_0_1.window (ix2 n f') 1 : ℤ) = (f'.val : ℤ)
      rw [sumScatter_start1, sumScatter_window1]; omega

/-- The feature scatter-add at `(g, f)`: the operand there plus, over all rows, the row's entry `f` where the
    row's graph id is `g`. -/
theorem sumScatter_apply (x : FVec Ideal Cert.ReferenceIdeal.S256x20 .f32) (idx : IVec Cert.ReferenceIdeal.S100000x1 32)
    (upd : FVec Ideal Cert.ReferenceIdeal.S100000x20 .f32) (g : Fin 256) (f : Fin 20) :
    Host.scatterAdd (F := Ideal) Cert.ReferenceIdeal.scatter_S256x20_S100000x1_S100000x20_1_0_0_1 x idx upd (ix2 g f)
      = x (ix2 g f) + ∑ n : Fin 100000, if (idx (ix2 n (0 : Fin 1))).toInt = (g.val : ℤ) then upd (ix2 n f) else 0 := by
  show Ideal.hostScatterAdd Cert.ReferenceIdeal.scatter_S256x20_S100000x1_S100000x20_1_0_0_1 x idx upd (ix2 g f) = _
  unfold Ideal.hostScatterAdd
  refine congrArg (x (ix2 g f) + ·) ?_
  rw [Finset.sum_filter, sum_idx2]
  refine Finset.sum_congr rfl fun n _ => ?_
  by_cases hn : (idx (ix2 n (0 : Fin 1))).toInt = (g.val : ℤ)
  · rw [if_pos hn, Finset.sum_eq_single f]
    · rw [if_pos ((sumScatter_lands idx n f g f).2 ⟨hn, rfl⟩)]
    · intro f' _ hne
      rw [if_neg (fun hl => hne ((sumScatter_lands idx n f' g f).1 hl).2)]
    · intro hf; exact absurd (Finset.mem_univ f) hf
  · rw [if_neg hn]
    exact Finset.sum_eq_zero fun f' _ => if_neg (fun hl => hn ((sumScatter_lands idx n f' g f).1 hl).1)

theorem cntScatter_siIdx (n : Fin 100000)
    (c : Fin Cert.ReferenceIdeal.scatter_S256_S100000x1_S100000_n_0_0_1.scatterDimsToOperandDims.length) :
    Cert.ReferenceIdeal.scatter_S256_S100000x1_S100000_n_0_0_1.siIdx (ix1 n) c = ix2 n (0 : Fin 1) := by
  funext b
  apply Fin.ext
  match b with
  | ⟨0, _⟩ => rfl
  | ⟨1, _⟩ =>
    have hc : c.val < 1 := c.isLt
    show c.val = 0
    omega

theorem cntScatter_start0 (n : Fin 100000) (idx : IVec Cert.ReferenceIdeal.S100000x1 32) :
    Cert.ReferenceIdeal.scatter_S256_S100000x1_S100000_n_0_0_1.start (ix1 n) idx 0 = (idx (ix2 n (0 : Fin 1))).toInt := by
  unfold ScatterDims.start
  rw [dif_pos (show (0 : Fin Cert.ReferenceIdeal.S256.rank) ∈ Cert.ReferenceIdeal.scatter_S256_S100000x1_S100000_n_0_0_1.scatterDimsToOperandDims by decide),
    cntScatter_siIdx]

theorem cntScatter_window0 (n : Fin 100000) :
    Cert.ReferenceIdeal.scatter_S256_S100000x1_S100000_n_0_0_1.window (ix1 n) 0 = 0 := by
  unfold ScatterDims.window
  rw [dif_neg (show ¬(0 : Fin Cert.ReferenceIdeal.S256.rank) ∈ Cert.ReferenceIdeal.scatter_S256_S100000x1_S100000_n_0_0_1.sKept by decide)]

/-- Row `n`'s one lands at `g` exactly when the row's graph id, read signed, is `g`. -/
theorem cntScatter_lands (idx : IVec Cert.ReferenceIdeal.S100000x1 32) (n : Fin 100000) (g : Fin 256) :
    Cert.ReferenceIdeal.scatter_S256_S100000x1_S100000_n_0_0_1.resultIdx? (ix1 n) idx = some (ix1 g)
      ↔ (idx (ix2 n (0 : Fin 1))).toInt = (g.val : ℤ) := by
  rw [resultIdx?_eq_some_iff]
  constructor
  · intro h
    have h0 := h 0
    rw [cntScatter_start0, cntScatter_window0] at h0
    have h0' : (idx (ix2 n (0 : Fin 1))).toInt + ((0 : ℕ) : ℤ) = (g.val : ℤ) := h0
    omega
  · intro h0 a
    match a with
    | ⟨0, _⟩ =>
      show Cert.ReferenceIdeal.scatter_S256_S100000x1_S100000_n_0_0_1.start (ix1 n) idx 0
        + (Cert.ReferenceIdeal.scatter_S256_S100000x1_S100000_n_0_0_1.window (ix1 n) 0 : ℤ) = (g.val : ℤ)
      rw [cntScatter_start0, cntScatter_window0]; omega

/-- The count scatter-add at `g`: the operand there plus, over all rows, the row's update where the row's graph
    id is `g`. -/
theorem cntScatter_apply (x : FVec Ideal Cert.ReferenceIdeal.S256 .f32) (idx : IVec Cert.ReferenceIdeal.S100000x1 32)
    (upd : FVec Ideal Cert.ReferenceIdeal.S100000 .f32) (g : Fin 256) :
    Host.scatterAdd (F := Ideal) Cert.ReferenceIdeal.scatter_S256_S100000x1_S100000_n_0_0_1 x idx upd (ix1 g)
      = x (ix1 g) + ∑ n : Fin 100000, if (idx (ix2 n (0 : Fin 1))).toInt = (g.val : ℤ) then upd (ix1 n) else 0 := by
  show Ideal.hostScatterAdd Cert.ReferenceIdeal.scatter_S256_S100000x1_S100000_n_0_0_1 x idx upd (ix1 g) = _
  unfold Ideal.hostScatterAdd
  refine congrArg (x (ix1 g) + ·) ?_
  rw [Finset.sum_filter, ← Equiv.sum_comp (idxEquiv1 (n := 100000)).symm]
  refine Finset.sum_congr rfl fun n _ => ?_
  show (if Cert.ReferenceIdeal.scatter_S256_S100000x1_S100000_n_0_0_1.resultIdx? (ix1 n) idx = some (ix1 g) then upd (ix1 n) else 0) = _
  exact if_congr (cntScatter_lands idx n g) rfl rfl

/-! ## Fifty blocks of two thousand rows are the hundred thousand rows -/

theorem sum_blocks (G : Fin 100000 → EReal) :
    ∑ t : Fin 50, ∑ r : Fin 2000, G ⟨2000 * t.val + r.val, by omega⟩ = ∑ n : Fin 100000, G n := by
  calc ∑ t : Fin 50, ∑ r : Fin 2000, G ⟨2000 * t.val + r.val, by omega⟩
      = ∑ p : Fin 50 × Fin 2000, G ⟨2000 * p.1.val + p.2.val, by omega⟩ :=
        (Fintype.sum_prod_type' (fun (t : Fin 50) (r : Fin 2000) => G ⟨2000 * t.val + r.val, by omega⟩)).symm
    _ = ∑ n : Fin 100000, G n :=
        Fintype.sum_equiv (finProdFinEquiv.trans (finCongr (by norm_num : 50 * 2000 = 100000))) _ _
          (fun p => congrArg G (Fin.ext (by
            show 2000 * p.1.val + p.2.val = p.2.val + 2000 * p.1.val
            omega)))

/-! ## The kernel's sums are the reference's -/

section Join

variable (bt : ℕ → Vec Ideal S2000x1 .i32) (ht : ℕ → Vec Ideal S2000x20 .f32)
  (batch : (⟨Cert.ReferenceIdeal.S100000, .i32⟩ : BufTy).Contents (Elt Ideal))
  (h : (⟨Cert.ReferenceIdeal.S100000x20, .f32⟩ : BufTy).Contents (Elt Ideal))

/-- Over the fifty blocks, the rows weighed by their one-hot entries add up to the rows whose graph id is `g`. -/
theorem sums_join
    (hb : ∀ (t : Fin 50) (r : Fin 2000), bt t.val (ix2 r (0 : Fin 1)) = batch (ix1 (⟨2000 * t.val + r.val, by omega⟩ : Fin 100000)))
    (hh : ∀ (t : Fin 50) (r : Fin 2000) (f : Fin 20), ht t.val (ix2 r f) = h (ix2 (⟨2000 * t.val + r.val, by omega⟩ : Fin 100000) f))
    (g : Fin 256) (f : Fin 20) :
    ∑ t ∈ Finset.range 50, addS bt ht g f t
      = ∑ n : Fin 100000, if (batch (ix1 n)).toInt = (g.val : ℤ) then h (ix2 n f) else 0 := by
  rw [← Fin.sum_univ_eq_sum_range (fun t => addS bt ht g f t) 50,
    ← sum_blocks (fun n => if (batch (ix1 n)).toInt = (g.val : ℤ) then h (ix2 n f) else 0)]
  refine Finset.sum_congr rfl fun t _ => ?_
  unfold addS
  refine Finset.sum_congr rfl fun r _ => ?_
  rw [hb t r, hh t r f, oh_mul]

/-- The same for the counts: the one-hot entries add up to one for every row whose graph id is `g`. -/
theorem counts_join
    (hb : ∀ (t : Fin 50) (r : Fin 2000), bt t.val (ix2 r (0 : Fin 1)) = batch (ix1 (⟨2000 * t.val + r.val, by omega⟩ : Fin 100000)))
    (g : Fin 256) :
    ∑ t ∈ Finset.range 50, addC bt g t
      = ∑ n : Fin 100000, if (batch (ix1 n)).toInt = (g.val : ℤ) then (1 : EReal) else 0 := by
  rw [← Fin.sum_univ_eq_sum_range (fun t => addC bt g t) 50,
    ← sum_blocks (fun n => if (batch (ix1 n)).toInt = (g.val : ℤ) then (1 : EReal) else 0)]
  refine Finset.sum_congr rfl fun t _ => ?_
  unfold addC
  refine Finset.sum_congr rfl fun r _ => ?_
  rw [hb t r, oh_mul]

end Join

/-! ## Both sides at an index -/

/-- What the last grid point stores at `(g, f)`: the sum there over the count of `g`, the count read as at least
    the word `0x3F800000`. -/
theorem pay6_apply (acc : Vec Ideal S256x20 .f32) (cnt : Vec Ideal S256x1 .f32) (g : Fin 256) (f : Fin 20) :
    k2_pay6 (F := Ideal) acc cnt (ix2 g f)
      = Ideal.div (acc (ix2 g f)) (max (cnt (ix2 g (0 : Fin 1))) (Ideal.ofBits .f32 0x3F800000#32)) := by
  unfold k2_pay6
  show Ideal.div (acc (ix2 g f))
      (broadcastTo S256x20 (maximumf (F := Ideal) cnt (broadcast S256x1 (Scalar.ofBits (F := Ideal) .f32 0x3F800000#32)))
        broadcasts_S256x1_S256x20 (ix2 g f)) = _
  rw [broadcastTo_apply (t := S256x20) _ broadcasts_S256x1_S256x20 (ix2 g f) (ix2 g (0 : Fin 1)) (fun a => match a with
    | ⟨0, _⟩ => by show g.val = if (256 : Nat) = 1 then 0 else g.val; rw [if_neg (by decide)]
    | ⟨1, _⟩ => by show 0 = if (1 : Nat) = 1 then 0 else f.val; rw [if_pos rfl])]
  rfl

theorem pooled_apply (bt : ℕ → Vec Ideal S2000x1 .i32) (ht : ℕ → Vec Ideal S2000x20 .f32) (g : Fin 256) (f : Fin 20) :
    pooled (F := Ideal) bt ht (ix2 g f)
      = Ideal.div ((carry (F := Ideal) bt ht 49).1 (ix2 g f))
          (max ((carry (F := Ideal) bt ht 49).2 (ix2 g (0 : Fin 1))) (Ideal.ofBits .f32 0x3F800000#32)) := by
  unfold pooled
  exact pay6_apply _ _ g f

/-- The host's quotient of two arrays, at an index. -/
theorem hostDivf_apply {s : Shape} (A B : FVec Ideal s .f32) (i : s.Idx) :
    Host.divf (F := Ideal) A B i = Ideal.div (A i) (B i) := rfl

open Cert.ReferenceIdeal.Read in
/-- The reference's pool at `(g, f)`: the rows of graph `g` added up at `f`, over their number read as at least the
    word `0x3F800000`. -/
theorem refPool_apply (batch : (⟨Cert.ReferenceIdeal.S100000, .i32⟩ : BufTy).Contents (Elt Ideal))
    (h : (⟨Cert.ReferenceIdeal.S100000x20, .f32⟩ : BufTy).Contents (Elt Ideal)) (g : Fin 256) (f : Fin 20) :
    Cert.ReferenceIdeal.RefValue.refPool (F := Ideal) batch h (ix2 g f)
      = Ideal.div (∑ n : Fin 100000, if (batch (ix1 n)).toInt = (g.val : ℤ) then h (ix2 n f) else 0)
          (max (∑ n : Fin 100000, if (batch (ix1 n)).toInt = (g.val : ℤ) then (1 : EReal) else 0) (Ideal.ofBits .f32 0x3F800000#32)) := by
  have hid61 : ∀ n : Fin 100000, val_main_v61 (F := Ideal) batch (ix2 n (0 : Fin 1)) = batch (ix1 n) := fun n => by
    rw [val_main_v61_apply]
    exact congrArg batch (funext fun a => match a with | ⟨0, _⟩ => rfl)
  have hid65 : ∀ n : Fin 100000, val_main_v65 (F := Ideal) batch (ix2 n (0 : Fin 1)) = batch (ix1 n) := fun n => by
    rw [val_main_v65_apply]
    exact congrArg batch (funext fun a => match a with | ⟨0, _⟩ => rfl)
  have hone : ∀ n : Fin 100000, val_main_v63 (F := Ideal) (ix1 n) = 1 := fun n => by
    rw [val_main_v63_apply, val_main_cst_13_apply]
    exact one_f32
  have hnum : Host.scatterAdd (F := Ideal) (φ := .f32) Cert.ReferenceIdeal.scatter_S256x20_S100000x1_S100000x20_1_0_0_1
        (val_main_v60 (F := Ideal)) (val_main_v61 (F := Ideal) batch) h (ix2 g f)
      = ∑ n : Fin 100000, if (batch (ix1 n)).toInt = (g.val : ℤ) then h (ix2 n f) else 0 := by
    rw [sumScatter_apply, val_main_v60_apply, val_main_cst_12_apply]
    show Ideal.ofBits .f32 0x00000000#32 + _ = _
    rw [Ideal.ofBits_zero_f32, zero_add]
    simp only [hid61]
  have hcnt : Host.scatterAdd (F := Ideal) (φ := .f32) Cert.ReferenceIdeal.scatter_S256_S100000x1_S100000_n_0_0_1
        (val_main_v64 (F := Ideal)) (val_main_v65 (F := Ideal) batch) (val_main_v63 (F := Ideal)) (ix1 g)
      = ∑ n : Fin 100000, if (batch (ix1 n)).toInt = (g.val : ℤ) then (1 : EReal) else 0 := by
    rw [cntScatter_apply, val_main_v64_apply, val_main_cst_14_apply]
    show Ideal.ofBits .f32 0x00000000#32 + _ = _
    rw [Ideal.ofBits_zero_f32, zero_add]
    simp only [hid65, hone]
  have hden : val_main_v70 (F := Ideal) batch (ix2 g f)
      = max (∑ n : Fin 100000, if (batch (ix1 n)).toInt = (g.val : ℤ) then (1 : EReal) else 0) (Ideal.ofBits .f32 0x3F800000#32) := by
    rw [val_main_v70_apply, val_main_v69_apply, val_main_v68_apply, val_main_v67_apply, val_main_cst_15_apply]
    have hi : idx_main_v69 (idx_main_v70 (ix2 g f)) = ix1 g := funext fun a => match a with | ⟨0, _⟩ => rfl
    rw [hi]
    show max (Host.scatterAdd (F := Ideal) (φ := .f32) Cert.ReferenceIdeal.scatter_S256_S100000x1_S100000_n_0_0_1
        (val_main_v64 (F := Ideal)) (val_main_v65 (F := Ideal) batch) (val_main_v63 (F := Ideal)) (ix1 g)) (Ideal.ofBits .f32 0x3F800000#32) = _
    rw [hcnt]
  unfold Cert.ReferenceIdeal.RefValue.refPool
  rw [hostDivf_apply, hnum, hden]

/-! ## The bridge -/

/-- The kernel's pooled block is the reference's mean pool, when the blocks the grid points load are the
    consecutive blocks of two thousand rows of the graph ids and of the features. -/
theorem pool_bridge (bt : ℕ → Vec Ideal Cert.KernelIdeal.S2000x1 .i32) (ht : ℕ → Vec Ideal Cert.KernelIdeal.S2000x20 .f32)
    (batch : (⟨Cert.ReferenceIdeal.S100000, .i32⟩ : BufTy).Contents (Elt Ideal)) (h : (⟨Cert.ReferenceIdeal.S100000x20, .f32⟩ : BufTy).Contents (Elt Ideal))
    (hb : ∀ (t : Fin 50) (r : Fin 2000), bt t.val (ix2 r (0 : Fin 1)) = batch (ix1 (⟨2000 * t.val + r.val, by omega⟩ : Fin 100000)))
    (hh : ∀ (t : Fin 50) (r : Fin 2000) (f : Fin 20), ht t.val (ix2 r f) = h (ix2 (⟨2000 * t.val + r.val, by omega⟩ : Fin 100000) f)) :
    pooled (F := Ideal) bt ht = Cert.ReferenceIdeal.RefValue.refPool (F := Ideal) batch h := by
  funext i
  obtain ⟨g, f, rfl⟩ : ∃ (g : Fin 256) (f : Fin 20), i = ix2 g f := ⟨i 0, i 1, eq_ix2 i⟩
  rw [pooled_apply, refPool_apply, carry_fst, carry_snd]
  show Ideal.div (∑ t ∈ Finset.range 50, addS bt ht g f t) (max (∑ t ∈ Finset.range 50, addC bt g t) (Ideal.ofBits .f32 0x3F800000#32)) = _
  rw [sums_join bt ht batch h hb hh g f, counts_join bt batch hb g]

end Cert.KernelIdeal.Hand

end
-- ==== Proof.Val2.lean ====
/-
  What region 2 of the kernel program (the mean pool) leaves in its output array, over the extended reals.
-/
import proofs.«414671_j14113262535138_3_alg».proof.Proof.KI.Region2
import proofs.«414671_j14113262535138_3_alg».proof.Proof.PoolMath
import Idealize.ShloMosaic.Lib.Pipeline.Value
import Idealize.ShloMosaic.Lib.ValueIdx

set_option maxRecDepth 16384

noncomputable section

namespace Cert.KernelIdeal.Hand

open Cert.KernelIdeal Cert.KernelIdeal.Gen Cert.ReferenceIdeal.RefValue
open Idealize.ShloMosaic Idealize.ShloMosaic.TcCoe Idealize.ShloMosaic.ValueIdx
open Idealize.SL Idealize.SL.Sem
open Idealize.ShloMosaic.Pipeline (Dat Cfg Window)

/-! # What region 2 leaves in its output array

Only the last of the fifty grid points writes the output block back, and that block is the whole array: the
running sums over all fifty blocks, divided by the running counts. Read through the pooling identity this is the
reference's mean pool of the node features the region finds, over the graph ids it finds. -/

section Val2

variable (V : (c : Dev nD) → (b : Ref sig .tc) → Buf (Elt Ideal) ((c : Thread nD τ).loc b))

/-- Where the three windows' blocks sit at grid point `t`: the id block and the feature block at block row `t`, the
    output block at the origin. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- The blocks the fold runs over are the blocks of the two arrays: row `r` of block `t` is row `2000·t + r`. -/
theorem bt2_row (c : Dev nD) (t : Fin 50) (r : Fin 2000) :
    bt2 V c t.val (ix2 r (0 : Fin 1)) = V c main_v46 (ix2 (⟨2000 * t.val + r.val, by omega⟩ : Fin 100000) (0 : Fin 1)) := by
  have hN : cfg2.N = 50 := N_2
  have hlt : t.val < cfg2.N := by rw [hN]; exact t.isLt
  obtain ⟨tt, htt⟩ : ∃ tt : Fin cfg2.N, tt.val = t.val := ⟨⟨t.val, hlt⟩, rfl⟩
  have e : (⟨t.val % cfg2.N, Nat.mod_lt _ N2pos⟩ : Fin cfg2.N) = tt := Fin.ext ((Nat.mod_eq_of_lt hlt).trans htt.symm)
  unfold bt2; rw [e]
  obtain ⟨e00, e01, -⟩ := idx_facts2 tt
  have hr : r.val < 2000 := r.isLt
  show V c main_v46 (((cfg2.win 0).blk tt).view.emb (ix2 r (0 : Fin 1))) = _
  refine congrArg _ (funext fun a => Fin.ext ?_)
  match a with
  | ⟨0, _⟩ => show win2_0.index tt (0 : Fin 2) * 2000 + 1 * r.val = 2000 * t.val + r.val; omega
  | ⟨1, _⟩ => show win2_0.index tt (1 : Fin 2) * 1 + 1 * 0 = 0; omega

theorem ht2_row (c : Dev nD) (t : Fin 50) (r : Fin 2000) (f : Fin 20) :
    ht2 V c t.val (ix2 r f) = V c main_v45 (ix2 (⟨2000 * t.val + r.val, by omega⟩ : Fin 100000) f) := by
  have hN : cfg2.N = 50 := N_2
  have hlt : t.val < cfg2.N := by rw [hN]; exact t.isLt
  obtain ⟨tt, htt⟩ : ∃ tt : Fin cfg2.N, tt.val = t.val := ⟨⟨t.val, hlt⟩, rfl⟩
  have e : (⟨t.val % cfg2.N, Nat.mod_lt _ N2pos⟩ : Fin cfg2.N) = tt := Fin.ext ((Nat.mod_eq_of_lt hlt).trans htt.symm)
  unfold ht2; rw [e]
  obtain ⟨-, -, e10, e11, -⟩ := idx_facts2 tt
  have hr : r.val < 2000 := r.isLt
  show V c main_v45 (((cfg2.win 1).blk tt).view.emb (ix2 r f)) = _
  refine congrArg _ (funext fun a => Fin.ext ?_)
  match a with
  | ⟨0, _⟩ => show win2_1.index tt (0 : Fin 2) * 2000 + 1 * r.val = 2000 * t.val + r.val; omega
  | ⟨1, _⟩ => show win2_1.index tt (1 : Fin 2) * 20 + 1 * f.val = f.val; omega

/-- WHAT THE LAST POINT WRITES BACK is the whole of the reference's pool of the arrays the region finds. `batch` is the
    graph ids as a vector, of which the region's id window's array holds the one-column reshape (`hbt`). -/
theorem flushed2_eq (c : Dev nD) (batch : (⟨Cert.ReferenceIdeal.S100000, .i32⟩ : BufTy).Contents (Elt Ideal))
    (hbt : ∀ n : Fin 100000, V c main_v46 (ix2 n (0 : Fin 1)) = batch (ix1 n)) (t : Fin cfg2.N) (hf : (cfg2.win 2).flush t = true) :
    (dat2 V c).flushed 2 t = ((cfg2.win 2).blk t).view.read (Elt Ideal) (refPool (F := Ideal) batch (V c main_v45)) := by
  have hN : cfg2.N = 50 := N_2
  have h49 : t.val = 49 := by have h1 := (flush2_2 t).mp hf; have h2 : t.val < 50 := lt_of_lt_of_eq t.isLt hN; omega
  have hp := pool_bridge (bt2 V c) (ht2 V c) batch (V c main_v45)
    (fun t' r => (bt2_row V c t' r).trans (hbt _)) (fun t' r f => ht2_row V c t' r f)
  show (cfg2.win 2).cut (grid2.coords t) ((dat2 V c).after 2 t) = _
  rw [after2_2_last V c t h49, hp]
  obtain ⟨-, -, -, -, e20, e21⟩ := idx_facts2 t
  funext j
  show refPool (F := Ideal) batch (V c main_v45) j = refPool (F := Ideal) batch (V c main_v45) (((cfg2.win 2).blk t).view.emb j)
  refine congrArg _ (funext fun a => Fin.ext ?_)
  match a with
  | ⟨0, _⟩ => show (j 0).val = win2_2.index t (0 : Fin 2) * 256 + 1 * (j 0).val; omega
  | ⟨1, _⟩ => show (j 1).val = win2_2.index t (1 : Fin 2) * 20 + 1 * (j 1).val; omega

theorem mem_blk2 (t : Fin cfg2.N) (i : S256x20.Idx) :
    i ∈ ((cfg2.win 2).blk t).view.set ↔ ∀ a : Fin 2, win2_2.index t a * S256x20.size a ≤ (i a).val ∧ (i a).val < win2_2.index t a * S256x20.size a + S256x20.size a := by
  show i ∈ ((View.whole main_v47).slice (win2_2.rect t)).set ↔ _
  rw [View.set_slice_whole, Rect.mem_set_unit]
  exact Iff.rfl

/-- The last point's block is the whole output array. -/
theorem cover2 (i : S256x20.Idx) : ∃ t : Fin cfg2.N, (cfg2.win 2).flush t = true ∧ i ∈ ((cfg2.win 2).blk t).view.set := by
  have hi0 : (i 0).val < 256 := (i 0).isLt
  have hi1 : (i 1).val < 20 := (i 1).isLt
  have hN : cfg2.N = 50 := N_2
  refine ⟨⟨49, by rw [hN]; decide⟩, (flush2_2 _).mpr rfl, ?_⟩
  rw [mem_blk2]
  obtain ⟨-, -, -, -, e20, e21⟩ := idx_facts2 ⟨49, by rw [hN]; decide⟩
  intro a
  match a with
  | ⟨0, _⟩ => show win2_2.index _ (0 : Fin 2) * 256 ≤ (i 0).val ∧ (i 0).val < win2_2.index _ (0 : Fin 2) * 256 + 256; rw [e20]; omega
  | ⟨1, _⟩ => show win2_2.index _ (1 : Fin 2) * 20 ≤ (i 1).val ∧ (i 1).val < win2_2.index _ (1 : Fin 2) * 20 + 20; rw [e21]; omega

/-- THE ARRAY after region 2: the mean pool of the features the region finds over the graph ids it finds. -/
theorem arr2_eq (c : Dev nD) (batch : (⟨Cert.ReferenceIdeal.S100000, .i32⟩ : BufTy).Contents (Elt Ideal))
    (hbt : ∀ n : Fin 100000, V c main_v46 (ix2 n (0 : Fin 1)) = batch (ix1 n)) :
    (dat2 V c).arrAt 2 cfg2.N = refPool (F := Ideal) batch (V c main_v45) :=
  (dat2 V c).arrAt_eq_of_cover 2 _ (fun t hf => flushed2_eq V c batch hbt t hf) cover2

end Val2

end Cert.KernelIdeal.Hand

end
-- ==== Proof.Value.lean ====
/-
  The value of the kernel program's result, over the extended reals: region by region the array each region
  leaves is the reference's stage of the same name-free description — the first layer of the neighbour mean of the
  inputs, the second layer of the neighbour mean of that, the mean pool of that — so the last array is the
  reference's result as a function of the nine argument arrays.
-/
import proofs.«414671_j14113262535138_3_alg».proof.Proof.HostChain
import proofs.«414671_j14113262535138_3_alg».proof.Proof.Val0
import proofs.«414671_j14113262535138_3_alg».proof.Proof.Val1
import proofs.«414671_j14113262535138_3_alg».proof.Proof.Val2

noncomputable section

namespace Cert.KernelIdeal.Hand

open Cert.KernelIdeal Cert.KernelIdeal.Gen Cert.ReferenceIdeal.Read Cert.ReferenceIdeal.RefValue
open Idealize.ShloMosaic Idealize.ShloMosaic.TcCoe Idealize.ShloMosaic.ValueIdx
open Idealize.SL Idealize.SL.Sem

variable (m : (ℓ : Loc nD τ sig) → Buf (Elt Ideal) ℓ) (c : Dev nD)

/-- After region 0 its output array holds the reference's first hidden layer. -/
theorem h1_eq : W2 m c (Proc.devRef .tc main_v24)
    = val_main_v29 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  have e : W2 m c (Proc.devRef .tc main_v24) = refLayer1 (F := Ideal) (W1 m c (Proc.devRef .tc main_v22)) (W1 m c (Proc.devRef .tc main_arg0))
      (W1 m c (Proc.devRef .tc main_arg3)) (m ((c : Thread nD τ).loc main_arg4)) (W1 m c (Proc.devRef .tc main_arg5)) :=
    (W2_arr m c 5).trans (arr0_eq (Vt1 m) c (m ((c : Thread nD τ).loc main_arg4)) (W1_bias m c))
  rw [W1_mean m c, W1_arg0 m c, W1_arg3 m c, W1_arg5 m c] at e
  exact e.trans (val_main_v29_eq _ _ _ _ _).symm

/-- After region 1 its output array holds the reference's second hidden layer. -/
theorem h2_eq : W4 m c (Proc.devRef .tc main_v45)
    = val_main_v59 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e : W4 m c (Proc.devRef .tc main_v45) = refLayer2 (F := Ideal) (W3 m c (Proc.devRef .tc main_v43)) (W3 m c (Proc.devRef .tc main_v24))
      (W3 m c (Proc.devRef .tc main_arg6)) (m ((c : Thread nD τ).loc main_arg7)) (W3 m c (Proc.devRef .tc main_arg8)) :=
    (W4_arr m c 5).trans (arr1_eq (Vt3 m) c (m ((c : Thread nD τ).loc main_arg7)) (W3_bias m c))
  rw [W3_mean m c, W3_h1 m c, W3_arg6 m c, W3_arg8 m c, h1_eq m c, ← val_main_v48_eq] at e
  exact e.trans (val_main_v59_eq _ _ _ _ _ _ _ _).symm

/-- After region 2 its output array — the program's result — holds the reference's result. -/
theorem out_eq : W6 m c (Proc.devRef .tc main_v47)
    = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e : W6 m c (Proc.devRef .tc main_v47) = refPool (F := Ideal) (m ((c : Thread nD τ).loc main_arg2)) (W5 m c (Proc.devRef .tc main_v45)) :=
    (W6_arr m c 2).trans (arr2_eq (Vt5 m) c (m ((c : Thread nD τ).loc main_arg2)) (W5_batch m c))
  rw [W5_h2 m c, h2_eq m c] at e
  exact e.trans (val_main_v71_pool _ _ _ _ _ _ _ _ _).symm

end Cert.KernelIdeal.Hand

end
-- ==== Proof.lean ====
/-
  The certificate's five claims. The kernel program and its idealization run as three host stretches and three
  staged regions; at the end every unscoped buffer holds the last of the boundary contents, at which each argument
  is what was launched (the two frames) and the result array is the reference's result term (the equivalence over
  the extended reals). The reference is host operations only: its run is read back operation by operation. The
  idealization rewrote nothing, so there is nothing to preserve.
-/
import proofs.«414671_j14113262535138_3_alg».proof.Defs
import proofs.«414671_j14113262535138_3_alg».proof.Proof.Gen.Kernel
import proofs.«414671_j14113262535138_3_alg».proof.Proof.Gen.KernelIdeal
import proofs.«414671_j14113262535138_3_alg».proof.Proof.Gen.ReferenceIdeal
import proofs.«414671_j14113262535138_3_alg».proof.Proof.Gen.Pre_finite_inputs
import proofs.«414671_j14113262535138_3_alg».proof.Proof.K.Args
import proofs.«414671_j14113262535138_3_alg».proof.Proof.Value

noncomputable section

namespace Cert.Proof

open Idealize.ShloMosaic Idealize.ShloMosaic.TcCoe Idealize.SL.Sem

/-- The word-level kernel program runs to the end and leaves its nine arguments as launched. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W6_main_arg0 m c),
      (h c _ (Cert.Kernel.Hand.mem_uc Cert.Kernel.main_arg1 (by decide))).trans (Cert.Kernel.Hand.W6_main_arg1 m c),
      (h c _ (Cert.Kernel.Hand.mem_uc Cert.Kernel.main_arg2 (by decide))).trans (Cert.Kernel.Hand.W6_main_arg2 m c),
      (h c _ (Cert.Kernel.Hand.mem_uc Cert.Kernel.main_arg3 (by decide))).trans (Cert.Kernel.Hand.W6_main_arg3 m c),
      (h c _ (Cert.Kernel.Hand.mem_uc Cert.Kernel.main_arg4 (by decide))).trans (Cert.Kernel.Hand.W6_main_arg4 m c),
      (h c _ (Cert.Kernel.Hand.mem_uc Cert.Kernel.main_arg5 (by decide))).trans (Cert.Kernel.Hand.W6_main_arg5 m c),
      (h c _ (Cert.Kernel.Hand.mem_uc Cert.Kernel.main_arg6 (by decide))).trans (Cert.Kernel.Hand.W6_main_arg6 m c),
      (h c _ (Cert.Kernel.Hand.mem_uc Cert.Kernel.main_arg7 (by decide))).trans (Cert.Kernel.Hand.W6_main_arg7 m c),
      (h c _ (Cert.Kernel.Hand.mem_uc Cert.Kernel.main_arg8 (by decide))).trans (Cert.Kernel.Hand.W6_main_arg8 m c)⟩)
    (Cert.Kernel.Hand.run_all (F := Bits) m ρ)

/-- So does its idealization. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c),
      (h c _ (Cert.KernelIdeal.Hand.mem_uc Cert.KernelIdeal.main_arg6 (by decide))).trans (Cert.KernelIdeal.Hand.W6_main_arg6 m c),
      (h c _ (Cert.KernelIdeal.Hand.mem_uc Cert.KernelIdeal.main_arg7 (by decide))).trans (Cert.KernelIdeal.Hand.W6_main_arg7 m c),
      (h c _ (Cert.KernelIdeal.Hand.mem_uc Cert.KernelIdeal.main_arg8 (by decide))).trans (Cert.KernelIdeal.Hand.W6_main_arg8 m c)⟩)
    (Cert.KernelIdeal.Hand.run_all (F := Ideal) m ρ)

/-- The reference's run, its result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the same result array: the kernel program's
    last region leaves the reference's result term of the arguments (`out_eq`), and the reference's run ends at that
    term. -/
theorem algebraic : Cert.algebraic_KernelIdeal_ReferenceIdeal := by
  intro m ρ m' ρ' _ hagree
  refine ⟨fun c => Cert.KernelIdeal.Hand.W6 m c (Proc.devRef .tc Cert.KernelIdeal.main_v47), ?_, ?_⟩
  · exact (θ_run (Cert.KernelIdeal.defs (F := Ideal)) _ _).mono (fun r h c =>
      ⟨h c _ (Cert.KernelIdeal.Hand.mem_uc Cert.KernelIdeal.main_v47 (by decide)),
      (h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c),
      (h c _ (Cert.KernelIdeal.Hand.mem_uc Cert.KernelIdeal.main_arg6 (by decide))).trans (Cert.KernelIdeal.Hand.W6_main_arg6 m c),
      (h c _ (Cert.KernelIdeal.Hand.mem_uc Cert.KernelIdeal.main_arg7 (by decide))).trans (Cert.KernelIdeal.Hand.W6_main_arg7 m c),
      (h c _ (Cert.KernelIdeal.Hand.mem_uc Cert.KernelIdeal.main_arg8 (by decide))).trans (Cert.KernelIdeal.Hand.W6_main_arg8 m c)⟩)
      (Cert.KernelIdeal.Hand.run_all (F := Ideal) m ρ)
  · refine (θ_run (Cert.ReferenceIdeal.defs (F := Ideal)) _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v71_eq m' c, a0, a1, a2, a3, a4, a5, a6, a7, a8]
    exact (Cert.KernelIdeal.Hand.out_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
